-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000 : Shape := ⟨1, ![1250000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000 : S_.BroadcastsInDim S1250000 (![] : Fin 0 → Fin S1250000.rank)
  reducesTo_S1250000_S_d0 : S1250000.ReducesTo [0] S_

variable [Facts]

def fn_part1 {F : FTy → Type} [FloatOps F] (main_v10 : IVec S_ 1) (main_v15 : IVec S1250000 1) (main_c_5 : IVec S_ 1) : IVec S_ 1 :=
  let main_v16 : IVec S_ 1 := (fun x v => Host.reduce IntOp.andi x v reducesTo_S1250000_S_d0 h_S_) main_v15 main_c_5
  let main_v17 : IVec S_ 1 := andi main_v10 main_v16
  main_v17

def fn {F : FTy → Type} [FloatOps F] (main_arg0 : FVec F S100000x64 .f32) (main_arg1 : IVec S1250000 32) (main_arg2 : IVec S1250000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_c_0 : IVec S_ 32 := constantI S_ 32 0#32
  let main_v4 : IVec S1250000 32 := broadcastInDim S1250000 ![] bcast_S_S1250000 main_c_0
  let main_v5 : IVec S1250000 1 := cmpi .sge main_arg1 main_v4
  let main_c_1 : IVec S_ 32 := constantI S_ 32 100000#32
  let main_v6 : IVec S1250000 32 := broadcastInDim S1250000 ![] bcast_S_S1250000 main_c_1
  let main_v7 : IVec S1250000 1 := cmpi .slt main_arg1 main_v6
  let main_v8 : IVec S1250000 1 := andi main_v5 main_v7
  let main_c_2 : IVec S_ 1 := constantI S_ 1 1#1
  let main_v9 : IVec S_ 1 := (fun x v => Host.reduce IntOp.andi x v reducesTo_S1250000_S_d0 h_S_) main_v8 main_c_2
  let main_v10 : IVec S_ 1 := andi main_v3 main_v9
  let main_c_3 : IVec S_ 32 := constantI S_ 32 0#32
  let main_v11 : IVec S1250000 32 := broadcastInDim S1250000 ![] bcast_S_S1250000 main_c_3
  let main_v12 : IVec S1250000 1 := cmpi .sge main_arg2 main_v11
  let main_c_4 : IVec S_ 32 := constantI S_ 32 100000#32
  let main_v13 : IVec S1250000 32 := broadcastInDim S1250000 ![] bcast_S_S1250000 main_c_4
  let main_v14 : IVec S1250000 1 := cmpi .slt main_arg2 main_v13
  let main_v15 : IVec S1250000 1 := andi main_v12 main_v14
  let main_c_5 : IVec S_ 1 := constantI S_ 1 1#1
  fn_part1 (F := F) main_v10 main_v15 main_c_5
-- ==== Kernel.lean ====
abbrev S100000x64 : Shape := ⟨2, ![100000, 64]⟩
abbrev S1250000 : Shape := ⟨1, ![1250000]⟩
abbrev S_ : Shape := ⟨0, ![]⟩
abbrev S1253376 : Shape := ⟨1, ![1253376]⟩
abbrev S8192 : Shape := ⟨1, ![8192]⟩
abbrev S1 : Shape := ⟨1, ![1]⟩
abbrev S1x64 : Shape := ⟨2, ![1, 64]⟩
abbrev S64 : Shape := ⟨1, ![64]⟩
abbrev S128x64 : Shape := ⟨2, ![128, 64]⟩
abbrev S128 : Shape := ⟨1, ![128]⟩

abbrev nBuf : Space → Nat
  | .hbm => 11
  | .vmem => 3
  | .smem => 4
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S_, .i32⟩
  | .hbm, ⟨4, _⟩ => ⟨S_, .i32⟩
  | .hbm, ⟨5, _⟩ => ⟨S1253376, .i32⟩
  | .hbm, ⟨6, _⟩ => ⟨S_, .i32⟩
  | .hbm, ⟨7, _⟩ => ⟨S_, .i32⟩
  | .hbm, ⟨8, _⟩ => ⟨S1253376, .i32⟩
  | .hbm, ⟨9, _⟩ => ⟨S1253376, .f32⟩
  | .hbm, ⟨10, _⟩ => ⟨S1250000, .f32⟩
  | .local _ .vmem, ⟨0, _⟩ => ⟨S100000x64, .f32⟩
  | .local _ .vmem, ⟨1, _⟩ => ⟨S8192, .f32⟩
  | .local _ .vmem, ⟨2, _⟩ => ⟨S8192, .f32⟩
  | .local _ .smem, ⟨0, _⟩ => ⟨S8192, .i32⟩
  | .local _ .smem, ⟨1, _⟩ => ⟨S8192, .i32⟩
  | .local _ .smem, ⟨2, _⟩ => ⟨S8192, .i32⟩
  | .local _ .smem, ⟨3, _⟩ => ⟨S8192, .i32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg1_0 : Ref sig .tc := ⟨.smem, 0, rfl⟩
abbrev cc0_stg1_1 : Ref sig .tc := ⟨.smem, 1, rfl⟩
abbrev cc0_stg2_0 : Ref sig .tc := ⟨.smem, 2, rfl⟩
abbrev cc0_stg2_1 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![153], ![false]⟩

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  v1
def k0_off1 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c0_i32_1 : BitVec 32 := 0#32
  let v3 : BitVec 32 := Scalar.addi v2 c0_i32_1
  let v4 : Index := Scalar.indexCast v3
  ![v4.toNat]
def k0_off2 (v5 : BitVec 32) : Fin 2 → Nat :=
  let v9 : Index := Scalar.indexCast v5
  let c0 : Index := 0#32
  ![v9.toNat, 0]

def k0_chk1 (v5 : BitVec 32) : Prop :=
  (∀ a, (k0_off2 v5) a + S1x64.size a ≤ S100000x64.size a)
instance k0_chk1.dec : ∀ (v5 : BitVec 32), Decidable (k0_chk1 v5) := fun v5 => decidable_of_iff' _ (Iff.of_eq (k0_chk1.eq_1 v5))
theorem k0_off2_inb : ∀ (v5 : BitVec 32) (k0_hw1 : k0_chk1 v5), ∀ a, (k0_off2 v5) a + S1x64.size a ≤ S100000x64.size a := fun v5 k0_hw1 => k0_hw1

def k0_off3 (v8 : BitVec 32) : Fin 2 → Nat :=
  let v12 : Index := Scalar.indexCast v8
  let c0_3 : Index := 0#32
  ![v12.toNat, 0]

def k0_chk2 (v8 : BitVec 32) : Prop :=
  (∀ a, (k0_off3 v8) a + S1x64.size a ≤ S100000x64.size a)
instance k0_chk2.dec : ∀ (v8 : BitVec 32), Decidable (k0_chk2 v8) := fun v8 => decidable_of_iff' _ (Iff.of_eq (k0_chk2.eq_1 v8))
theorem k0_off3_inb : ∀ (v8 : BitVec 32) (k0_hw2 : k0_chk2 v8), ∀ a, (k0_off3 v8) a + S1x64.size a ≤ S100000x64.size a := fun v8 k0_hw2 => k0_hw2

def k0_off4 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c1_i32_4 : BitVec 32 := 1#32
  let v15 : BitVec 32 := Scalar.addi v2 c1_i32_4
  let v16 : Index := Scalar.indexCast v15
  ![v16.toNat]
def k0_off5 (v17 : BitVec 32) : Fin 2 → Nat :=
  let v21 : Index := Scalar.indexCast v17
  let c0_6 : Index := 0#32
  ![v21.toNat, 0]

def k0_chk3 (v17 : BitVec 32) : Prop :=
  (∀ a, (k0_off5 v17) a + S1x64.size a ≤ S100000x64.size a)
instance k0_chk3.dec : ∀ (v17 : BitVec 32), Decidable (k0_chk3 v17) := fun v17 => decidable_of_iff' _ (Iff.of_eq (k0_chk3.eq_1 v17))
theorem k0_off5_inb : ∀ (v17 : BitVec 32) (k0_hw3 : k0_chk3 v17), ∀ a, (k0_off5 v17) a + S1x64.size a ≤ S100000x64.size a := fun v17 k0_hw3 => k0_hw3

def k0_off6 (v20 : BitVec 32) : Fin 2 → Nat :=
  let v24 : Index := Scalar.indexCast v20
  let c0_7 : Index := 0#32
  ![v24.toNat, 0]

def k0_chk4 (v20 : BitVec 32) : Prop :=
  (∀ a, (k0_off6 v20) a + S1x64.size a ≤ S100000x64.size a)
instance k0_chk4.dec : ∀ (v20 : BitVec 32), Decidable (k0_chk4 v20) := fun v20 => decidable_of_iff' _ (Iff.of_eq (k0_chk4.eq_1 v20))
theorem k0_off6_inb : ∀ (v20 : BitVec 32) (k0_hw4 : k0_chk4 v20), ∀ a, (k0_off6 v20) a + S1x64.size a ≤ S100000x64.size a := fun v20 k0_hw4 => k0_hw4

def k0_off7 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c2_i32 : BitVec 32 := 2#32
  let v27 : BitVec 32 := Scalar.addi v2 c2_i32
  let v28 : Index := Scalar.indexCast v27
  ![v28.toNat]
def k0_off8 (v29 : BitVec 32) : Fin 2 → Nat :=
  let v33 : Index := Scalar.indexCast v29
  let c0_9 : Index := 0#32
  ![v33.toNat, 0]

def k0_chk5 (v29 : BitVec 32) : Prop :=
  (∀ a, (k0_off8 v29) a + S1x64.size a ≤ S100000x64.size a)
instance k0_chk5.dec : ∀ (v29 : BitVec 32), Decidable (k0_chk5 v29) := fun v29 => decidable_of_iff' _ (Iff.of_eq (k0_chk5.eq_1 v29))
theorem k0_off8_inb : ∀ (v29 : BitVec 32) (k0_hw5 : k0_chk5 v29), ∀ a, (k0_off8 v29) a + S1x64.size a ≤ S100000x64.size a := fun v29 k0_hw5 => k0_hw5

def k0_off9 (v32 : BitVec 32) : Fin 2 → Nat :=
  let v36 : Index := Scalar.indexCast v32
  let c0_10 : Index := 0#32
  ![v36.toNat, 0]

def k0_chk6 (v32 : BitVec 32) : Prop :=
  (∀ a, (k0_off9 v32) a + S1x64.size a ≤ S100000x64.size a)
instance k0_chk6.dec : ∀ (v32 : BitVec 32), Decidable (k0_chk6 v32) := fun v32 => decidable_of_iff' _ (Iff.of_eq (k0_chk6.eq_1 v32))
theorem k0_off9_inb : ∀ (v32 : BitVec 32) (k0_hw6 : k0_chk6 v32), ∀ a, (k0_off9 v32) a + S1x64.size a ≤ S100000x64.size a := fun v32 k0_hw6 => k0_hw6

def k0_off10 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c3_i32 : BitVec 32 := 3#32
  let v39 : BitVec 32 := Scalar.addi v2 c3_i32
  let v40 : Index := Scalar.indexCast v39
  ![v40.toNat]
def k0_off11 (v41 : BitVec 32) : Fin 2 → Nat :=
  let v45 : Index := Scalar.indexCast v41
  let c0_12 : Index := 0#32
  ![v45.toNat, 0]

def k0_chk7 (v41 : BitVec 32) : Prop :=
  (∀ a, (k0_off11 v41) a + S1x64.size a ≤ S100000x64.size a)
instance k0_chk7.dec : ∀ (v41 : BitVec 32), Decidable (k0_chk7 v41) := fun v41 => decidable_of_iff' _ (Iff.of_eq (k0_chk7.eq_1 v41))
theorem k0_off11_inb : ∀ (v41 : BitVec 32) (k0_hw7 : k0_chk7 v41), ∀ a, (k0_off11 v41) a + S1x64.size a ≤ S100000x64.size a := fun v41 k0_hw7 => k0_hw7

def k0_off12 (v44 : BitVec 32) : Fin 2 → Nat :=
  let v48 : Index := Scalar.indexCast v44
  let c0_13 : Index := 0#32
  ![v48.toNat, 0]

def k0_chk8 (v44 : BitVec 32) : Prop :=
  (∀ a, (k0_off12 v44) a + S1x64.size a ≤ S100000x64.size a)
instance k0_chk8.dec : ∀ (v44 : BitVec 32), Decidable (k0_chk8 v44) := fun v44 => decidable_of_iff' _ (Iff.of_eq (k0_chk8.eq_1 v44))
theorem k0_off12_inb : ∀ (v44 : BitVec 32) (k0_hw8 : k0_chk8 v44), ∀ a, (k0_off12 v44) a + S1x64.size a ≤ S100000x64.size a := fun v44 k0_hw8 => k0_hw8

def k0_off13 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c4_i32 : BitVec 32 := 4#32
  let v51 : BitVec 32 := Scalar.addi v2 c4_i32
  let v52 : Index := Scalar.indexCast v51
  ![v52.toNat]
def k0_off14 (v53 : BitVec 32) : Fin 2 → Nat :=
  let v57 : Index := Scalar.indexCast v53
  let c0_15 : Index := 0#32
  ![v57.toNat, 0]

def k0_chk9 (v53 : BitVec 32) : Prop :=
  (∀ a, (k0_off14 v53) a + S1x64.size a ≤ S100000x64.size a)
instance k0_chk9.dec : ∀ (v53 : BitVec 32), Decidable (k0_chk9 v53) := fun v53 => decidable_of_iff' _ (Iff.of_eq (k0_chk9.eq_1 v53))
theorem k0_off14_inb : ∀ (v53 : BitVec 32) (k0_hw9 : k0_chk9 v53), ∀ a, (k0_off14 v53) a + S1x64.size a ≤ S100000x64.size a := fun v53 k0_hw9 => k0_hw9

def k0_off15 (v56 : BitVec 32) : Fin 2 → Nat :=
  let v60 : Index := Scalar.indexCast v56
  let c0_16 : Index := 0#32
  ![v60.toNat, 0]

def k0_chk10 (v56 : BitVec 32) : Prop :=
  (∀ a, (k0_off15 v56) a + S1x64.size a ≤ S100000x64.size a)
instance k0_chk10.dec : ∀ (v56 : BitVec 32), Decidable (k0_chk10 v56) := fun v56 => decidable_of_iff' _ (Iff.of_eq (k0_chk10.eq_1 v56))
theorem k0_off15_inb : ∀ (v56 : BitVec 32) (k0_hw10 : k0_chk10 v56), ∀ a, (k0_off15 v56) a + S1x64.size a ≤ S100000x64.size a := fun v56 k0_hw10 => k0_hw10

def k0_off16 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c5_i32 : BitVec 32 := 5#32
  let v63 : BitVec 32 := Scalar.addi v2 c5_i32
  let v64 : Index := Scalar.indexCast v63
  ![v64.toNat]
def k0_off17 (v65 : BitVec 32) : Fin 2 → Nat :=
  let v69 : Index := Scalar.indexCast v65
  let c0_18 : Index := 0#32
  ![v69.toNat, 0]

def k0_chk11 (v65 : BitVec 32) : Prop :=
  (∀ a, (k0_off17 v65) a + S1x64.size a ≤ S100000x64.size a)
instance k0_chk11.dec : ∀ (v65 : BitVec 32), Decidable (k0_chk11 v65) := fun v65 => decidable_of_iff' _ (Iff.of_eq (k0_chk11.eq_1 v65))
theorem k0_off17_inb : ∀ (v65 : BitVec 32) (k0_hw11 : k0_chk11 v65), ∀ a, (k0_off17 v65) a + S1x64.size a ≤ S100000x64.size a := fun v65 k0_hw11 => k0_hw11

def k0_off18 (v68 : BitVec 32) : Fin 2 → Nat :=
  let v72 : Index := Scalar.indexCast v68
  let c0_19 : Index := 0#32
  ![v72.toNat, 0]

def k0_chk12 (v68 : BitVec 32) : Prop :=
  (∀ a, (k0_off18 v68) a + S1x64.size a ≤ S100000x64.size a)
instance k0_chk12.dec : ∀ (v68 : BitVec 32), Decidable (k0_chk12 v68) := fun v68 => decidable_of_iff' _ (Iff.of_eq (k0_chk12.eq_1 v68))
theorem k0_off18_inb : ∀ (v68 : BitVec 32) (k0_hw12 : k0_chk12 v68), ∀ a, (k0_off18 v68) a + S1x64.size a ≤ S100000x64.size a := fun v68 k0_hw12 => k0_hw12

def k0_off19 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c6_i32 : BitVec 32 := 6#32
  let v75 : BitVec 32 := Scalar.addi v2 c6_i32
  let v76 : Index := Scalar.indexCast v75
  ![v76.toNat]
def k0_off20 (v77 : BitVec 32) : Fin 2 → Nat :=
  let v81 : Index := Scalar.indexCast v77
  let c0_21 : Index := 0#32
  ![v81.toNat, 0]

def k0_chk13 (v77 : BitVec 32) : Prop :=
  (∀ a, (k0_off20 v77) a + S1x64.size a ≤ S100000x64.size a)
instance k0_chk13.dec : ∀ (v77 : BitVec 32), Decidable (k0_chk13 v77) := fun v77 => decidable_of_iff' _ (Iff.of_eq (k0_chk13.eq_1 v77))
theorem k0_off20_inb : ∀ (v77 : BitVec 32) (k0_hw13 : k0_chk13 v77), ∀ a, (k0_off20 v77) a + S1x64.size a ≤ S100000x64.size a := fun v77 k0_hw13 => k0_hw13

def k0_off21 (v80 : BitVec 32) : Fin 2 → Nat :=
  let v84 : Index := Scalar.indexCast v80
  let c0_22 : Index := 0#32
  ![v84.toNat, 0]

def k0_chk14 (v80 : BitVec 32) : Prop :=
  (∀ a, (k0_off21 v80) a + S1x64.size a ≤ S100000x64.size a)
instance k0_chk14.dec : ∀ (v80 : BitVec 32), Decidable (k0_chk14 v80) := fun v80 => decidable_of_iff' _ (Iff.of_eq (k0_chk14.eq_1 v80))
theorem k0_off21_inb : ∀ (v80 : BitVec 32) (k0_hw14 : k0_chk14 v80), ∀ a, (k0_off21 v80) a + S1x64.size a ≤ S100000x64.size a := fun v80 k0_hw14 => k0_hw14

def k0_off22 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c7_i32 : BitVec 32 := 7#32
  let v87 : BitVec 32 := Scalar.addi v2 c7_i32
  let v88 : Index := Scalar.indexCast v87
  ![v88.toNat]
def k0_off23 (v89 : BitVec 32) : Fin 2 → Nat :=
  let v93 : Index := Scalar.indexCast v89
  let c0_24 : Index := 0#32
  ![v93.toNat, 0]

def k0_chk15 (v89 : BitVec 32) : Prop :=
  (∀ a, (k0_off23 v89) a + S1x64.size a ≤ S100000x64.size a)
instance k0_chk15.dec : ∀ (v89 : BitVec 32), Decidable (k0_chk15 v89) := fun v89 => decidable_of_iff' _ (Iff.of_eq (k0_chk15.eq_1 v89))
theorem k0_off23_inb : ∀ (v89 : BitVec 32) (k0_hw15 : k0_chk15 v89), ∀ a, (k0_off23 v89) a + S1x64.size a ≤ S100000x64.size a := fun v89 k0_hw15 => k0_hw15

def k0_off24 (v92 : BitVec 32) : Fin 2 → Nat :=
  let v96 : Index := Scalar.indexCast v92
  let c0_25 : Index := 0#32
  ![v96.toNat, 0]

def k0_chk16 (v92 : BitVec 32) : Prop :=
  (∀ a, (k0_off24 v92) a + S1x64.size a ≤ S100000x64.size a)
instance k0_chk16.dec : ∀ (v92 : BitVec 32), Decidable (k0_chk16 v92) := fun v92 => decidable_of_iff' _ (Iff.of_eq (k0_chk16.eq_1 v92))
theorem k0_off24_inb : ∀ (v92 : BitVec 32) (k0_hw16 : k0_chk16 v92), ∀ a, (k0_off24 v92) a + S1x64.size a ≤ S100000x64.size a := fun v92 k0_hw16 => k0_hw16

def k0_off25 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c8_i32 : BitVec 32 := 8#32
  let v99 : BitVec 32 := Scalar.addi v2 c8_i32
  let v100 : Index := Scalar.indexCast v99
  ![v100.toNat]
def k0_off26 (v101 : BitVec 32) : Fin 2 → Nat :=
  let v105 : Index := Scalar.indexCast v101
  let c0_27 : Index := 0#32
  ![v105.toNat, 0]

def k0_chk17 (v101 : BitVec 32) : Prop :=
  (∀ a, (k0_off26 v101) a + S1x64.size a ≤ S100000x64.size a)
instance k0_chk17.dec : ∀ (v101 : BitVec 32), Decidable (k0_chk17 v101) := fun v101 => decidable_of_iff' _ (Iff.of_eq (k0_chk17.eq_1 v101))
theorem k0_off26_inb : ∀ (v101 : BitVec 32) (k0_hw17 : k0_chk17 v101), ∀ a, (k0_off26 v101) a + S1x64.size a ≤ S100000x64.size a := fun v101 k0_hw17 => k0_hw17

def k0_off27 (v104 : BitVec 32) : Fin 2 → Nat :=
  let v108 : Index := Scalar.indexCast v104
  let c0_28 : Index := 0#32
  ![v108.toNat, 0]

def k0_chk18 (v104 : BitVec 32) : Prop :=
  (∀ a, (k0_off27 v104) a + S1x64.size a ≤ S100000x64.size a)
instance k0_chk18.dec : ∀ (v104 : BitVec 32), Decidable (k0_chk18 v104) := fun v104 => decidable_of_iff' _ (Iff.of_eq (k0_chk18.eq_1 v104))
theorem k0_off27_inb : ∀ (v104 : BitVec 32) (k0_hw18 : k0_chk18 v104), ∀ a, (k0_off27 v104) a + S1x64.size a ≤ S100000x64.size a := fun v104 k0_hw18 => k0_hw18

def k0_off28 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c9_i32 : BitVec 32 := 9#32
  let v111 : BitVec 32 := Scalar.addi v2 c9_i32
  let v112 : Index := Scalar.indexCast v111
  ![v112.toNat]
def k0_off29 (v113 : BitVec 32) : Fin 2 → Nat :=
  let v117 : Index := Scalar.indexCast v113
  let c0_30 : Index := 0#32
  ![v117.toNat, 0]

def k0_chk19 (v113 : BitVec 32) : Prop :=
  (∀ a, (k0_off29 v113) a + S1x64.size a ≤ S100000x64.size a)
instance k0_chk19.dec : ∀ (v113 : BitVec 32), Decidable (k0_chk19 v113) := fun v113 => decidable_of_iff' _ (Iff.of_eq (k0_chk19.eq_1 v113))
theorem k0_off29_inb : ∀ (v113 : BitVec 32) (k0_hw19 : k0_chk19 v113), ∀ a, (k0_off29 v113) a + S1x64.size a ≤ S100000x64.size a := fun v113 k0_hw19 => k0_hw19

def k0_off30 (v116 : BitVec 32) : Fin 2 → Nat :=
  let v120 : Index := Scalar.indexCast v116
  let c0_31 : Index := 0#32
  ![v120.toNat, 0]

def k0_chk20 (v116 : BitVec 32) : Prop :=
  (∀ a, (k0_off30 v116) a + S1x64.size a ≤ S100000x64.size a)
instance k0_chk20.dec : ∀ (v116 : BitVec 32), Decidable (k0_chk20 v116) := fun v116 => decidable_of_iff' _ (Iff.of_eq (k0_chk20.eq_1 v116))
theorem k0_off30_inb : ∀ (v116 : BitVec 32) (k0_hw20 : k0_chk20 v116), ∀ a, (k0_off30 v116) a + S1x64.size a ≤ S100000x64.size a := fun v116 k0_hw20 => k0_hw20

def k0_off31 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c10_i32 : BitVec 32 := 10#32
  let v123 : BitVec 32 := Scalar.addi v2 c10_i32
  let v124 : Index := Scalar.indexCast v123
  ![v124.toNat]
def k0_off32 (v125 : BitVec 32) : Fin 2 → Nat :=
  let v129 : Index := Scalar.indexCast v125
  let c0_33 : Index := 0#32
  ![v129.toNat, 0]

def k0_chk21 (v125 : BitVec 32) : Prop :=
  (∀ a, (k0_off32 v125) a + S1x64.size a ≤ S100000x64.size a)
instance k0_chk21.dec : ∀ (v125 : BitVec 32), Decidable (k0_chk21 v125) := fun v125 => decidable_of_iff' _ (Iff.of_eq (k0_chk21.eq_1 v125))
theorem k0_off32_inb : ∀ (v125 : BitVec 32) (k0_hw21 : k0_chk21 v125), ∀ a, (k0_off32 v125) a + S1x64.size a ≤ S100000x64.size a := fun v125 k0_hw21 => k0_hw21

def k0_off33 (v128 : BitVec 32) : Fin 2 → Nat :=
  let v132 : Index := Scalar.indexCast v128
  let c0_34 : Index := 0#32
  ![v132.toNat, 0]

def k0_chk22 (v128 : BitVec 32) : Prop :=
  (∀ a, (k0_off33 v128) a + S1x64.size a ≤ S100000x64.size a)
instance k0_chk22.dec : ∀ (v128 : BitVec 32), Decidable (k0_chk22 v128) := fun v128 => decidable_of_iff' _ (Iff.of_eq (k0_chk22.eq_1 v128))
theorem k0_off33_inb : ∀ (v128 : BitVec 32) (k0_hw22 : k0_chk22 v128), ∀ a, (k0_off33 v128) a + S1x64.size a ≤ S100000x64.size a := fun v128 k0_hw22 => k0_hw22

def k0_off34 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c11_i32 : BitVec 32 := 11#32
  let v135 : BitVec 32 := Scalar.addi v2 c11_i32
  let v136 : Index := Scalar.indexCast v135
  ![v136.toNat]
def k0_off35 (v137 : BitVec 32) : Fin 2 → Nat :=
  let v141 : Index := Scalar.indexCast v137
  let c0_36 : Index := 0#32
  ![v141.toNat, 0]

def k0_chk23 (v137 : BitVec 32) : Prop :=
  (∀ a, (k0_off35 v137) a + S1x64.size a ≤ S100000x64.size a)
instance k0_chk23.dec : ∀ (v137 : BitVec 32), Decidable (k0_chk23 v137) := fun v137 => decidable_of_iff' _ (Iff.of_eq (k0_chk23.eq_1 v137))
theorem k0_off35_inb : ∀ (v137 : BitVec 32) (k0_hw23 : k0_chk23 v137), ∀ a, (k0_off35 v137) a + S1x64.size a ≤ S100000x64.size a := fun v137 k0_hw23 => k0_hw23

def k0_off36 (v140 : BitVec 32) : Fin 2 → Nat :=
  let v144 : Index := Scalar.indexCast v140
  let c0_37 : Index := 0#32
  ![v144.toNat, 0]

def k0_chk24 (v140 : BitVec 32) : Prop :=
  (∀ a, (k0_off36 v140) a + S1x64.size a ≤ S100000x64.size a)
instance k0_chk24.dec : ∀ (v140 : BitVec 32), Decidable (k0_chk24 v140) := fun v140 => decidable_of_iff' _ (Iff.of_eq (k0_chk24.eq_1 v140))
theorem k0_off36_inb : ∀ (v140 : BitVec 32) (k0_hw24 : k0_chk24 v140), ∀ a, (k0_off36 v140) a + S1x64.size a ≤ S100000x64.size a := fun v140 k0_hw24 => k0_hw24

def k0_off37 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c12_i32 : BitVec 32 := 12#32
  let v147 : BitVec 32 := Scalar.addi v2 c12_i32
  let v148 : Index := Scalar.indexCast v147
  ![v148.toNat]
def k0_off38 (v149 : BitVec 32) : Fin 2 → Nat :=
  let v153 : Index := Scalar.indexCast v149
  let c0_39 : Index := 0#32
  ![v153.toNat, 0]

def k0_chk25 (v149 : BitVec 32) : Prop :=
  (∀ a, (k0_off38 v149) a + S1x64.size a ≤ S100000x64.size a)
instance k0_chk25.dec : ∀ (v149 : BitVec 32), Decidable (k0_chk25 v149) := fun v149 => decidable_of_iff' _ (Iff.of_eq (k0_chk25.eq_1 v149))
theorem k0_off38_inb : ∀ (v149 : BitVec 32) (k0_hw25 : k0_chk25 v149), ∀ a, (k0_off38 v149) a + S1x64.size a ≤ S100000x64.size a := fun v149 k0_hw25 => k0_hw25

def k0_off39 (v152 : BitVec 32) : Fin 2 → Nat :=
  let v156 : Index := Scalar.indexCast v152
  let c0_40 : Index := 0#32
  ![v156.toNat, 0]

def k0_chk26 (v152 : BitVec 32) : Prop :=
  (∀ a, (k0_off39 v152) a + S1x64.size a ≤ S100000x64.size a)
instance k0_chk26.dec : ∀ (v152 : BitVec 32), Decidable (k0_chk26 v152) := fun v152 => decidable_of_iff' _ (Iff.of_eq (k0_chk26.eq_1 v152))
theorem k0_off39_inb : ∀ (v152 : BitVec 32) (k0_hw26 : k0_chk26 v152), ∀ a, (k0_off39 v152) a + S1x64.size a ≤ S100000x64.size a := fun v152 k0_hw26 => k0_hw26

def k0_off40 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c13_i32 : BitVec 32 := 13#32
  let v159 : BitVec 32 := Scalar.addi v2 c13_i32
  let v160 : Index := Scalar.indexCast v159
  ![v160.toNat]
def k0_off41 (v161 : BitVec 32) : Fin 2 → Nat :=
  let v165 : Index := Scalar.indexCast v161
  let c0_42 : Index := 0#32
  ![v165.toNat, 0]

def k0_chk27 (v161 : BitVec 32) : Prop :=
  (∀ a, (k0_off41 v161) a + S1x64.size a ≤ S100000x64.size a)
instance k0_chk27.dec : ∀ (v161 : BitVec 32), Decidable (k0_chk27 v161) := fun v161 => decidable_of_iff' _ (Iff.of_eq (k0_chk27.eq_1 v161))
theorem k0_off41_inb : ∀ (v161 : BitVec 32) (k0_hw27 : k0_chk27 v161), ∀ a, (k0_off41 v161) a + S1x64.size a ≤ S100000x64.size a := fun v161 k0_hw27 => k0_hw27

def k0_off42 (v164 : BitVec 32) : Fin 2 → Nat :=
  let v168 : Index := Scalar.indexCast v164
  let c0_43 : Index := 0#32
  ![v168.toNat, 0]

def k0_chk28 (v164 : BitVec 32) : Prop :=
  (∀ a, (k0_off42 v164) a + S1x64.size a ≤ S100000x64.size a)
instance k0_chk28.dec : ∀ (v164 : BitVec 32), Decidable (k0_chk28 v164) := fun v164 => decidable_of_iff' _ (Iff.of_eq (k0_chk28.eq_1 v164))
theorem k0_off42_inb : ∀ (v164 : BitVec 32) (k0_hw28 : k0_chk28 v164), ∀ a, (k0_off42 v164) a + S1x64.size a ≤ S100000x64.size a := fun v164 k0_hw28 => k0_hw28

def k0_off43 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c14_i32 : BitVec 32 := 14#32
  let v171 : BitVec 32 := Scalar.addi v2 c14_i32
  let v172 : Index := Scalar.indexCast v171
  ![v172.toNat]
def k0_off44 (v173 : BitVec 32) : Fin 2 → Nat :=
  let v177 : Index := Scalar.indexCast v173
  let c0_45 : Index := 0#32
  ![v177.toNat, 0]

def k0_chk29 (v173 : BitVec 32) : Prop :=
  (∀ a, (k0_off44 v173) a + S1x64.size a ≤ S100000x64.size a)
instance k0_chk29.dec : ∀ (v173 : BitVec 32), Decidable (k0_chk29 v173) := fun v173 => decidable_of_iff' _ (Iff.of_eq (k0_chk29.eq_1 v173))
theorem k0_off44_inb : ∀ (v173 : BitVec 32) (k0_hw29 : k0_chk29 v173), ∀ a, (k0_off44 v173) a + S1x64.size a ≤ S100000x64.size a := fun v173 k0_hw29 => k0_hw29

def k0_off45 (v176 : BitVec 32) : Fin 2 → Nat :=
  let v180 : Index := Scalar.indexCast v176
  let c0_46 : Index := 0#32
  ![v180.toNat, 0]

def k0_chk30 (v176 : BitVec 32) : Prop :=
  (∀ a, (k0_off45 v176) a + S1x64.size a ≤ S100000x64.size a)
instance k0_chk30.dec : ∀ (v176 : BitVec 32), Decidable (k0_chk30 v176) := fun v176 => decidable_of_iff' _ (Iff.of_eq (k0_chk30.eq_1 v176))
theorem k0_off45_inb : ∀ (v176 : BitVec 32) (k0_hw30 : k0_chk30 v176), ∀ a, (k0_off45 v176) a + S1x64.size a ≤ S100000x64.size a := fun v176 k0_hw30 => k0_hw30

def k0_off46 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c15_i32 : BitVec 32 := 15#32
  let v183 : BitVec 32 := Scalar.addi v2 c15_i32
  let v184 : Index := Scalar.indexCast v183
  ![v184.toNat]
def k0_off47 (v185 : BitVec 32) : Fin 2 → Nat :=
  let v189 : Index := Scalar.indexCast v185
  let c0_48 : Index := 0#32
  ![v189.toNat, 0]

def k0_chk31 (v185 : BitVec 32) : Prop :=
  (∀ a, (k0_off47 v185) a + S1x64.size a ≤ S100000x64.size a)
instance k0_chk31.dec : ∀ (v185 : BitVec 32), Decidable (k0_chk31 v185) := fun v185 => decidable_of_iff' _ (Iff.of_eq (k0_chk31.eq_1 v185))
theorem k0_off47_inb : ∀ (v185 : BitVec 32) (k0_hw31 : k0_chk31 v185), ∀ a, (k0_off47 v185) a + S1x64.size a ≤ S100000x64.size a := fun v185 k0_hw31 => k0_hw31

def k0_off48 (v188 : BitVec 32) : Fin 2 → Nat :=
  let v192 : Index := Scalar.indexCast v188
  let c0_49 : Index := 0#32
  ![v192.toNat, 0]

def k0_chk32 (v188 : BitVec 32) : Prop :=
  (∀ a, (k0_off48 v188) a + S1x64.size a ≤ S100000x64.size a)
instance k0_chk32.dec : ∀ (v188 : BitVec 32), Decidable (k0_chk32 v188) := fun v188 => decidable_of_iff' _ (Iff.of_eq (k0_chk32.eq_1 v188))
theorem k0_off48_inb : ∀ (v188 : BitVec 32) (k0_hw32 : k0_chk32 v188), ∀ a, (k0_off48 v188) a + S1x64.size a ≤ S100000x64.size a := fun v188 k0_hw32 => k0_hw32

def k0_off49 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c16_i32 : BitVec 32 := 16#32
  let v195 : BitVec 32 := Scalar.addi v2 c16_i32
  let v196 : Index := Scalar.indexCast v195
  ![v196.toNat]
def k0_off50 (v197 : BitVec 32) : Fin 2 → Nat :=
  let v201 : Index := Scalar.indexCast v197
  let c0_51 : Index := 0#32
  ![v201.toNat, 0]

def k0_chk33 (v197 : BitVec 32) : Prop :=
  (∀ a, (k0_off50 v197) a + S1x64.size a ≤ S100000x64.size a)
instance k0_chk33.dec : ∀ (v197 : BitVec 32), Decidable (k0_chk33 v197) := fun v197 => decidable_of_iff' _ (Iff.of_eq (k0_chk33.eq_1 v197))
theorem k0_off50_inb : ∀ (v197 : BitVec 32) (k0_hw33 : k0_chk33 v197), ∀ a, (k0_off50 v197) a + S1x64.size a ≤ S100000x64.size a := fun v197 k0_hw33 => k0_hw33

def k0_off51 (v200 : BitVec 32) : Fin 2 → Nat :=
  let v204 : Index := Scalar.indexCast v200
  let c0_52 : Index := 0#32
  ![v204.toNat, 0]

def k0_chk34 (v200 : BitVec 32) : Prop :=
  (∀ a, (k0_off51 v200) a + S1x64.size a ≤ S100000x64.size a)
instance k0_chk34.dec : ∀ (v200 : BitVec 32), Decidable (k0_chk34 v200) := fun v200 => decidable_of_iff' _ (Iff.of_eq (k0_chk34.eq_1 v200))
theorem k0_off51_inb : ∀ (v200 : BitVec 32) (k0_hw34 : k0_chk34 v200), ∀ a, (k0_off51 v200) a + S1x64.size a ≤ S100000x64.size a := fun v200 k0_hw34 => k0_hw34

def k0_off52 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c17_i32 : BitVec 32 := 17#32
  let v207 : BitVec 32 := Scalar.addi v2 c17_i32
  let v208 : Index := Scalar.indexCast v207
  ![v208.toNat]
def k0_off53 (v209 : BitVec 32) : Fin 2 → Nat :=
  let v213 : Index := Scalar.indexCast v209
  let c0_54 : Index := 0#32
  ![v213.toNat, 0]

def k0_chk35 (v209 : BitVec 32) : Prop :=
  (∀ a, (k0_off53 v209) a + S1x64.size a ≤ S100000x64.size a)
instance k0_chk35.dec : ∀ (v209 : BitVec 32), Decidable (k0_chk35 v209) := fun v209 => decidable_of_iff' _ (Iff.of_eq (k0_chk35.eq_1 v209))
theorem k0_off53_inb : ∀ (v209 : BitVec 32) (k0_hw35 : k0_chk35 v209), ∀ a, (k0_off53 v209) a + S1x64.size a ≤ S100000x64.size a := fun v209 k0_hw35 => k0_hw35

def k0_off54 (v212 : BitVec 32) : Fin 2 → Nat :=
  let v216 : Index := Scalar.indexCast v212
  let c0_55 : Index := 0#32
  ![v216.toNat, 0]

def k0_chk36 (v212 : BitVec 32) : Prop :=
  (∀ a, (k0_off54 v212) a + S1x64.size a ≤ S100000x64.size a)
instance k0_chk36.dec : ∀ (v212 : BitVec 32), Decidable (k0_chk36 v212) := fun v212 => decidable_of_iff' _ (Iff.of_eq (k0_chk36.eq_1 v212))
theorem k0_off54_inb : ∀ (v212 : BitVec 32) (k0_hw36 : k0_chk36 v212), ∀ a, (k0_off54 v212) a + S1x64.size a ≤ S100000x64.size a := fun v212 k0_hw36 => k0_hw36

def k0_off55 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c18_i32 : BitVec 32 := 18#32
  let v219 : BitVec 32 := Scalar.addi v2 c18_i32
  let v220 : Index := Scalar.indexCast v219
  ![v220.toNat]
def k0_off56 (v221 : BitVec 32) : Fin 2 → Nat :=
  let v225 : Index := Scalar.indexCast v221
  let c0_57 : Index := 0#32
  ![v225.toNat, 0]

def k0_chk37 (v221 : BitVec 32) : Prop :=
  (∀ a, (k0_off56 v221) a + S1x64.size a ≤ S100000x64.size a)
instance k0_chk37.dec : ∀ (v221 : BitVec 32), Decidable (k0_chk37 v221) := fun v221 => decidable_of_iff' _ (Iff.of_eq (k0_chk37.eq_1 v221))
theorem k0_off56_inb : ∀ (v221 : BitVec 32) (k0_hw37 : k0_chk37 v221), ∀ a, (k0_off56 v221) a + S1x64.size a ≤ S100000x64.size a := fun v221 k0_hw37 => k0_hw37

def k0_off57 (v224 : BitVec 32) : Fin 2 → Nat :=
  let v228 : Index := Scalar.indexCast v224
  let c0_58 : Index := 0#32
  ![v228.toNat, 0]

def k0_chk38 (v224 : BitVec 32) : Prop :=
  (∀ a, (k0_off57 v224) a + S1x64.size a ≤ S100000x64.size a)
instance k0_chk38.dec : ∀ (v224 : BitVec 32), Decidable (k0_chk38 v224) := fun v224 => decidable_of_iff' _ (Iff.of_eq (k0_chk38.eq_1 v224))
theorem k0_off57_inb : ∀ (v224 : BitVec 32) (k0_hw38 : k0_chk38 v224), ∀ a, (k0_off57 v224) a + S1x64.size a ≤ S100000x64.size a := fun v224 k0_hw38 => k0_hw38

def k0_off58 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c19_i32 : BitVec 32 := 19#32
  let v231 : BitVec 32 := Scalar.addi v2 c19_i32
  let v232 : Index := Scalar.indexCast v231
  ![v232.toNat]
def k0_off59 (v233 : BitVec 32) : Fin 2 → Nat :=
  let v237 : Index := Scalar.indexCast v233
  let c0_60 : Index := 0#32
  ![v237.toNat, 0]

def k0_chk39 (v233 : BitVec 32) : Prop :=
  (∀ a, (k0_off59 v233) a + S1x64.size a ≤ S100000x64.size a)
instance k0_chk39.dec : ∀ (v233 : BitVec 32), Decidable (k0_chk39 v233) := fun v233 => decidable_of_iff' _ (Iff.of_eq (k0_chk39.eq_1 v233))
theorem k0_off59_inb : ∀ (v233 : BitVec 32) (k0_hw39 : k0_chk39 v233), ∀ a, (k0_off59 v233) a + S1x64.size a ≤ S100000x64.size a := fun v233 k0_hw39 => k0_hw39

def k0_off60 (v236 : BitVec 32) : Fin 2 → Nat :=
  let v240 : Index := Scalar.indexCast v236
  let c0_61 : Index := 0#32
  ![v240.toNat, 0]

def k0_chk40 (v236 : BitVec 32) : Prop :=
  (∀ a, (k0_off60 v236) a + S1x64.size a ≤ S100000x64.size a)
instance k0_chk40.dec : ∀ (v236 : BitVec 32), Decidable (k0_chk40 v236) := fun v236 => decidable_of_iff' _ (Iff.of_eq (k0_chk40.eq_1 v236))
theorem k0_off60_inb : ∀ (v236 : BitVec 32) (k0_hw40 : k0_chk40 v236), ∀ a, (k0_off60 v236) a + S1x64.size a ≤ S100000x64.size a := fun v236 k0_hw40 => k0_hw40

def k0_off61 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c20_i32 : BitVec 32 := 20#32
  let v243 : BitVec 32 := Scalar.addi v2 c20_i32
  let v244 : Index := Scalar.indexCast v243
  ![v244.toNat]
def k0_off62 (v245 : BitVec 32) : Fin 2 → Nat :=
  let v249 : Index := Scalar.indexCast v245
  let c0_63 : Index := 0#32
  ![v249.toNat, 0]

def k0_chk41 (v245 : BitVec 32) : Prop :=
  (∀ a, (k0_off62 v245) a + S1x64.size a ≤ S100000x64.size a)
instance k0_chk41.dec : ∀ (v245 : BitVec 32), Decidable (k0_chk41 v245) := fun v245 => decidable_of_iff' _ (Iff.of_eq (k0_chk41.eq_1 v245))
theorem k0_off62_inb : ∀ (v245 : BitVec 32) (k0_hw41 : k0_chk41 v245), ∀ a, (k0_off62 v245) a + S1x64.size a ≤ S100000x64.size a := fun v245 k0_hw41 => k0_hw41

def k0_off63 (v248 : BitVec 32) : Fin 2 → Nat :=
  let v252 : Index := Scalar.indexCast v248
  let c0_64 : Index := 0#32
  ![v252.toNat, 0]

def k0_chk42 (v248 : BitVec 32) : Prop :=
  (∀ a, (k0_off63 v248) a + S1x64.size a ≤ S100000x64.size a)
instance k0_chk42.dec : ∀ (v248 : BitVec 32), Decidable (k0_chk42 v248) := fun v248 => decidable_of_iff' _ (Iff.of_eq (k0_chk42.eq_1 v248))
theorem k0_off63_inb : ∀ (v248 : BitVec 32) (k0_hw42 : k0_chk42 v248), ∀ a, (k0_off63 v248) a + S1x64.size a ≤ S100000x64.size a := fun v248 k0_hw42 => k0_hw42

def k0_off64 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c21_i32 : BitVec 32 := 21#32
  let v255 : BitVec 32 := Scalar.addi v2 c21_i32
  let v256 : Index := Scalar.indexCast v255
  ![v256.toNat]
def k0_off65 (v257 : BitVec 32) : Fin 2 → Nat :=
  let v261 : Index := Scalar.indexCast v257
  let c0_66 : Index := 0#32
  ![v261.toNat, 0]

def k0_chk43 (v257 : BitVec 32) : Prop :=
  (∀ a, (k0_off65 v257) a + S1x64.size a ≤ S100000x64.size a)
instance k0_chk43.dec : ∀ (v257 : BitVec 32), Decidable (k0_chk43 v257) := fun v257 => decidable_of_iff' _ (Iff.of_eq (k0_chk43.eq_1 v257))
theorem k0_off65_inb : ∀ (v257 : BitVec 32) (k0_hw43 : k0_chk43 v257), ∀ a, (k0_off65 v257) a + S1x64.size a ≤ S100000x64.size a := fun v257 k0_hw43 => k0_hw43

def k0_off66 (v260 : BitVec 32) : Fin 2 → Nat :=
  let v264 : Index := Scalar.indexCast v260
  let c0_67 : Index := 0#32
  ![v264.toNat, 0]

def k0_chk44 (v260 : BitVec 32) : Prop :=
  (∀ a, (k0_off66 v260) a + S1x64.size a ≤ S100000x64.size a)
instance k0_chk44.dec : ∀ (v260 : BitVec 32), Decidable (k0_chk44 v260) := fun v260 => decidable_of_iff' _ (Iff.of_eq (k0_chk44.eq_1 v260))
theorem k0_off66_inb : ∀ (v260 : BitVec 32) (k0_hw44 : k0_chk44 v260), ∀ a, (k0_off66 v260) a + S1x64.size a ≤ S100000x64.size a := fun v260 k0_hw44 => k0_hw44

def k0_off67 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c22_i32 : BitVec 32 := 22#32
  let v267 : BitVec 32 := Scalar.addi v2 c22_i32
  let v268 : Index := Scalar.indexCast v267
  ![v268.toNat]
def k0_off68 (v269 : BitVec 32) : Fin 2 → Nat :=
  let v273 : Index := Scalar.indexCast v269
  let c0_69 : Index := 0#32
  ![v273.toNat, 0]

def k0_chk45 (v269 : BitVec 32) : Prop :=
  (∀ a, (k0_off68 v269) a + S1x64.size a ≤ S100000x64.size a)
instance k0_chk45.dec : ∀ (v269 : BitVec 32), Decidable (k0_chk45 v269) := fun v269 => decidable_of_iff' _ (Iff.of_eq (k0_chk45.eq_1 v269))
theorem k0_off68_inb : ∀ (v269 : BitVec 32) (k0_hw45 : k0_chk45 v269), ∀ a, (k0_off68 v269) a + S1x64.size a ≤ S100000x64.size a := fun v269 k0_hw45 => k0_hw45

def k0_off69 (v272 : BitVec 32) : Fin 2 → Nat :=
  let v276 : Index := Scalar.indexCast v272
  let c0_70 : Index := 0#32
  ![v276.toNat, 0]

def k0_chk46 (v272 : BitVec 32) : Prop :=
  (∀ a, (k0_off69 v272) a + S1x64.size a ≤ S100000x64.size a)
instance k0_chk46.dec : ∀ (v272 : BitVec 32), Decidable (k0_chk46 v272) := fun v272 => decidable_of_iff' _ (Iff.of_eq (k0_chk46.eq_1 v272))
theorem k0_off69_inb : ∀ (v272 : BitVec 32) (k0_hw46 : k0_chk46 v272), ∀ a, (k0_off69 v272) a + S1x64.size a ≤ S100000x64.size a := fun v272 k0_hw46 => k0_hw46

def k0_off70 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c23_i32 : BitVec 32 := 23#32
  let v279 : BitVec 32 := Scalar.addi v2 c23_i32
  let v280 : Index := Scalar.indexCast v279
  ![v280.toNat]
def k0_off71 (v281 : BitVec 32) : Fin 2 → Nat :=
  let v285 : Index := Scalar.indexCast v281
  let c0_72 : Index := 0#32
  ![v285.toNat, 0]

def k0_chk47 (v281 : BitVec 32) : Prop :=
  (∀ a, (k0_off71 v281) a + S1x64.size a ≤ S100000x64.size a)
instance k0_chk47.dec : ∀ (v281 : BitVec 32), Decidable (k0_chk47 v281) := fun v281 => decidable_of_iff' _ (Iff.of_eq (k0_chk47.eq_1 v281))
theorem k0_off71_inb : ∀ (v281 : BitVec 32) (k0_hw47 : k0_chk47 v281), ∀ a, (k0_off71 v281) a + S1x64.size a ≤ S100000x64.size a := fun v281 k0_hw47 => k0_hw47

def k0_off72 (v284 : BitVec 32) : Fin 2 → Nat :=
  let v288 : Index := Scalar.indexCast v284
  let c0_73 : Index := 0#32
  ![v288.toNat, 0]

def k0_chk48 (v284 : BitVec 32) : Prop :=
  (∀ a, (k0_off72 v284) a + S1x64.size a ≤ S100000x64.size a)
instance k0_chk48.dec : ∀ (v284 : BitVec 32), Decidable (k0_chk48 v284) := fun v284 => decidable_of_iff' _ (Iff.of_eq (k0_chk48.eq_1 v284))
theorem k0_off72_inb : ∀ (v284 : BitVec 32) (k0_hw48 : k0_chk48 v284), ∀ a, (k0_off72 v284) a + S1x64.size a ≤ S100000x64.size a := fun v284 k0_hw48 => k0_hw48

def k0_off73 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c24_i32 : BitVec 32 := 24#32
  let v291 : BitVec 32 := Scalar.addi v2 c24_i32
  let v292 : Index := Scalar.indexCast v291
  ![v292.toNat]
def k0_off74 (v293 : BitVec 32) : Fin 2 → Nat :=
  let v297 : Index := Scalar.indexCast v293
  let c0_75 : Index := 0#32
  ![v297.toNat, 0]

def k0_chk49 (v293 : BitVec 32) : Prop :=
  (∀ a, (k0_off74 v293) a + S1x64.size a ≤ S100000x64.size a)
instance k0_chk49.dec : ∀ (v293 : BitVec 32), Decidable (k0_chk49 v293) := fun v293 => decidable_of_iff' _ (Iff.of_eq (k0_chk49.eq_1 v293))
theorem k0_off74_inb : ∀ (v293 : BitVec 32) (k0_hw49 : k0_chk49 v293), ∀ a, (k0_off74 v293) a + S1x64.size a ≤ S100000x64.size a := fun v293 k0_hw49 => k0_hw49

def k0_off75 (v296 : BitVec 32) : Fin 2 → Nat :=
  let v300 : Index := Scalar.indexCast v296
  let c0_76 : Index := 0#32
  ![v300.toNat, 0]

def k0_chk50 (v296 : BitVec 32) : Prop :=
  (∀ a, (k0_off75 v296) a + S1x64.size a ≤ S100000x64.size a)
instance k0_chk50.dec : ∀ (v296 : BitVec 32), Decidable (k0_chk50 v296) := fun v296 => decidable_of_iff' _ (Iff.of_eq (k0_chk50.eq_1 v296))
theorem k0_off75_inb : ∀ (v296 : BitVec 32) (k0_hw50 : k0_chk50 v296), ∀ a, (k0_off75 v296) a + S1x64.size a ≤ S100000x64.size a := fun v296 k0_hw50 => k0_hw50

def k0_off76 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c25_i32 : BitVec 32 := 25#32
  let v303 : BitVec 32 := Scalar.addi v2 c25_i32
  let v304 : Index := Scalar.indexCast v303
  ![v304.toNat]
def k0_off77 (v305 : BitVec 32) : Fin 2 → Nat :=
  let v309 : Index := Scalar.indexCast v305
  let c0_78 : Index := 0#32
  ![v309.toNat, 0]

def k0_chk51 (v305 : BitVec 32) : Prop :=
  (∀ a, (k0_off77 v305) a + S1x64.size a ≤ S100000x64.size a)
instance k0_chk51.dec : ∀ (v305 : BitVec 32), Decidable (k0_chk51 v305) := fun v305 => decidable_of_iff' _ (Iff.of_eq (k0_chk51.eq_1 v305))
theorem k0_off77_inb : ∀ (v305 : BitVec 32) (k0_hw51 : k0_chk51 v305), ∀ a, (k0_off77 v305) a + S1x64.size a ≤ S100000x64.size a := fun v305 k0_hw51 => k0_hw51

def k0_off78 (v308 : BitVec 32) : Fin 2 → Nat :=
  let v312 : Index := Scalar.indexCast v308
  let c0_79 : Index := 0#32
  ![v312.toNat, 0]

def k0_chk52 (v308 : BitVec 32) : Prop :=
  (∀ a, (k0_off78 v308) a + S1x64.size a ≤ S100000x64.size a)
instance k0_chk52.dec : ∀ (v308 : BitVec 32), Decidable (k0_chk52 v308) := fun v308 => decidable_of_iff' _ (Iff.of_eq (k0_chk52.eq_1 v308))
theorem k0_off78_inb : ∀ (v308 : BitVec 32) (k0_hw52 : k0_chk52 v308), ∀ a, (k0_off78 v308) a + S1x64.size a ≤ S100000x64.size a := fun v308 k0_hw52 => k0_hw52

def k0_off79 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c26_i32 : BitVec 32 := 26#32
  let v315 : BitVec 32 := Scalar.addi v2 c26_i32
  let v316 : Index := Scalar.indexCast v315
  ![v316.toNat]
def k0_off80 (v317 : BitVec 32) : Fin 2 → Nat :=
  let v321 : Index := Scalar.indexCast v317
  let c0_81 : Index := 0#32
  ![v321.toNat, 0]

def k0_chk53 (v317 : BitVec 32) : Prop :=
  (∀ a, (k0_off80 v317) a + S1x64.size a ≤ S100000x64.size a)
instance k0_chk53.dec : ∀ (v317 : BitVec 32), Decidable (k0_chk53 v317) := fun v317 => decidable_of_iff' _ (Iff.of_eq (k0_chk53.eq_1 v317))
theorem k0_off80_inb : ∀ (v317 : BitVec 32) (k0_hw53 : k0_chk53 v317), ∀ a, (k0_off80 v317) a + S1x64.size a ≤ S100000x64.size a := fun v317 k0_hw53 => k0_hw53

def k0_off81 (v320 : BitVec 32) : Fin 2 → Nat :=
  let v324 : Index := Scalar.indexCast v320
  let c0_82 : Index := 0#32
  ![v324.toNat, 0]

def k0_chk54 (v320 : BitVec 32) : Prop :=
  (∀ a, (k0_off81 v320) a + S1x64.size a ≤ S100000x64.size a)
instance k0_chk54.dec : ∀ (v320 : BitVec 32), Decidable (k0_chk54 v320) := fun v320 => decidable_of_iff' _ (Iff.of_eq (k0_chk54.eq_1 v320))
theorem k0_off81_inb : ∀ (v320 : BitVec 32) (k0_hw54 : k0_chk54 v320), ∀ a, (k0_off81 v320) a + S1x64.size a ≤ S100000x64.size a := fun v320 k0_hw54 => k0_hw54

def k0_off82 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c27_i32 : BitVec 32 := 27#32
  let v327 : BitVec 32 := Scalar.addi v2 c27_i32
  let v328 : Index := Scalar.indexCast v327
  ![v328.toNat]
def k0_off83 (v329 : BitVec 32) : Fin 2 → Nat :=
  let v333 : Index := Scalar.indexCast v329
  let c0_84 : Index := 0#32
  ![v333.toNat, 0]

def k0_chk55 (v329 : BitVec 32) : Prop :=
  (∀ a, (k0_off83 v329) a + S1x64.size a ≤ S100000x64.size a)
instance k0_chk55.dec : ∀ (v329 : BitVec 32), Decidable (k0_chk55 v329) := fun v329 => decidable_of_iff' _ (Iff.of_eq (k0_chk55.eq_1 v329))
theorem k0_off83_inb : ∀ (v329 : BitVec 32) (k0_hw55 : k0_chk55 v329), ∀ a, (k0_off83 v329) a + S1x64.size a ≤ S100000x64.size a := fun v329 k0_hw55 => k0_hw55

def k0_off84 (v332 : BitVec 32) : Fin 2 → Nat :=
  let v336 : Index := Scalar.indexCast v332
  let c0_85 : Index := 0#32
  ![v336.toNat, 0]

def k0_chk56 (v332 : BitVec 32) : Prop :=
  (∀ a, (k0_off84 v332) a + S1x64.size a ≤ S100000x64.size a)
instance k0_chk56.dec : ∀ (v332 : BitVec 32), Decidable (k0_chk56 v332) := fun v332 => decidable_of_iff' _ (Iff.of_eq (k0_chk56.eq_1 v332))
theorem k0_off84_inb : ∀ (v332 : BitVec 32) (k0_hw56 : k0_chk56 v332), ∀ a, (k0_off84 v332) a + S1x64.size a ≤ S100000x64.size a := fun v332 k0_hw56 => k0_hw56

def k0_off85 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c28_i32 : BitVec 32 := 28#32
  let v339 : BitVec 32 := Scalar.addi v2 c28_i32
  let v340 : Index := Scalar.indexCast v339
  ![v340.toNat]
def k0_off86 (v341 : BitVec 32) : Fin 2 → Nat :=
  let v345 : Index := Scalar.indexCast v341
  let c0_87 : Index := 0#32
  ![v345.toNat, 0]

def k0_chk57 (v341 : BitVec 32) : Prop :=
  (∀ a, (k0_off86 v341) a + S1x64.size a ≤ S100000x64.size a)
instance k0_chk57.dec : ∀ (v341 : BitVec 32), Decidable (k0_chk57 v341) := fun v341 => decidable_of_iff' _ (Iff.of_eq (k0_chk57.eq_1 v341))
theorem k0_off86_inb : ∀ (v341 : BitVec 32) (k0_hw57 : k0_chk57 v341), ∀ a, (k0_off86 v341) a + S1x64.size a ≤ S100000x64.size a := fun v341 k0_hw57 => k0_hw57

def k0_off87 (v344 : BitVec 32) : Fin 2 → Nat :=
  let v348 : Index := Scalar.indexCast v344
  let c0_88 : Index := 0#32
  ![v348.toNat, 0]

def k0_chk58 (v344 : BitVec 32) : Prop :=
  (∀ a, (k0_off87 v344) a + S1x64.size a ≤ S100000x64.size a)
instance k0_chk58.dec : ∀ (v344 : BitVec 32), Decidable (k0_chk58 v344) := fun v344 => decidable_of_iff' _ (Iff.of_eq (k0_chk58.eq_1 v344))
theorem k0_off87_inb : ∀ (v344 : BitVec 32) (k0_hw58 : k0_chk58 v344), ∀ a, (k0_off87 v344) a + S1x64.size a ≤ S100000x64.size a := fun v344 k0_hw58 => k0_hw58

def k0_off88 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c29_i32 : BitVec 32 := 29#32
  let v351 : BitVec 32 := Scalar.addi v2 c29_i32
  let v352 : Index := Scalar.indexCast v351
  ![v352.toNat]
def k0_off89 (v353 : BitVec 32) : Fin 2 → Nat :=
  let v357 : Index := Scalar.indexCast v353
  let c0_90 : Index := 0#32
  ![v357.toNat, 0]

def k0_chk59 (v353 : BitVec 32) : Prop :=
  (∀ a, (k0_off89 v353) a + S1x64.size a ≤ S100000x64.size a)
instance k0_chk59.dec : ∀ (v353 : BitVec 32), Decidable (k0_chk59 v353) := fun v353 => decidable_of_iff' _ (Iff.of_eq (k0_chk59.eq_1 v353))
theorem k0_off89_inb : ∀ (v353 : BitVec 32) (k0_hw59 : k0_chk59 v353), ∀ a, (k0_off89 v353) a + S1x64.size a ≤ S100000x64.size a := fun v353 k0_hw59 => k0_hw59

def k0_off90 (v356 : BitVec 32) : Fin 2 → Nat :=
  let v360 : Index := Scalar.indexCast v356
  let c0_91 : Index := 0#32
  ![v360.toNat, 0]

def k0_chk60 (v356 : BitVec 32) : Prop :=
  (∀ a, (k0_off90 v356) a + S1x64.size a ≤ S100000x64.size a)
instance k0_chk60.dec : ∀ (v356 : BitVec 32), Decidable (k0_chk60 v356) := fun v356 => decidable_of_iff' _ (Iff.of_eq (k0_chk60.eq_1 v356))
theorem k0_off90_inb : ∀ (v356 : BitVec 32) (k0_hw60 : k0_chk60 v356), ∀ a, (k0_off90 v356) a + S1x64.size a ≤ S100000x64.size a := fun v356 k0_hw60 => k0_hw60

def k0_off91 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c30_i32 : BitVec 32 := 30#32
  let v363 : BitVec 32 := Scalar.addi v2 c30_i32
  let v364 : Index := Scalar.indexCast v363
  ![v364.toNat]
def k0_off92 (v365 : BitVec 32) : Fin 2 → Nat :=
  let v369 : Index := Scalar.indexCast v365
  let c0_93 : Index := 0#32
  ![v369.toNat, 0]

def k0_chk61 (v365 : BitVec 32) : Prop :=
  (∀ a, (k0_off92 v365) a + S1x64.size a ≤ S100000x64.size a)
instance k0_chk61.dec : ∀ (v365 : BitVec 32), Decidable (k0_chk61 v365) := fun v365 => decidable_of_iff' _ (Iff.of_eq (k0_chk61.eq_1 v365))
theorem k0_off92_inb : ∀ (v365 : BitVec 32) (k0_hw61 : k0_chk61 v365), ∀ a, (k0_off92 v365) a + S1x64.size a ≤ S100000x64.size a := fun v365 k0_hw61 => k0_hw61

def k0_off93 (v368 : BitVec 32) : Fin 2 → Nat :=
  let v372 : Index := Scalar.indexCast v368
  let c0_94 : Index := 0#32
  ![v372.toNat, 0]

def k0_chk62 (v368 : BitVec 32) : Prop :=
  (∀ a, (k0_off93 v368) a + S1x64.size a ≤ S100000x64.size a)
instance k0_chk62.dec : ∀ (v368 : BitVec 32), Decidable (k0_chk62 v368) := fun v368 => decidable_of_iff' _ (Iff.of_eq (k0_chk62.eq_1 v368))
theorem k0_off93_inb : ∀ (v368 : BitVec 32) (k0_hw62 : k0_chk62 v368), ∀ a, (k0_off93 v368) a + S1x64.size a ≤ S100000x64.size a := fun v368 k0_hw62 => k0_hw62

def k0_off94 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c31_i32 : BitVec 32 := 31#32
  let v375 : BitVec 32 := Scalar.addi v2 c31_i32
  let v376 : Index := Scalar.indexCast v375
  ![v376.toNat]
def k0_off95 (v377 : BitVec 32) : Fin 2 → Nat :=
  let v381 : Index := Scalar.indexCast v377
  let c0_96 : Index := 0#32
  ![v381.toNat, 0]

def k0_chk63 (v377 : BitVec 32) : Prop :=
  (∀ a, (k0_off95 v377) a + S1x64.size a ≤ S100000x64.size a)
instance k0_chk63.dec : ∀ (v377 : BitVec 32), Decidable (k0_chk63 v377) := fun v377 => decidable_of_iff' _ (Iff.of_eq (k0_chk63.eq_1 v377))
theorem k0_off95_inb : ∀ (v377 : BitVec 32) (k0_hw63 : k0_chk63 v377), ∀ a, (k0_off95 v377) a + S1x64.size a ≤ S100000x64.size a := fun v377 k0_hw63 => k0_hw63

def k0_off96 (v380 : BitVec 32) : Fin 2 → Nat :=
  let v384 : Index := Scalar.indexCast v380
  let c0_97 : Index := 0#32
  ![v384.toNat, 0]

def k0_chk64 (v380 : BitVec 32) : Prop :=
  (∀ a, (k0_off96 v380) a + S1x64.size a ≤ S100000x64.size a)
instance k0_chk64.dec : ∀ (v380 : BitVec 32), Decidable (k0_chk64 v380) := fun v380 => decidable_of_iff' _ (Iff.of_eq (k0_chk64.eq_1 v380))
theorem k0_off96_inb : ∀ (v380 : BitVec 32) (k0_hw64 : k0_chk64 v380), ∀ a, (k0_off96 v380) a + S1x64.size a ≤ S100000x64.size a := fun v380 k0_hw64 => k0_hw64

def k0_off97 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c32_i32 : BitVec 32 := 32#32
  let v387 : BitVec 32 := Scalar.addi v2 c32_i32
  let v388 : Index := Scalar.indexCast v387
  ![v388.toNat]
def k0_off98 (v389 : BitVec 32) : Fin 2 → Nat :=
  let v393 : Index := Scalar.indexCast v389
  let c0_99 : Index := 0#32
  ![v393.toNat, 0]

def k0_chk65 (v389 : BitVec 32) : Prop :=
  (∀ a, (k0_off98 v389) a + S1x64.size a ≤ S100000x64.size a)
instance k0_chk65.dec : ∀ (v389 : BitVec 32), Decidable (k0_chk65 v389) := fun v389 => decidable_of_iff' _ (Iff.of_eq (k0_chk65.eq_1 v389))
theorem k0_off98_inb : ∀ (v389 : BitVec 32) (k0_hw65 : k0_chk65 v389), ∀ a, (k0_off98 v389) a + S1x64.size a ≤ S100000x64.size a := fun v389 k0_hw65 => k0_hw65

def k0_off99 (v392 : BitVec 32) : Fin 2 → Nat :=
  let v396 : Index := Scalar.indexCast v392
  let c0_100 : Index := 0#32
  ![v396.toNat, 0]

def k0_chk66 (v392 : BitVec 32) : Prop :=
  (∀ a, (k0_off99 v392) a + S1x64.size a ≤ S100000x64.size a)
instance k0_chk66.dec : ∀ (v392 : BitVec 32), Decidable (k0_chk66 v392) := fun v392 => decidable_of_iff' _ (Iff.of_eq (k0_chk66.eq_1 v392))
theorem k0_off99_inb : ∀ (v392 : BitVec 32) (k0_hw66 : k0_chk66 v392), ∀ a, (k0_off99 v392) a + S1x64.size a ≤ S100000x64.size a := fun v392 k0_hw66 => k0_hw66

def k0_off100 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c33_i32 : BitVec 32 := 33#32
  let v399 : BitVec 32 := Scalar.addi v2 c33_i32
  let v400 : Index := Scalar.indexCast v399
  ![v400.toNat]
def k0_off101 (v401 : BitVec 32) : Fin 2 → Nat :=
  let v405 : Index := Scalar.indexCast v401
  let c0_102 : Index := 0#32
  ![v405.toNat, 0]

def k0_chk67 (v401 : BitVec 32) : Prop :=
  (∀ a, (k0_off101 v401) a + S1x64.size a ≤ S100000x64.size a)
instance k0_chk67.dec : ∀ (v401 : BitVec 32), Decidable (k0_chk67 v401) := fun v401 => decidable_of_iff' _ (Iff.of_eq (k0_chk67.eq_1 v401))
theorem k0_off101_inb : ∀ (v401 : BitVec 32) (k0_hw67 : k0_chk67 v401), ∀ a, (k0_off101 v401) a + S1x64.size a ≤ S100000x64.size a := fun v401 k0_hw67 => k0_hw67

def k0_off102 (v404 : BitVec 32) : Fin 2 → Nat :=
  let v408 : Index := Scalar.indexCast v404
  let c0_103 : Index := 0#32
  ![v408.toNat, 0]

def k0_chk68 (v404 : BitVec 32) : Prop :=
  (∀ a, (k0_off102 v404) a + S1x64.size a ≤ S100000x64.size a)
instance k0_chk68.dec : ∀ (v404 : BitVec 32), Decidable (k0_chk68 v404) := fun v404 => decidable_of_iff' _ (Iff.of_eq (k0_chk68.eq_1 v404))
theorem k0_off102_inb : ∀ (v404 : BitVec 32) (k0_hw68 : k0_chk68 v404), ∀ a, (k0_off102 v404) a + S1x64.size a ≤ S100000x64.size a := fun v404 k0_hw68 => k0_hw68

def k0_off103 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c34_i32 : BitVec 32 := 34#32
  let v411 : BitVec 32 := Scalar.addi v2 c34_i32
  let v412 : Index := Scalar.indexCast v411
  ![v412.toNat]
def k0_off104 (v413 : BitVec 32) : Fin 2 → Nat :=
  let v417 : Index := Scalar.indexCast v413
  let c0_105 : Index := 0#32
  ![v417.toNat, 0]

def k0_chk69 (v413 : BitVec 32) : Prop :=
  (∀ a, (k0_off104 v413) a + S1x64.size a ≤ S100000x64.size a)
instance k0_chk69.dec : ∀ (v413 : BitVec 32), Decidable (k0_chk69 v413) := fun v413 => decidable_of_iff' _ (Iff.of_eq (k0_chk69.eq_1 v413))
theorem k0_off104_inb : ∀ (v413 : BitVec 32) (k0_hw69 : k0_chk69 v413), ∀ a, (k0_off104 v413) a + S1x64.size a ≤ S100000x64.size a := fun v413 k0_hw69 => k0_hw69

def k0_off105 (v416 : BitVec 32) : Fin 2 → Nat :=
  let v420 : Index := Scalar.indexCast v416
  let c0_106 : Index := 0#32
  ![v420.toNat, 0]

def k0_chk70 (v416 : BitVec 32) : Prop :=
  (∀ a, (k0_off105 v416) a + S1x64.size a ≤ S100000x64.size a)
instance k0_chk70.dec : ∀ (v416 : BitVec 32), Decidable (k0_chk70 v416) := fun v416 => decidable_of_iff' _ (Iff.of_eq (k0_chk70.eq_1 v416))
theorem k0_off105_inb : ∀ (v416 : BitVec 32) (k0_hw70 : k0_chk70 v416), ∀ a, (k0_off105 v416) a + S1x64.size a ≤ S100000x64.size a := fun v416 k0_hw70 => k0_hw70

def k0_off106 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c35_i32 : BitVec 32 := 35#32
  let v423 : BitVec 32 := Scalar.addi v2 c35_i32
  let v424 : Index := Scalar.indexCast v423
  ![v424.toNat]
def k0_off107 (v425 : BitVec 32) : Fin 2 → Nat :=
  let v429 : Index := Scalar.indexCast v425
  let c0_108 : Index := 0#32
  ![v429.toNat, 0]

def k0_chk71 (v425 : BitVec 32) : Prop :=
  (∀ a, (k0_off107 v425) a + S1x64.size a ≤ S100000x64.size a)
instance k0_chk71.dec : ∀ (v425 : BitVec 32), Decidable (k0_chk71 v425) := fun v425 => decidable_of_iff' _ (Iff.of_eq (k0_chk71.eq_1 v425))
theorem k0_off107_inb : ∀ (v425 : BitVec 32) (k0_hw71 : k0_chk71 v425), ∀ a, (k0_off107 v425) a + S1x64.size a ≤ S100000x64.size a := fun v425 k0_hw71 => k0_hw71

def k0_off108 (v428 : BitVec 32) : Fin 2 → Nat :=
  let v432 : Index := Scalar.indexCast v428
  let c0_109 : Index := 0#32
  ![v432.toNat, 0]

def k0_chk72 (v428 : BitVec 32) : Prop :=
  (∀ a, (k0_off108 v428) a + S1x64.size a ≤ S100000x64.size a)
instance k0_chk72.dec : ∀ (v428 : BitVec 32), Decidable (k0_chk72 v428) := fun v428 => decidable_of_iff' _ (Iff.of_eq (k0_chk72.eq_1 v428))
theorem k0_off108_inb : ∀ (v428 : BitVec 32) (k0_hw72 : k0_chk72 v428), ∀ a, (k0_off108 v428) a + S1x64.size a ≤ S100000x64.size a := fun v428 k0_hw72 => k0_hw72

def k0_off109 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c36_i32 : BitVec 32 := 36#32
  let v435 : BitVec 32 := Scalar.addi v2 c36_i32
  let v436 : Index := Scalar.indexCast v435
  ![v436.toNat]
def k0_off110 (v437 : BitVec 32) : Fin 2 → Nat :=
  let v441 : Index := Scalar.indexCast v437
  let c0_111 : Index := 0#32
  ![v441.toNat, 0]

def k0_chk73 (v437 : BitVec 32) : Prop :=
  (∀ a, (k0_off110 v437) a + S1x64.size a ≤ S100000x64.size a)
instance k0_chk73.dec : ∀ (v437 : BitVec 32), Decidable (k0_chk73 v437) := fun v437 => decidable_of_iff' _ (Iff.of_eq (k0_chk73.eq_1 v437))
theorem k0_off110_inb : ∀ (v437 : BitVec 32) (k0_hw73 : k0_chk73 v437), ∀ a, (k0_off110 v437) a + S1x64.size a ≤ S100000x64.size a := fun v437 k0_hw73 => k0_hw73

def k0_off111 (v440 : BitVec 32) : Fin 2 → Nat :=
  let v444 : Index := Scalar.indexCast v440
  let c0_112 : Index := 0#32
  ![v444.toNat, 0]

def k0_chk74 (v440 : BitVec 32) : Prop :=
  (∀ a, (k0_off111 v440) a + S1x64.size a ≤ S100000x64.size a)
instance k0_chk74.dec : ∀ (v440 : BitVec 32), Decidable (k0_chk74 v440) := fun v440 => decidable_of_iff' _ (Iff.of_eq (k0_chk74.eq_1 v440))
theorem k0_off111_inb : ∀ (v440 : BitVec 32) (k0_hw74 : k0_chk74 v440), ∀ a, (k0_off111 v440) a + S1x64.size a ≤ S100000x64.size a := fun v440 k0_hw74 => k0_hw74

def k0_off112 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c37_i32 : BitVec 32 := 37#32
  let v447 : BitVec 32 := Scalar.addi v2 c37_i32
  let v448 : Index := Scalar.indexCast v447
  ![v448.toNat]
def k0_off113 (v449 : BitVec 32) : Fin 2 → Nat :=
  let v453 : Index := Scalar.indexCast v449
  let c0_114 : Index := 0#32
  ![v453.toNat, 0]

def k0_chk75 (v449 : BitVec 32) : Prop :=
  (∀ a, (k0_off113 v449) a + S1x64.size a ≤ S100000x64.size a)
instance k0_chk75.dec : ∀ (v449 : BitVec 32), Decidable (k0_chk75 v449) := fun v449 => decidable_of_iff' _ (Iff.of_eq (k0_chk75.eq_1 v449))
theorem k0_off113_inb : ∀ (v449 : BitVec 32) (k0_hw75 : k0_chk75 v449), ∀ a, (k0_off113 v449) a + S1x64.size a ≤ S100000x64.size a := fun v449 k0_hw75 => k0_hw75

def k0_off114 (v452 : BitVec 32) : Fin 2 → Nat :=
  let v456 : Index := Scalar.indexCast v452
  let c0_115 : Index := 0#32
  ![v456.toNat, 0]

def k0_chk76 (v452 : BitVec 32) : Prop :=
  (∀ a, (k0_off114 v452) a + S1x64.size a ≤ S100000x64.size a)
instance k0_chk76.dec : ∀ (v452 : BitVec 32), Decidable (k0_chk76 v452) := fun v452 => decidable_of_iff' _ (Iff.of_eq (k0_chk76.eq_1 v452))
theorem k0_off114_inb : ∀ (v452 : BitVec 32) (k0_hw76 : k0_chk76 v452), ∀ a, (k0_off114 v452) a + S1x64.size a ≤ S100000x64.size a := fun v452 k0_hw76 => k0_hw76

def k0_off115 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c38_i32 : BitVec 32 := 38#32
  let v459 : BitVec 32 := Scalar.addi v2 c38_i32
  let v460 : Index := Scalar.indexCast v459
  ![v460.toNat]
def k0_off116 (v461 : BitVec 32) : Fin 2 → Nat :=
  let v465 : Index := Scalar.indexCast v461
  let c0_117 : Index := 0#32
  ![v465.toNat, 0]

def k0_chk77 (v461 : BitVec 32) : Prop :=
  (∀ a, (k0_off116 v461) a + S1x64.size a ≤ S100000x64.size a)
instance k0_chk77.dec : ∀ (v461 : BitVec 32), Decidable (k0_chk77 v461) := fun v461 => decidable_of_iff' _ (Iff.of_eq (k0_chk77.eq_1 v461))
theorem k0_off116_inb : ∀ (v461 : BitVec 32) (k0_hw77 : k0_chk77 v461), ∀ a, (k0_off116 v461) a + S1x64.size a ≤ S100000x64.size a := fun v461 k0_hw77 => k0_hw77

def k0_off117 (v464 : BitVec 32) : Fin 2 → Nat :=
  let v468 : Index := Scalar.indexCast v464
  let c0_118 : Index := 0#32
  ![v468.toNat, 0]

def k0_chk78 (v464 : BitVec 32) : Prop :=
  (∀ a, (k0_off117 v464) a + S1x64.size a ≤ S100000x64.size a)
instance k0_chk78.dec : ∀ (v464 : BitVec 32), Decidable (k0_chk78 v464) := fun v464 => decidable_of_iff' _ (Iff.of_eq (k0_chk78.eq_1 v464))
theorem k0_off117_inb : ∀ (v464 : BitVec 32) (k0_hw78 : k0_chk78 v464), ∀ a, (k0_off117 v464) a + S1x64.size a ≤ S100000x64.size a := fun v464 k0_hw78 => k0_hw78

def k0_off118 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c39_i32 : BitVec 32 := 39#32
  let v471 : BitVec 32 := Scalar.addi v2 c39_i32
  let v472 : Index := Scalar.indexCast v471
  ![v472.toNat]
def k0_off119 (v473 : BitVec 32) : Fin 2 → Nat :=
  let v477 : Index := Scalar.indexCast v473
  let c0_120 : Index := 0#32
  ![v477.toNat, 0]

def k0_chk79 (v473 : BitVec 32) : Prop :=
  (∀ a, (k0_off119 v473) a + S1x64.size a ≤ S100000x64.size a)
instance k0_chk79.dec : ∀ (v473 : BitVec 32), Decidable (k0_chk79 v473) := fun v473 => decidable_of_iff' _ (Iff.of_eq (k0_chk79.eq_1 v473))
theorem k0_off119_inb : ∀ (v473 : BitVec 32) (k0_hw79 : k0_chk79 v473), ∀ a, (k0_off119 v473) a + S1x64.size a ≤ S100000x64.size a := fun v473 k0_hw79 => k0_hw79

def k0_off120 (v476 : BitVec 32) : Fin 2 → Nat :=
  let v480 : Index := Scalar.indexCast v476
  let c0_121 : Index := 0#32
  ![v480.toNat, 0]

def k0_chk80 (v476 : BitVec 32) : Prop :=
  (∀ a, (k0_off120 v476) a + S1x64.size a ≤ S100000x64.size a)
instance k0_chk80.dec : ∀ (v476 : BitVec 32), Decidable (k0_chk80 v476) := fun v476 => decidable_of_iff' _ (Iff.of_eq (k0_chk80.eq_1 v476))
theorem k0_off120_inb : ∀ (v476 : BitVec 32) (k0_hw80 : k0_chk80 v476), ∀ a, (k0_off120 v476) a + S1x64.size a ≤ S100000x64.size a := fun v476 k0_hw80 => k0_hw80

def k0_off121 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c40_i32 : BitVec 32 := 40#32
  let v483 : BitVec 32 := Scalar.addi v2 c40_i32
  let v484 : Index := Scalar.indexCast v483
  ![v484.toNat]
def k0_off122 (v485 : BitVec 32) : Fin 2 → Nat :=
  let v489 : Index := Scalar.indexCast v485
  let c0_123 : Index := 0#32
  ![v489.toNat, 0]

def k0_chk81 (v485 : BitVec 32) : Prop :=
  (∀ a, (k0_off122 v485) a + S1x64.size a ≤ S100000x64.size a)
instance k0_chk81.dec : ∀ (v485 : BitVec 32), Decidable (k0_chk81 v485) := fun v485 => decidable_of_iff' _ (Iff.of_eq (k0_chk81.eq_1 v485))
theorem k0_off122_inb : ∀ (v485 : BitVec 32) (k0_hw81 : k0_chk81 v485), ∀ a, (k0_off122 v485) a + S1x64.size a ≤ S100000x64.size a := fun v485 k0_hw81 => k0_hw81

def k0_off123 (v488 : BitVec 32) : Fin 2 → Nat :=
  let v492 : Index := Scalar.indexCast v488
  let c0_124 : Index := 0#32
  ![v492.toNat, 0]

def k0_chk82 (v488 : BitVec 32) : Prop :=
  (∀ a, (k0_off123 v488) a + S1x64.size a ≤ S100000x64.size a)
instance k0_chk82.dec : ∀ (v488 : BitVec 32), Decidable (k0_chk82 v488) := fun v488 => decidable_of_iff' _ (Iff.of_eq (k0_chk82.eq_1 v488))
theorem k0_off123_inb : ∀ (v488 : BitVec 32) (k0_hw82 : k0_chk82 v488), ∀ a, (k0_off123 v488) a + S1x64.size a ≤ S100000x64.size a := fun v488 k0_hw82 => k0_hw82

def k0_off124 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c41_i32 : BitVec 32 := 41#32
  let v495 : BitVec 32 := Scalar.addi v2 c41_i32
  let v496 : Index := Scalar.indexCast v495
  ![v496.toNat]
def k0_off125 (v497 : BitVec 32) : Fin 2 → Nat :=
  let v501 : Index := Scalar.indexCast v497
  let c0_126 : Index := 0#32
  ![v501.toNat, 0]

def k0_chk83 (v497 : BitVec 32) : Prop :=
  (∀ a, (k0_off125 v497) a + S1x64.size a ≤ S100000x64.size a)
instance k0_chk83.dec : ∀ (v497 : BitVec 32), Decidable (k0_chk83 v497) := fun v497 => decidable_of_iff' _ (Iff.of_eq (k0_chk83.eq_1 v497))
theorem k0_off125_inb : ∀ (v497 : BitVec 32) (k0_hw83 : k0_chk83 v497), ∀ a, (k0_off125 v497) a + S1x64.size a ≤ S100000x64.size a := fun v497 k0_hw83 => k0_hw83

def k0_off126 (v500 : BitVec 32) : Fin 2 → Nat :=
  let v504 : Index := Scalar.indexCast v500
  let c0_127 : Index := 0#32
  ![v504.toNat, 0]

def k0_chk84 (v500 : BitVec 32) : Prop :=
  (∀ a, (k0_off126 v500) a + S1x64.size a ≤ S100000x64.size a)
instance k0_chk84.dec : ∀ (v500 : BitVec 32), Decidable (k0_chk84 v500) := fun v500 => decidable_of_iff' _ (Iff.of_eq (k0_chk84.eq_1 v500))
theorem k0_off126_inb : ∀ (v500 : BitVec 32) (k0_hw84 : k0_chk84 v500), ∀ a, (k0_off126 v500) a + S1x64.size a ≤ S100000x64.size a := fun v500 k0_hw84 => k0_hw84

def k0_off127 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c42_i32 : BitVec 32 := 42#32
  let v507 : BitVec 32 := Scalar.addi v2 c42_i32
  let v508 : Index := Scalar.indexCast v507
  ![v508.toNat]
def k0_off128 (v509 : BitVec 32) : Fin 2 → Nat :=
  let v513 : Index := Scalar.indexCast v509
  let c0_129 : Index := 0#32
  ![v513.toNat, 0]

def k0_chk85 (v509 : BitVec 32) : Prop :=
  (∀ a, (k0_off128 v509) a + S1x64.size a ≤ S100000x64.size a)
instance k0_chk85.dec : ∀ (v509 : BitVec 32), Decidable (k0_chk85 v509) := fun v509 => decidable_of_iff' _ (Iff.of_eq (k0_chk85.eq_1 v509))
theorem k0_off128_inb : ∀ (v509 : BitVec 32) (k0_hw85 : k0_chk85 v509), ∀ a, (k0_off128 v509) a + S1x64.size a ≤ S100000x64.size a := fun v509 k0_hw85 => k0_hw85

def k0_off129 (v512 : BitVec 32) : Fin 2 → Nat :=
  let v516 : Index := Scalar.indexCast v512
  let c0_130 : Index := 0#32
  ![v516.toNat, 0]

def k0_chk86 (v512 : BitVec 32) : Prop :=
  (∀ a, (k0_off129 v512) a + S1x64.size a ≤ S100000x64.size a)
instance k0_chk86.dec : ∀ (v512 : BitVec 32), Decidable (k0_chk86 v512) := fun v512 => decidable_of_iff' _ (Iff.of_eq (k0_chk86.eq_1 v512))
theorem k0_off129_inb : ∀ (v512 : BitVec 32) (k0_hw86 : k0_chk86 v512), ∀ a, (k0_off129 v512) a + S1x64.size a ≤ S100000x64.size a := fun v512 k0_hw86 => k0_hw86

def k0_off130 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c43_i32 : BitVec 32 := 43#32
  let v519 : BitVec 32 := Scalar.addi v2 c43_i32
  let v520 : Index := Scalar.indexCast v519
  ![v520.toNat]
def k0_off131 (v521 : BitVec 32) : Fin 2 → Nat :=
  let v525 : Index := Scalar.indexCast v521
  let c0_132 : Index := 0#32
  ![v525.toNat, 0]

def k0_chk87 (v521 : BitVec 32) : Prop :=
  (∀ a, (k0_off131 v521) a + S1x64.size a ≤ S100000x64.size a)
instance k0_chk87.dec : ∀ (v521 : BitVec 32), Decidable (k0_chk87 v521) := fun v521 => decidable_of_iff' _ (Iff.of_eq (k0_chk87.eq_1 v521))
theorem k0_off131_inb : ∀ (v521 : BitVec 32) (k0_hw87 : k0_chk87 v521), ∀ a, (k0_off131 v521) a + S1x64.size a ≤ S100000x64.size a := fun v521 k0_hw87 => k0_hw87

def k0_off132 (v524 : BitVec 32) : Fin 2 → Nat :=
  let v528 : Index := Scalar.indexCast v524
  let c0_133 : Index := 0#32
  ![v528.toNat, 0]

def k0_chk88 (v524 : BitVec 32) : Prop :=
  (∀ a, (k0_off132 v524) a + S1x64.size a ≤ S100000x64.size a)
instance k0_chk88.dec : ∀ (v524 : BitVec 32), Decidable (k0_chk88 v524) := fun v524 => decidable_of_iff' _ (Iff.of_eq (k0_chk88.eq_1 v524))
theorem k0_off132_inb : ∀ (v524 : BitVec 32) (k0_hw88 : k0_chk88 v524), ∀ a, (k0_off132 v524) a + S1x64.size a ≤ S100000x64.size a := fun v524 k0_hw88 => k0_hw88

def k0_off133 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c44_i32 : BitVec 32 := 44#32
  let v531 : BitVec 32 := Scalar.addi v2 c44_i32
  let v532 : Index := Scalar.indexCast v531
  ![v532.toNat]
def k0_off134 (v533 : BitVec 32) : Fin 2 → Nat :=
  let v537 : Index := Scalar.indexCast v533
  let c0_135 : Index := 0#32
  ![v537.toNat, 0]

def k0_chk89 (v533 : BitVec 32) : Prop :=
  (∀ a, (k0_off134 v533) a + S1x64.size a ≤ S100000x64.size a)
instance k0_chk89.dec : ∀ (v533 : BitVec 32), Decidable (k0_chk89 v533) := fun v533 => decidable_of_iff' _ (Iff.of_eq (k0_chk89.eq_1 v533))
theorem k0_off134_inb : ∀ (v533 : BitVec 32) (k0_hw89 : k0_chk89 v533), ∀ a, (k0_off134 v533) a + S1x64.size a ≤ S100000x64.size a := fun v533 k0_hw89 => k0_hw89

def k0_off135 (v536 : BitVec 32) : Fin 2 → Nat :=
  let v540 : Index := Scalar.indexCast v536
  let c0_136 : Index := 0#32
  ![v540.toNat, 0]

def k0_chk90 (v536 : BitVec 32) : Prop :=
  (∀ a, (k0_off135 v536) a + S1x64.size a ≤ S100000x64.size a)
instance k0_chk90.dec : ∀ (v536 : BitVec 32), Decidable (k0_chk90 v536) := fun v536 => decidable_of_iff' _ (Iff.of_eq (k0_chk90.eq_1 v536))
theorem k0_off135_inb : ∀ (v536 : BitVec 32) (k0_hw90 : k0_chk90 v536), ∀ a, (k0_off135 v536) a + S1x64.size a ≤ S100000x64.size a := fun v536 k0_hw90 => k0_hw90

def k0_off136 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c45_i32 : BitVec 32 := 45#32
  let v543 : BitVec 32 := Scalar.addi v2 c45_i32
  let v544 : Index := Scalar.indexCast v543
  ![v544.toNat]
def k0_off137 (v545 : BitVec 32) : Fin 2 → Nat :=
  let v549 : Index := Scalar.indexCast v545
  let c0_138 : Index := 0#32
  ![v549.toNat, 0]

def k0_chk91 (v545 : BitVec 32) : Prop :=
  (∀ a, (k0_off137 v545) a + S1x64.size a ≤ S100000x64.size a)
instance k0_chk91.dec : ∀ (v545 : BitVec 32), Decidable (k0_chk91 v545) := fun v545 => decidable_of_iff' _ (Iff.of_eq (k0_chk91.eq_1 v545))
theorem k0_off137_inb : ∀ (v545 : BitVec 32) (k0_hw91 : k0_chk91 v545), ∀ a, (k0_off137 v545) a + S1x64.size a ≤ S100000x64.size a := fun v545 k0_hw91 => k0_hw91

def k0_off138 (v548 : BitVec 32) : Fin 2 → Nat :=
  let v552 : Index := Scalar.indexCast v548
  let c0_139 : Index := 0#32
  ![v552.toNat, 0]

def k0_chk92 (v548 : BitVec 32) : Prop :=
  (∀ a, (k0_off138 v548) a + S1x64.size a ≤ S100000x64.size a)
instance k0_chk92.dec : ∀ (v548 : BitVec 32), Decidable (k0_chk92 v548) := fun v548 => decidable_of_iff' _ (Iff.of_eq (k0_chk92.eq_1 v548))
theorem k0_off138_inb : ∀ (v548 : BitVec 32) (k0_hw92 : k0_chk92 v548), ∀ a, (k0_off138 v548) a + S1x64.size a ≤ S100000x64.size a := fun v548 k0_hw92 => k0_hw92

def k0_off139 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c46_i32 : BitVec 32 := 46#32
  let v555 : BitVec 32 := Scalar.addi v2 c46_i32
  let v556 : Index := Scalar.indexCast v555
  ![v556.toNat]
def k0_off140 (v557 : BitVec 32) : Fin 2 → Nat :=
  let v561 : Index := Scalar.indexCast v557
  let c0_141 : Index := 0#32
  ![v561.toNat, 0]

def k0_chk93 (v557 : BitVec 32) : Prop :=
  (∀ a, (k0_off140 v557) a + S1x64.size a ≤ S100000x64.size a)
instance k0_chk93.dec : ∀ (v557 : BitVec 32), Decidable (k0_chk93 v557) := fun v557 => decidable_of_iff' _ (Iff.of_eq (k0_chk93.eq_1 v557))
theorem k0_off140_inb : ∀ (v557 : BitVec 32) (k0_hw93 : k0_chk93 v557), ∀ a, (k0_off140 v557) a + S1x64.size a ≤ S100000x64.size a := fun v557 k0_hw93 => k0_hw93

def k0_off141 (v560 : BitVec 32) : Fin 2 → Nat :=
  let v564 : Index := Scalar.indexCast v560
  let c0_142 : Index := 0#32
  ![v564.toNat, 0]

def k0_chk94 (v560 : BitVec 32) : Prop :=
  (∀ a, (k0_off141 v560) a + S1x64.size a ≤ S100000x64.size a)
instance k0_chk94.dec : ∀ (v560 : BitVec 32), Decidable (k0_chk94 v560) := fun v560 => decidable_of_iff' _ (Iff.of_eq (k0_chk94.eq_1 v560))
theorem k0_off141_inb : ∀ (v560 : BitVec 32) (k0_hw94 : k0_chk94 v560), ∀ a, (k0_off141 v560) a + S1x64.size a ≤ S100000x64.size a := fun v560 k0_hw94 => k0_hw94

def k0_off142 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c47_i32 : BitVec 32 := 47#32
  let v567 : BitVec 32 := Scalar.addi v2 c47_i32
  let v568 : Index := Scalar.indexCast v567
  ![v568.toNat]
def k0_off143 (v569 : BitVec 32) : Fin 2 → Nat :=
  let v573 : Index := Scalar.indexCast v569
  let c0_144 : Index := 0#32
  ![v573.toNat, 0]

def k0_chk95 (v569 : BitVec 32) : Prop :=
  (∀ a, (k0_off143 v569) a + S1x64.size a ≤ S100000x64.size a)
instance k0_chk95.dec : ∀ (v569 : BitVec 32), Decidable (k0_chk95 v569) := fun v569 => decidable_of_iff' _ (Iff.of_eq (k0_chk95.eq_1 v569))
theorem k0_off143_inb : ∀ (v569 : BitVec 32) (k0_hw95 : k0_chk95 v569), ∀ a, (k0_off143 v569) a + S1x64.size a ≤ S100000x64.size a := fun v569 k0_hw95 => k0_hw95

def k0_off144 (v572 : BitVec 32) : Fin 2 → Nat :=
  let v576 : Index := Scalar.indexCast v572
  let c0_145 : Index := 0#32
  ![v576.toNat, 0]

def k0_chk96 (v572 : BitVec 32) : Prop :=
  (∀ a, (k0_off144 v572) a + S1x64.size a ≤ S100000x64.size a)
instance k0_chk96.dec : ∀ (v572 : BitVec 32), Decidable (k0_chk96 v572) := fun v572 => decidable_of_iff' _ (Iff.of_eq (k0_chk96.eq_1 v572))
theorem k0_off144_inb : ∀ (v572 : BitVec 32) (k0_hw96 : k0_chk96 v572), ∀ a, (k0_off144 v572) a + S1x64.size a ≤ S100000x64.size a := fun v572 k0_hw96 => k0_hw96

def k0_off145 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c48_i32 : BitVec 32 := 48#32
  let v579 : BitVec 32 := Scalar.addi v2 c48_i32
  let v580 : Index := Scalar.indexCast v579
  ![v580.toNat]
def k0_off146 (v581 : BitVec 32) : Fin 2 → Nat :=
  let v585 : Index := Scalar.indexCast v581
  let c0_147 : Index := 0#32
  ![v585.toNat, 0]

def k0_chk97 (v581 : BitVec 32) : Prop :=
  (∀ a, (k0_off146 v581) a + S1x64.size a ≤ S100000x64.size a)
instance k0_chk97.dec : ∀ (v581 : BitVec 32), Decidable (k0_chk97 v581) := fun v581 => decidable_of_iff' _ (Iff.of_eq (k0_chk97.eq_1 v581))
theorem k0_off146_inb : ∀ (v581 : BitVec 32) (k0_hw97 : k0_chk97 v581), ∀ a, (k0_off146 v581) a + S1x64.size a ≤ S100000x64.size a := fun v581 k0_hw97 => k0_hw97

def k0_off147 (v584 : BitVec 32) : Fin 2 → Nat :=
  let v588 : Index := Scalar.indexCast v584
  let c0_148 : Index := 0#32
  ![v588.toNat, 0]

def k0_chk98 (v584 : BitVec 32) : Prop :=
  (∀ a, (k0_off147 v584) a + S1x64.size a ≤ S100000x64.size a)
instance k0_chk98.dec : ∀ (v584 : BitVec 32), Decidable (k0_chk98 v584) := fun v584 => decidable_of_iff' _ (Iff.of_eq (k0_chk98.eq_1 v584))
theorem k0_off147_inb : ∀ (v584 : BitVec 32) (k0_hw98 : k0_chk98 v584), ∀ a, (k0_off147 v584) a + S1x64.size a ≤ S100000x64.size a := fun v584 k0_hw98 => k0_hw98

def k0_off148 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c49_i32 : BitVec 32 := 49#32
  let v591 : BitVec 32 := Scalar.addi v2 c49_i32
  let v592 : Index := Scalar.indexCast v591
  ![v592.toNat]
def k0_off149 (v593 : BitVec 32) : Fin 2 → Nat :=
  let v597 : Index := Scalar.indexCast v593
  let c0_150 : Index := 0#32
  ![v597.toNat, 0]

def k0_chk99 (v593 : BitVec 32) : Prop :=
  (∀ a, (k0_off149 v593) a + S1x64.size a ≤ S100000x64.size a)
instance k0_chk99.dec : ∀ (v593 : BitVec 32), Decidable (k0_chk99 v593) := fun v593 => decidable_of_iff' _ (Iff.of_eq (k0_chk99.eq_1 v593))
theorem k0_off149_inb : ∀ (v593 : BitVec 32) (k0_hw99 : k0_chk99 v593), ∀ a, (k0_off149 v593) a + S1x64.size a ≤ S100000x64.size a := fun v593 k0_hw99 => k0_hw99

def k0_off150 (v596 : BitVec 32) : Fin 2 → Nat :=
  let v600 : Index := Scalar.indexCast v596
  let c0_151 : Index := 0#32
  ![v600.toNat, 0]

def k0_chk100 (v596 : BitVec 32) : Prop :=
  (∀ a, (k0_off150 v596) a + S1x64.size a ≤ S100000x64.size a)
instance k0_chk100.dec : ∀ (v596 : BitVec 32), Decidable (k0_chk100 v596) := fun v596 => decidable_of_iff' _ (Iff.of_eq (k0_chk100.eq_1 v596))
theorem k0_off150_inb : ∀ (v596 : BitVec 32) (k0_hw100 : k0_chk100 v596), ∀ a, (k0_off150 v596) a + S1x64.size a ≤ S100000x64.size a := fun v596 k0_hw100 => k0_hw100

def k0_off151 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c50_i32 : BitVec 32 := 50#32
  let v603 : BitVec 32 := Scalar.addi v2 c50_i32
  let v604 : Index := Scalar.indexCast v603
  ![v604.toNat]
def k0_off152 (v605 : BitVec 32) : Fin 2 → Nat :=
  let v609 : Index := Scalar.indexCast v605
  let c0_153 : Index := 0#32
  ![v609.toNat, 0]

def k0_chk101 (v605 : BitVec 32) : Prop :=
  (∀ a, (k0_off152 v605) a + S1x64.size a ≤ S100000x64.size a)
instance k0_chk101.dec : ∀ (v605 : BitVec 32), Decidable (k0_chk101 v605) := fun v605 => decidable_of_iff' _ (Iff.of_eq (k0_chk101.eq_1 v605))
theorem k0_off152_inb : ∀ (v605 : BitVec 32) (k0_hw101 : k0_chk101 v605), ∀ a, (k0_off152 v605) a + S1x64.size a ≤ S100000x64.size a := fun v605 k0_hw101 => k0_hw101

def k0_off153 (v608 : BitVec 32) : Fin 2 → Nat :=
  let v612 : Index := Scalar.indexCast v608
  let c0_154 : Index := 0#32
  ![v612.toNat, 0]

def k0_chk102 (v608 : BitVec 32) : Prop :=
  (∀ a, (k0_off153 v608) a + S1x64.size a ≤ S100000x64.size a)
instance k0_chk102.dec : ∀ (v608 : BitVec 32), Decidable (k0_chk102 v608) := fun v608 => decidable_of_iff' _ (Iff.of_eq (k0_chk102.eq_1 v608))
theorem k0_off153_inb : ∀ (v608 : BitVec 32) (k0_hw102 : k0_chk102 v608), ∀ a, (k0_off153 v608) a + S1x64.size a ≤ S100000x64.size a := fun v608 k0_hw102 => k0_hw102

def k0_off154 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c51_i32 : BitVec 32 := 51#32
  let v615 : BitVec 32 := Scalar.addi v2 c51_i32
  let v616 : Index := Scalar.indexCast v615
  ![v616.toNat]
def k0_off155 (v617 : BitVec 32) : Fin 2 → Nat :=
  let v621 : Index := Scalar.indexCast v617
  let c0_156 : Index := 0#32
  ![v621.toNat, 0]

def k0_chk103 (v617 : BitVec 32) : Prop :=
  (∀ a, (k0_off155 v617) a + S1x64.size a ≤ S100000x64.size a)
instance k0_chk103.dec : ∀ (v617 : BitVec 32), Decidable (k0_chk103 v617) := fun v617 => decidable_of_iff' _ (Iff.of_eq (k0_chk103.eq_1 v617))
theorem k0_off155_inb : ∀ (v617 : BitVec 32) (k0_hw103 : k0_chk103 v617), ∀ a, (k0_off155 v617) a + S1x64.size a ≤ S100000x64.size a := fun v617 k0_hw103 => k0_hw103

def k0_off156 (v620 : BitVec 32) : Fin 2 → Nat :=
  let v624 : Index := Scalar.indexCast v620
  let c0_157 : Index := 0#32
  ![v624.toNat, 0]

def k0_chk104 (v620 : BitVec 32) : Prop :=
  (∀ a, (k0_off156 v620) a + S1x64.size a ≤ S100000x64.size a)
instance k0_chk104.dec : ∀ (v620 : BitVec 32), Decidable (k0_chk104 v620) := fun v620 => decidable_of_iff' _ (Iff.of_eq (k0_chk104.eq_1 v620))
theorem k0_off156_inb : ∀ (v620 : BitVec 32) (k0_hw104 : k0_chk104 v620), ∀ a, (k0_off156 v620) a + S1x64.size a ≤ S100000x64.size a := fun v620 k0_hw104 => k0_hw104

def k0_off157 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c52_i32 : BitVec 32 := 52#32
  let v627 : BitVec 32 := Scalar.addi v2 c52_i32
  let v628 : Index := Scalar.indexCast v627
  ![v628.toNat]
def k0_off158 (v629 : BitVec 32) : Fin 2 → Nat :=
  let v633 : Index := Scalar.indexCast v629
  let c0_159 : Index := 0#32
  ![v633.toNat, 0]

def k0_chk105 (v629 : BitVec 32) : Prop :=
  (∀ a, (k0_off158 v629) a + S1x64.size a ≤ S100000x64.size a)
instance k0_chk105.dec : ∀ (v629 : BitVec 32), Decidable (k0_chk105 v629) := fun v629 => decidable_of_iff' _ (Iff.of_eq (k0_chk105.eq_1 v629))
theorem k0_off158_inb : ∀ (v629 : BitVec 32) (k0_hw105 : k0_chk105 v629), ∀ a, (k0_off158 v629) a + S1x64.size a ≤ S100000x64.size a := fun v629 k0_hw105 => k0_hw105

def k0_off159 (v632 : BitVec 32) : Fin 2 → Nat :=
  let v636 : Index := Scalar.indexCast v632
  let c0_160 : Index := 0#32
  ![v636.toNat, 0]

def k0_chk106 (v632 : BitVec 32) : Prop :=
  (∀ a, (k0_off159 v632) a + S1x64.size a ≤ S100000x64.size a)
instance k0_chk106.dec : ∀ (v632 : BitVec 32), Decidable (k0_chk106 v632) := fun v632 => decidable_of_iff' _ (Iff.of_eq (k0_chk106.eq_1 v632))
theorem k0_off159_inb : ∀ (v632 : BitVec 32) (k0_hw106 : k0_chk106 v632), ∀ a, (k0_off159 v632) a + S1x64.size a ≤ S100000x64.size a := fun v632 k0_hw106 => k0_hw106

def k0_off160 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c53_i32 : BitVec 32 := 53#32
  let v639 : BitVec 32 := Scalar.addi v2 c53_i32
  let v640 : Index := Scalar.indexCast v639
  ![v640.toNat]
def k0_off161 (v641 : BitVec 32) : Fin 2 → Nat :=
  let v645 : Index := Scalar.indexCast v641
  let c0_162 : Index := 0#32
  ![v645.toNat, 0]

def k0_chk107 (v641 : BitVec 32) : Prop :=
  (∀ a, (k0_off161 v641) a + S1x64.size a ≤ S100000x64.size a)
instance k0_chk107.dec : ∀ (v641 : BitVec 32), Decidable (k0_chk107 v641) := fun v641 => decidable_of_iff' _ (Iff.of_eq (k0_chk107.eq_1 v641))
theorem k0_off161_inb : ∀ (v641 : BitVec 32) (k0_hw107 : k0_chk107 v641), ∀ a, (k0_off161 v641) a + S1x64.size a ≤ S100000x64.size a := fun v641 k0_hw107 => k0_hw107

def k0_off162 (v644 : BitVec 32) : Fin 2 → Nat :=
  let v648 : Index := Scalar.indexCast v644
  let c0_163 : Index := 0#32
  ![v648.toNat, 0]

def k0_chk108 (v644 : BitVec 32) : Prop :=
  (∀ a, (k0_off162 v644) a + S1x64.size a ≤ S100000x64.size a)
instance k0_chk108.dec : ∀ (v644 : BitVec 32), Decidable (k0_chk108 v644) := fun v644 => decidable_of_iff' _ (Iff.of_eq (k0_chk108.eq_1 v644))
theorem k0_off162_inb : ∀ (v644 : BitVec 32) (k0_hw108 : k0_chk108 v644), ∀ a, (k0_off162 v644) a + S1x64.size a ≤ S100000x64.size a := fun v644 k0_hw108 => k0_hw108

def k0_off163 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c54_i32 : BitVec 32 := 54#32
  let v651 : BitVec 32 := Scalar.addi v2 c54_i32
  let v652 : Index := Scalar.indexCast v651
  ![v652.toNat]
def k0_off164 (v653 : BitVec 32) : Fin 2 → Nat :=
  let v657 : Index := Scalar.indexCast v653
  let c0_165 : Index := 0#32
  ![v657.toNat, 0]

def k0_chk109 (v653 : BitVec 32) : Prop :=
  (∀ a, (k0_off164 v653) a + S1x64.size a ≤ S100000x64.size a)
instance k0_chk109.dec : ∀ (v653 : BitVec 32), Decidable (k0_chk109 v653) := fun v653 => decidable_of_iff' _ (Iff.of_eq (k0_chk109.eq_1 v653))
theorem k0_off164_inb : ∀ (v653 : BitVec 32) (k0_hw109 : k0_chk109 v653), ∀ a, (k0_off164 v653) a + S1x64.size a ≤ S100000x64.size a := fun v653 k0_hw109 => k0_hw109

def k0_off165 (v656 : BitVec 32) : Fin 2 → Nat :=
  let v660 : Index := Scalar.indexCast v656
  let c0_166 : Index := 0#32
  ![v660.toNat, 0]

def k0_chk110 (v656 : BitVec 32) : Prop :=
  (∀ a, (k0_off165 v656) a + S1x64.size a ≤ S100000x64.size a)
instance k0_chk110.dec : ∀ (v656 : BitVec 32), Decidable (k0_chk110 v656) := fun v656 => decidable_of_iff' _ (Iff.of_eq (k0_chk110.eq_1 v656))
theorem k0_off165_inb : ∀ (v656 : BitVec 32) (k0_hw110 : k0_chk110 v656), ∀ a, (k0_off165 v656) a + S1x64.size a ≤ S100000x64.size a := fun v656 k0_hw110 => k0_hw110

def k0_off166 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c55_i32 : BitVec 32 := 55#32
  let v663 : BitVec 32 := Scalar.addi v2 c55_i32
  let v664 : Index := Scalar.indexCast v663
  ![v664.toNat]
def k0_off167 (v665 : BitVec 32) : Fin 2 → Nat :=
  let v669 : Index := Scalar.indexCast v665
  let c0_168 : Index := 0#32
  ![v669.toNat, 0]

def k0_chk111 (v665 : BitVec 32) : Prop :=
  (∀ a, (k0_off167 v665) a + S1x64.size a ≤ S100000x64.size a)
instance k0_chk111.dec : ∀ (v665 : BitVec 32), Decidable (k0_chk111 v665) := fun v665 => decidable_of_iff' _ (Iff.of_eq (k0_chk111.eq_1 v665))
theorem k0_off167_inb : ∀ (v665 : BitVec 32) (k0_hw111 : k0_chk111 v665), ∀ a, (k0_off167 v665) a + S1x64.size a ≤ S100000x64.size a := fun v665 k0_hw111 => k0_hw111

def k0_off168 (v668 : BitVec 32) : Fin 2 → Nat :=
  let v672 : Index := Scalar.indexCast v668
  let c0_169 : Index := 0#32
  ![v672.toNat, 0]

def k0_chk112 (v668 : BitVec 32) : Prop :=
  (∀ a, (k0_off168 v668) a + S1x64.size a ≤ S100000x64.size a)
instance k0_chk112.dec : ∀ (v668 : BitVec 32), Decidable (k0_chk112 v668) := fun v668 => decidable_of_iff' _ (Iff.of_eq (k0_chk112.eq_1 v668))
theorem k0_off168_inb : ∀ (v668 : BitVec 32) (k0_hw112 : k0_chk112 v668), ∀ a, (k0_off168 v668) a + S1x64.size a ≤ S100000x64.size a := fun v668 k0_hw112 => k0_hw112

def k0_off169 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c56_i32 : BitVec 32 := 56#32
  let v675 : BitVec 32 := Scalar.addi v2 c56_i32
  let v676 : Index := Scalar.indexCast v675
  ![v676.toNat]
def k0_off170 (v677 : BitVec 32) : Fin 2 → Nat :=
  let v681 : Index := Scalar.indexCast v677
  let c0_171 : Index := 0#32
  ![v681.toNat, 0]

def k0_chk113 (v677 : BitVec 32) : Prop :=
  (∀ a, (k0_off170 v677) a + S1x64.size a ≤ S100000x64.size a)
instance k0_chk113.dec : ∀ (v677 : BitVec 32), Decidable (k0_chk113 v677) := fun v677 => decidable_of_iff' _ (Iff.of_eq (k0_chk113.eq_1 v677))
theorem k0_off170_inb : ∀ (v677 : BitVec 32) (k0_hw113 : k0_chk113 v677), ∀ a, (k0_off170 v677) a + S1x64.size a ≤ S100000x64.size a := fun v677 k0_hw113 => k0_hw113

def k0_off171 (v680 : BitVec 32) : Fin 2 → Nat :=
  let v684 : Index := Scalar.indexCast v680
  let c0_172 : Index := 0#32
  ![v684.toNat, 0]

def k0_chk114 (v680 : BitVec 32) : Prop :=
  (∀ a, (k0_off171 v680) a + S1x64.size a ≤ S100000x64.size a)
instance k0_chk114.dec : ∀ (v680 : BitVec 32), Decidable (k0_chk114 v680) := fun v680 => decidable_of_iff' _ (Iff.of_eq (k0_chk114.eq_1 v680))
theorem k0_off171_inb : ∀ (v680 : BitVec 32) (k0_hw114 : k0_chk114 v680), ∀ a, (k0_off171 v680) a + S1x64.size a ≤ S100000x64.size a := fun v680 k0_hw114 => k0_hw114

def k0_off172 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c57_i32 : BitVec 32 := 57#32
  let v687 : BitVec 32 := Scalar.addi v2 c57_i32
  let v688 : Index := Scalar.indexCast v687
  ![v688.toNat]
def k0_off173 (v689 : BitVec 32) : Fin 2 → Nat :=
  let v693 : Index := Scalar.indexCast v689
  let c0_174 : Index := 0#32
  ![v693.toNat, 0]

def k0_chk115 (v689 : BitVec 32) : Prop :=
  (∀ a, (k0_off173 v689) a + S1x64.size a ≤ S100000x64.size a)
instance k0_chk115.dec : ∀ (v689 : BitVec 32), Decidable (k0_chk115 v689) := fun v689 => decidable_of_iff' _ (Iff.of_eq (k0_chk115.eq_1 v689))
theorem k0_off173_inb : ∀ (v689 : BitVec 32) (k0_hw115 : k0_chk115 v689), ∀ a, (k0_off173 v689) a + S1x64.size a ≤ S100000x64.size a := fun v689 k0_hw115 => k0_hw115

def k0_off174 (v692 : BitVec 32) : Fin 2 → Nat :=
  let v696 : Index := Scalar.indexCast v692
  let c0_175 : Index := 0#32
  ![v696.toNat, 0]

def k0_chk116 (v692 : BitVec 32) : Prop :=
  (∀ a, (k0_off174 v692) a + S1x64.size a ≤ S100000x64.size a)
instance k0_chk116.dec : ∀ (v692 : BitVec 32), Decidable (k0_chk116 v692) := fun v692 => decidable_of_iff' _ (Iff.of_eq (k0_chk116.eq_1 v692))
theorem k0_off174_inb : ∀ (v692 : BitVec 32) (k0_hw116 : k0_chk116 v692), ∀ a, (k0_off174 v692) a + S1x64.size a ≤ S100000x64.size a := fun v692 k0_hw116 => k0_hw116

def k0_off175 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c58_i32 : BitVec 32 := 58#32
  let v699 : BitVec 32 := Scalar.addi v2 c58_i32
  let v700 : Index := Scalar.indexCast v699
  ![v700.toNat]
def k0_off176 (v701 : BitVec 32) : Fin 2 → Nat :=
  let v705 : Index := Scalar.indexCast v701
  let c0_177 : Index := 0#32
  ![v705.toNat, 0]

def k0_chk117 (v701 : BitVec 32) : Prop :=
  (∀ a, (k0_off176 v701) a + S1x64.size a ≤ S100000x64.size a)
instance k0_chk117.dec : ∀ (v701 : BitVec 32), Decidable (k0_chk117 v701) := fun v701 => decidable_of_iff' _ (Iff.of_eq (k0_chk117.eq_1 v701))
theorem k0_off176_inb : ∀ (v701 : BitVec 32) (k0_hw117 : k0_chk117 v701), ∀ a, (k0_off176 v701) a + S1x64.size a ≤ S100000x64.size a := fun v701 k0_hw117 => k0_hw117

def k0_off177 (v704 : BitVec 32) : Fin 2 → Nat :=
  let v708 : Index := Scalar.indexCast v704
  let c0_178 : Index := 0#32
  ![v708.toNat, 0]

def k0_chk118 (v704 : BitVec 32) : Prop :=
  (∀ a, (k0_off177 v704) a + S1x64.size a ≤ S100000x64.size a)
instance k0_chk118.dec : ∀ (v704 : BitVec 32), Decidable (k0_chk118 v704) := fun v704 => decidable_of_iff' _ (Iff.of_eq (k0_chk118.eq_1 v704))
theorem k0_off177_inb : ∀ (v704 : BitVec 32) (k0_hw118 : k0_chk118 v704), ∀ a, (k0_off177 v704) a + S1x64.size a ≤ S100000x64.size a := fun v704 k0_hw118 => k0_hw118

def k0_off178 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c59_i32 : BitVec 32 := 59#32
  let v711 : BitVec 32 := Scalar.addi v2 c59_i32
  let v712 : Index := Scalar.indexCast v711
  ![v712.toNat]
def k0_off179 (v713 : BitVec 32) : Fin 2 → Nat :=
  let v717 : Index := Scalar.indexCast v713
  let c0_180 : Index := 0#32
  ![v717.toNat, 0]

def k0_chk119 (v713 : BitVec 32) : Prop :=
  (∀ a, (k0_off179 v713) a + S1x64.size a ≤ S100000x64.size a)
instance k0_chk119.dec : ∀ (v713 : BitVec 32), Decidable (k0_chk119 v713) := fun v713 => decidable_of_iff' _ (Iff.of_eq (k0_chk119.eq_1 v713))
theorem k0_off179_inb : ∀ (v713 : BitVec 32) (k0_hw119 : k0_chk119 v713), ∀ a, (k0_off179 v713) a + S1x64.size a ≤ S100000x64.size a := fun v713 k0_hw119 => k0_hw119

def k0_off180 (v716 : BitVec 32) : Fin 2 → Nat :=
  let v720 : Index := Scalar.indexCast v716
  let c0_181 : Index := 0#32
  ![v720.toNat, 0]

def k0_chk120 (v716 : BitVec 32) : Prop :=
  (∀ a, (k0_off180 v716) a + S1x64.size a ≤ S100000x64.size a)
instance k0_chk120.dec : ∀ (v716 : BitVec 32), Decidable (k0_chk120 v716) := fun v716 => decidable_of_iff' _ (Iff.of_eq (k0_chk120.eq_1 v716))
theorem k0_off180_inb : ∀ (v716 : BitVec 32) (k0_hw120 : k0_chk120 v716), ∀ a, (k0_off180 v716) a + S1x64.size a ≤ S100000x64.size a := fun v716 k0_hw120 => k0_hw120

def k0_off181 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c60_i32 : BitVec 32 := 60#32
  let v723 : BitVec 32 := Scalar.addi v2 c60_i32
  let v724 : Index := Scalar.indexCast v723
  ![v724.toNat]
def k0_off182 (v725 : BitVec 32) : Fin 2 → Nat :=
  let v729 : Index := Scalar.indexCast v725
  let c0_183 : Index := 0#32
  ![v729.toNat, 0]

def k0_chk121 (v725 : BitVec 32) : Prop :=
  (∀ a, (k0_off182 v725) a + S1x64.size a ≤ S100000x64.size a)
instance k0_chk121.dec : ∀ (v725 : BitVec 32), Decidable (k0_chk121 v725) := fun v725 => decidable_of_iff' _ (Iff.of_eq (k0_chk121.eq_1 v725))
theorem k0_off182_inb : ∀ (v725 : BitVec 32) (k0_hw121 : k0_chk121 v725), ∀ a, (k0_off182 v725) a + S1x64.size a ≤ S100000x64.size a := fun v725 k0_hw121 => k0_hw121

def k0_off183 (v728 : BitVec 32) : Fin 2 → Nat :=
  let v732 : Index := Scalar.indexCast v728
  let c0_184 : Index := 0#32
  ![v732.toNat, 0]

def k0_chk122 (v728 : BitVec 32) : Prop :=
  (∀ a, (k0_off183 v728) a + S1x64.size a ≤ S100000x64.size a)
instance k0_chk122.dec : ∀ (v728 : BitVec 32), Decidable (k0_chk122 v728) := fun v728 => decidable_of_iff' _ (Iff.of_eq (k0_chk122.eq_1 v728))
theorem k0_off183_inb : ∀ (v728 : BitVec 32) (k0_hw122 : k0_chk122 v728), ∀ a, (k0_off183 v728) a + S1x64.size a ≤ S100000x64.size a := fun v728 k0_hw122 => k0_hw122

def k0_off184 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c61_i32 : BitVec 32 := 61#32
  let v735 : BitVec 32 := Scalar.addi v2 c61_i32
  let v736 : Index := Scalar.indexCast v735
  ![v736.toNat]
def k0_off185 (v737 : BitVec 32) : Fin 2 → Nat :=
  let v741 : Index := Scalar.indexCast v737
  let c0_186 : Index := 0#32
  ![v741.toNat, 0]

def k0_chk123 (v737 : BitVec 32) : Prop :=
  (∀ a, (k0_off185 v737) a + S1x64.size a ≤ S100000x64.size a)
instance k0_chk123.dec : ∀ (v737 : BitVec 32), Decidable (k0_chk123 v737) := fun v737 => decidable_of_iff' _ (Iff.of_eq (k0_chk123.eq_1 v737))
theorem k0_off185_inb : ∀ (v737 : BitVec 32) (k0_hw123 : k0_chk123 v737), ∀ a, (k0_off185 v737) a + S1x64.size a ≤ S100000x64.size a := fun v737 k0_hw123 => k0_hw123

def k0_off186 (v740 : BitVec 32) : Fin 2 → Nat :=
  let v744 : Index := Scalar.indexCast v740
  let c0_187 : Index := 0#32
  ![v744.toNat, 0]

def k0_chk124 (v740 : BitVec 32) : Prop :=
  (∀ a, (k0_off186 v740) a + S1x64.size a ≤ S100000x64.size a)
instance k0_chk124.dec : ∀ (v740 : BitVec 32), Decidable (k0_chk124 v740) := fun v740 => decidable_of_iff' _ (Iff.of_eq (k0_chk124.eq_1 v740))
theorem k0_off186_inb : ∀ (v740 : BitVec 32) (k0_hw124 : k0_chk124 v740), ∀ a, (k0_off186 v740) a + S1x64.size a ≤ S100000x64.size a := fun v740 k0_hw124 => k0_hw124

def k0_off187 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c62_i32 : BitVec 32 := 62#32
  let v747 : BitVec 32 := Scalar.addi v2 c62_i32
  let v748 : Index := Scalar.indexCast v747
  ![v748.toNat]
def k0_off188 (v749 : BitVec 32) : Fin 2 → Nat :=
  let v753 : Index := Scalar.indexCast v749
  let c0_189 : Index := 0#32
  ![v753.toNat, 0]

def k0_chk125 (v749 : BitVec 32) : Prop :=
  (∀ a, (k0_off188 v749) a + S1x64.size a ≤ S100000x64.size a)
instance k0_chk125.dec : ∀ (v749 : BitVec 32), Decidable (k0_chk125 v749) := fun v749 => decidable_of_iff' _ (Iff.of_eq (k0_chk125.eq_1 v749))
theorem k0_off188_inb : ∀ (v749 : BitVec 32) (k0_hw125 : k0_chk125 v749), ∀ a, (k0_off188 v749) a + S1x64.size a ≤ S100000x64.size a := fun v749 k0_hw125 => k0_hw125

def k0_off189 (v752 : BitVec 32) : Fin 2 → Nat :=
  let v756 : Index := Scalar.indexCast v752
  let c0_190 : Index := 0#32
  ![v756.toNat, 0]

def k0_chk126 (v752 : BitVec 32) : Prop :=
  (∀ a, (k0_off189 v752) a + S1x64.size a ≤ S100000x64.size a)
instance k0_chk126.dec : ∀ (v752 : BitVec 32), Decidable (k0_chk126 v752) := fun v752 => decidable_of_iff' _ (Iff.of_eq (k0_chk126.eq_1 v752))
theorem k0_off189_inb : ∀ (v752 : BitVec 32) (k0_hw126 : k0_chk126 v752), ∀ a, (k0_off189 v752) a + S1x64.size a ≤ S100000x64.size a := fun v752 k0_hw126 => k0_hw126

def k0_off190 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c63_i32 : BitVec 32 := 63#32
  let v759 : BitVec 32 := Scalar.addi v2 c63_i32
  let v760 : Index := Scalar.indexCast v759
  ![v760.toNat]
def k0_off191 (v761 : BitVec 32) : Fin 2 → Nat :=
  let v765 : Index := Scalar.indexCast v761
  let c0_192 : Index := 0#32
  ![v765.toNat, 0]

def k0_chk127 (v761 : BitVec 32) : Prop :=
  (∀ a, (k0_off191 v761) a + S1x64.size a ≤ S100000x64.size a)
instance k0_chk127.dec : ∀ (v761 : BitVec 32), Decidable (k0_chk127 v761) := fun v761 => decidable_of_iff' _ (Iff.of_eq (k0_chk127.eq_1 v761))
theorem k0_off191_inb : ∀ (v761 : BitVec 32) (k0_hw127 : k0_chk127 v761), ∀ a, (k0_off191 v761) a + S1x64.size a ≤ S100000x64.size a := fun v761 k0_hw127 => k0_hw127

def k0_off192 (v764 : BitVec 32) : Fin 2 → Nat :=
  let v768 : Index := Scalar.indexCast v764
  let c0_193 : Index := 0#32
  ![v768.toNat, 0]

def k0_chk128 (v764 : BitVec 32) : Prop :=
  (∀ a, (k0_off192 v764) a + S1x64.size a ≤ S100000x64.size a)
instance k0_chk128.dec : ∀ (v764 : BitVec 32), Decidable (k0_chk128 v764) := fun v764 => decidable_of_iff' _ (Iff.of_eq (k0_chk128.eq_1 v764))
theorem k0_off192_inb : ∀ (v764 : BitVec 32) (k0_hw128 : k0_chk128 v764), ∀ a, (k0_off192 v764) a + S1x64.size a ≤ S100000x64.size a := fun v764 k0_hw128 => k0_hw128

def k0_off193 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c64_i32_194 : BitVec 32 := 64#32
  let v771 : BitVec 32 := Scalar.addi v2 c64_i32_194
  let v772 : Index := Scalar.indexCast v771
  ![v772.toNat]
def k0_off194 (v773 : BitVec 32) : Fin 2 → Nat :=
  let v777 : Index := Scalar.indexCast v773
  let c0_196 : Index := 0#32
  ![v777.toNat, 0]

def k0_chk129 (v773 : BitVec 32) : Prop :=
  (∀ a, (k0_off194 v773) a + S1x64.size a ≤ S100000x64.size a)
instance k0_chk129.dec : ∀ (v773 : BitVec 32), Decidable (k0_chk129 v773) := fun v773 => decidable_of_iff' _ (Iff.of_eq (k0_chk129.eq_1 v773))
theorem k0_off194_inb : ∀ (v773 : BitVec 32) (k0_hw129 : k0_chk129 v773), ∀ a, (k0_off194 v773) a + S1x64.size a ≤ S100000x64.size a := fun v773 k0_hw129 => k0_hw129

def k0_off195 (v776 : BitVec 32) : Fin 2 → Nat :=
  let v780 : Index := Scalar.indexCast v776
  let c0_197 : Index := 0#32
  ![v780.toNat, 0]

def k0_chk130 (v776 : BitVec 32) : Prop :=
  (∀ a, (k0_off195 v776) a + S1x64.size a ≤ S100000x64.size a)
instance k0_chk130.dec : ∀ (v776 : BitVec 32), Decidable (k0_chk130 v776) := fun v776 => decidable_of_iff' _ (Iff.of_eq (k0_chk130.eq_1 v776))
theorem k0_off195_inb : ∀ (v776 : BitVec 32) (k0_hw130 : k0_chk130 v776), ∀ a, (k0_off195 v776) a + S1x64.size a ≤ S100000x64.size a := fun v776 k0_hw130 => k0_hw130

def k0_off196 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c65_i32 : BitVec 32 := 65#32
  let v783 : BitVec 32 := Scalar.addi v2 c65_i32
  let v784 : Index := Scalar.indexCast v783
  ![v784.toNat]
def k0_off197 (v785 : BitVec 32) : Fin 2 → Nat :=
  let v789 : Index := Scalar.indexCast v785
  let c0_199 : Index := 0#32
  ![v789.toNat, 0]

def k0_chk131 (v785 : BitVec 32) : Prop :=
  (∀ a, (k0_off197 v785) a + S1x64.size a ≤ S100000x64.size a)
instance k0_chk131.dec : ∀ (v785 : BitVec 32), Decidable (k0_chk131 v785) := fun v785 => decidable_of_iff' _ (Iff.of_eq (k0_chk131.eq_1 v785))
theorem k0_off197_inb : ∀ (v785 : BitVec 32) (k0_hw131 : k0_chk131 v785), ∀ a, (k0_off197 v785) a + S1x64.size a ≤ S100000x64.size a := fun v785 k0_hw131 => k0_hw131

def k0_off198 (v788 : BitVec 32) : Fin 2 → Nat :=
  let v792 : Index := Scalar.indexCast v788
  let c0_200 : Index := 0#32
  ![v792.toNat, 0]

def k0_chk132 (v788 : BitVec 32) : Prop :=
  (∀ a, (k0_off198 v788) a + S1x64.size a ≤ S100000x64.size a)
instance k0_chk132.dec : ∀ (v788 : BitVec 32), Decidable (k0_chk132 v788) := fun v788 => decidable_of_iff' _ (Iff.of_eq (k0_chk132.eq_1 v788))
theorem k0_off198_inb : ∀ (v788 : BitVec 32) (k0_hw132 : k0_chk132 v788), ∀ a, (k0_off198 v788) a + S1x64.size a ≤ S100000x64.size a := fun v788 k0_hw132 => k0_hw132

def k0_off199 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c66_i32 : BitVec 32 := 66#32
  let v795 : BitVec 32 := Scalar.addi v2 c66_i32
  let v796 : Index := Scalar.indexCast v795
  ![v796.toNat]
def k0_off200 (v797 : BitVec 32) : Fin 2 → Nat :=
  let v801 : Index := Scalar.indexCast v797
  let c0_202 : Index := 0#32
  ![v801.toNat, 0]

def k0_chk133 (v797 : BitVec 32) : Prop :=
  (∀ a, (k0_off200 v797) a + S1x64.size a ≤ S100000x64.size a)
instance k0_chk133.dec : ∀ (v797 : BitVec 32), Decidable (k0_chk133 v797) := fun v797 => decidable_of_iff' _ (Iff.of_eq (k0_chk133.eq_1 v797))
theorem k0_off200_inb : ∀ (v797 : BitVec 32) (k0_hw133 : k0_chk133 v797), ∀ a, (k0_off200 v797) a + S1x64.size a ≤ S100000x64.size a := fun v797 k0_hw133 => k0_hw133

def k0_off201 (v800 : BitVec 32) : Fin 2 → Nat :=
  let v804 : Index := Scalar.indexCast v800
  let c0_203 : Index := 0#32
  ![v804.toNat, 0]

def k0_chk134 (v800 : BitVec 32) : Prop :=
  (∀ a, (k0_off201 v800) a + S1x64.size a ≤ S100000x64.size a)
instance k0_chk134.dec : ∀ (v800 : BitVec 32), Decidable (k0_chk134 v800) := fun v800 => decidable_of_iff' _ (Iff.of_eq (k0_chk134.eq_1 v800))
theorem k0_off201_inb : ∀ (v800 : BitVec 32) (k0_hw134 : k0_chk134 v800), ∀ a, (k0_off201 v800) a + S1x64.size a ≤ S100000x64.size a := fun v800 k0_hw134 => k0_hw134

def k0_off202 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c67_i32 : BitVec 32 := 67#32
  let v807 : BitVec 32 := Scalar.addi v2 c67_i32
  let v808 : Index := Scalar.indexCast v807
  ![v808.toNat]
def k0_off203 (v809 : BitVec 32) : Fin 2 → Nat :=
  let v813 : Index := Scalar.indexCast v809
  let c0_205 : Index := 0#32
  ![v813.toNat, 0]

def k0_chk135 (v809 : BitVec 32) : Prop :=
  (∀ a, (k0_off203 v809) a + S1x64.size a ≤ S100000x64.size a)
instance k0_chk135.dec : ∀ (v809 : BitVec 32), Decidable (k0_chk135 v809) := fun v809 => decidable_of_iff' _ (Iff.of_eq (k0_chk135.eq_1 v809))
theorem k0_off203_inb : ∀ (v809 : BitVec 32) (k0_hw135 : k0_chk135 v809), ∀ a, (k0_off203 v809) a + S1x64.size a ≤ S100000x64.size a := fun v809 k0_hw135 => k0_hw135

def k0_off204 (v812 : BitVec 32) : Fin 2 → Nat :=
  let v816 : Index := Scalar.indexCast v812
  let c0_206 : Index := 0#32
  ![v816.toNat, 0]

def k0_chk136 (v812 : BitVec 32) : Prop :=
  (∀ a, (k0_off204 v812) a + S1x64.size a ≤ S100000x64.size a)
instance k0_chk136.dec : ∀ (v812 : BitVec 32), Decidable (k0_chk136 v812) := fun v812 => decidable_of_iff' _ (Iff.of_eq (k0_chk136.eq_1 v812))
theorem k0_off204_inb : ∀ (v812 : BitVec 32) (k0_hw136 : k0_chk136 v812), ∀ a, (k0_off204 v812) a + S1x64.size a ≤ S100000x64.size a := fun v812 k0_hw136 => k0_hw136

def k0_off205 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c68_i32 : BitVec 32 := 68#32
  let v819 : BitVec 32 := Scalar.addi v2 c68_i32
  let v820 : Index := Scalar.indexCast v819
  ![v820.toNat]
def k0_off206 (v821 : BitVec 32) : Fin 2 → Nat :=
  let v825 : Index := Scalar.indexCast v821
  let c0_208 : Index := 0#32
  ![v825.toNat, 0]

def k0_chk137 (v821 : BitVec 32) : Prop :=
  (∀ a, (k0_off206 v821) a + S1x64.size a ≤ S100000x64.size a)
instance k0_chk137.dec : ∀ (v821 : BitVec 32), Decidable (k0_chk137 v821) := fun v821 => decidable_of_iff' _ (Iff.of_eq (k0_chk137.eq_1 v821))
theorem k0_off206_inb : ∀ (v821 : BitVec 32) (k0_hw137 : k0_chk137 v821), ∀ a, (k0_off206 v821) a + S1x64.size a ≤ S100000x64.size a := fun v821 k0_hw137 => k0_hw137

def k0_off207 (v824 : BitVec 32) : Fin 2 → Nat :=
  let v828 : Index := Scalar.indexCast v824
  let c0_209 : Index := 0#32
  ![v828.toNat, 0]

def k0_chk138 (v824 : BitVec 32) : Prop :=
  (∀ a, (k0_off207 v824) a + S1x64.size a ≤ S100000x64.size a)
instance k0_chk138.dec : ∀ (v824 : BitVec 32), Decidable (k0_chk138 v824) := fun v824 => decidable_of_iff' _ (Iff.of_eq (k0_chk138.eq_1 v824))
theorem k0_off207_inb : ∀ (v824 : BitVec 32) (k0_hw138 : k0_chk138 v824), ∀ a, (k0_off207 v824) a + S1x64.size a ≤ S100000x64.size a := fun v824 k0_hw138 => k0_hw138

def k0_off208 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c69_i32 : BitVec 32 := 69#32
  let v831 : BitVec 32 := Scalar.addi v2 c69_i32
  let v832 : Index := Scalar.indexCast v831
  ![v832.toNat]
def k0_off209 (v833 : BitVec 32) : Fin 2 → Nat :=
  let v837 : Index := Scalar.indexCast v833
  let c0_211 : Index := 0#32
  ![v837.toNat, 0]

def k0_chk139 (v833 : BitVec 32) : Prop :=
  (∀ a, (k0_off209 v833) a + S1x64.size a ≤ S100000x64.size a)
instance k0_chk139.dec : ∀ (v833 : BitVec 32), Decidable (k0_chk139 v833) := fun v833 => decidable_of_iff' _ (Iff.of_eq (k0_chk139.eq_1 v833))
theorem k0_off209_inb : ∀ (v833 : BitVec 32) (k0_hw139 : k0_chk139 v833), ∀ a, (k0_off209 v833) a + S1x64.size a ≤ S100000x64.size a := fun v833 k0_hw139 => k0_hw139

def k0_off210 (v836 : BitVec 32) : Fin 2 → Nat :=
  let v840 : Index := Scalar.indexCast v836
  let c0_212 : Index := 0#32
  ![v840.toNat, 0]

def k0_chk140 (v836 : BitVec 32) : Prop :=
  (∀ a, (k0_off210 v836) a + S1x64.size a ≤ S100000x64.size a)
instance k0_chk140.dec : ∀ (v836 : BitVec 32), Decidable (k0_chk140 v836) := fun v836 => decidable_of_iff' _ (Iff.of_eq (k0_chk140.eq_1 v836))
theorem k0_off210_inb : ∀ (v836 : BitVec 32) (k0_hw140 : k0_chk140 v836), ∀ a, (k0_off210 v836) a + S1x64.size a ≤ S100000x64.size a := fun v836 k0_hw140 => k0_hw140

def k0_off211 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c70_i32 : BitVec 32 := 70#32
  let v843 : BitVec 32 := Scalar.addi v2 c70_i32
  let v844 : Index := Scalar.indexCast v843
  ![v844.toNat]
def k0_off212 (v845 : BitVec 32) : Fin 2 → Nat :=
  let v849 : Index := Scalar.indexCast v845
  let c0_214 : Index := 0#32
  ![v849.toNat, 0]

def k0_chk141 (v845 : BitVec 32) : Prop :=
  (∀ a, (k0_off212 v845) a + S1x64.size a ≤ S100000x64.size a)
instance k0_chk141.dec : ∀ (v845 : BitVec 32), Decidable (k0_chk141 v845) := fun v845 => decidable_of_iff' _ (Iff.of_eq (k0_chk141.eq_1 v845))
theorem k0_off212_inb : ∀ (v845 : BitVec 32) (k0_hw141 : k0_chk141 v845), ∀ a, (k0_off212 v845) a + S1x64.size a ≤ S100000x64.size a := fun v845 k0_hw141 => k0_hw141

def k0_off213 (v848 : BitVec 32) : Fin 2 → Nat :=
  let v852 : Index := Scalar.indexCast v848
  let c0_215 : Index := 0#32
  ![v852.toNat, 0]

def k0_chk142 (v848 : BitVec 32) : Prop :=
  (∀ a, (k0_off213 v848) a + S1x64.size a ≤ S100000x64.size a)
instance k0_chk142.dec : ∀ (v848 : BitVec 32), Decidable (k0_chk142 v848) := fun v848 => decidable_of_iff' _ (Iff.of_eq (k0_chk142.eq_1 v848))
theorem k0_off213_inb : ∀ (v848 : BitVec 32) (k0_hw142 : k0_chk142 v848), ∀ a, (k0_off213 v848) a + S1x64.size a ≤ S100000x64.size a := fun v848 k0_hw142 => k0_hw142

def k0_off214 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c71_i32 : BitVec 32 := 71#32
  let v855 : BitVec 32 := Scalar.addi v2 c71_i32
  let v856 : Index := Scalar.indexCast v855
  ![v856.toNat]
def k0_off215 (v857 : BitVec 32) : Fin 2 → Nat :=
  let v861 : Index := Scalar.indexCast v857
  let c0_217 : Index := 0#32
  ![v861.toNat, 0]

def k0_chk143 (v857 : BitVec 32) : Prop :=
  (∀ a, (k0_off215 v857) a + S1x64.size a ≤ S100000x64.size a)
instance k0_chk143.dec : ∀ (v857 : BitVec 32), Decidable (k0_chk143 v857) := fun v857 => decidable_of_iff' _ (Iff.of_eq (k0_chk143.eq_1 v857))
theorem k0_off215_inb : ∀ (v857 : BitVec 32) (k0_hw143 : k0_chk143 v857), ∀ a, (k0_off215 v857) a + S1x64.size a ≤ S100000x64.size a := fun v857 k0_hw143 => k0_hw143

def k0_off216 (v860 : BitVec 32) : Fin 2 → Nat :=
  let v864 : Index := Scalar.indexCast v860
  let c0_218 : Index := 0#32
  ![v864.toNat, 0]

def k0_chk144 (v860 : BitVec 32) : Prop :=
  (∀ a, (k0_off216 v860) a + S1x64.size a ≤ S100000x64.size a)
instance k0_chk144.dec : ∀ (v860 : BitVec 32), Decidable (k0_chk144 v860) := fun v860 => decidable_of_iff' _ (Iff.of_eq (k0_chk144.eq_1 v860))
theorem k0_off216_inb : ∀ (v860 : BitVec 32) (k0_hw144 : k0_chk144 v860), ∀ a, (k0_off216 v860) a + S1x64.size a ≤ S100000x64.size a := fun v860 k0_hw144 => k0_hw144

def k0_off217 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c72_i32 : BitVec 32 := 72#32
  let v867 : BitVec 32 := Scalar.addi v2 c72_i32
  let v868 : Index := Scalar.indexCast v867
  ![v868.toNat]
def k0_off218 (v869 : BitVec 32) : Fin 2 → Nat :=
  let v873 : Index := Scalar.indexCast v869
  let c0_220 : Index := 0#32
  ![v873.toNat, 0]

def k0_chk145 (v869 : BitVec 32) : Prop :=
  (∀ a, (k0_off218 v869) a + S1x64.size a ≤ S100000x64.size a)
instance k0_chk145.dec : ∀ (v869 : BitVec 32), Decidable (k0_chk145 v869) := fun v869 => decidable_of_iff' _ (Iff.of_eq (k0_chk145.eq_1 v869))
theorem k0_off218_inb : ∀ (v869 : BitVec 32) (k0_hw145 : k0_chk145 v869), ∀ a, (k0_off218 v869) a + S1x64.size a ≤ S100000x64.size a := fun v869 k0_hw145 => k0_hw145

def k0_off219 (v872 : BitVec 32) : Fin 2 → Nat :=
  let v876 : Index := Scalar.indexCast v872
  let c0_221 : Index := 0#32
  ![v876.toNat, 0]

def k0_chk146 (v872 : BitVec 32) : Prop :=
  (∀ a, (k0_off219 v872) a + S1x64.size a ≤ S100000x64.size a)
instance k0_chk146.dec : ∀ (v872 : BitVec 32), Decidable (k0_chk146 v872) := fun v872 => decidable_of_iff' _ (Iff.of_eq (k0_chk146.eq_1 v872))
theorem k0_off219_inb : ∀ (v872 : BitVec 32) (k0_hw146 : k0_chk146 v872), ∀ a, (k0_off219 v872) a + S1x64.size a ≤ S100000x64.size a := fun v872 k0_hw146 => k0_hw146

def k0_off220 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c73_i32 : BitVec 32 := 73#32
  let v879 : BitVec 32 := Scalar.addi v2 c73_i32
  let v880 : Index := Scalar.indexCast v879
  ![v880.toNat]
def k0_off221 (v881 : BitVec 32) : Fin 2 → Nat :=
  let v885 : Index := Scalar.indexCast v881
  let c0_223 : Index := 0#32
  ![v885.toNat, 0]

def k0_chk147 (v881 : BitVec 32) : Prop :=
  (∀ a, (k0_off221 v881) a + S1x64.size a ≤ S100000x64.size a)
instance k0_chk147.dec : ∀ (v881 : BitVec 32), Decidable (k0_chk147 v881) := fun v881 => decidable_of_iff' _ (Iff.of_eq (k0_chk147.eq_1 v881))
theorem k0_off221_inb : ∀ (v881 : BitVec 32) (k0_hw147 : k0_chk147 v881), ∀ a, (k0_off221 v881) a + S1x64.size a ≤ S100000x64.size a := fun v881 k0_hw147 => k0_hw147

def k0_off222 (v884 : BitVec 32) : Fin 2 → Nat :=
  let v888 : Index := Scalar.indexCast v884
  let c0_224 : Index := 0#32
  ![v888.toNat, 0]

def k0_chk148 (v884 : BitVec 32) : Prop :=
  (∀ a, (k0_off222 v884) a + S1x64.size a ≤ S100000x64.size a)
instance k0_chk148.dec : ∀ (v884 : BitVec 32), Decidable (k0_chk148 v884) := fun v884 => decidable_of_iff' _ (Iff.of_eq (k0_chk148.eq_1 v884))
theorem k0_off222_inb : ∀ (v884 : BitVec 32) (k0_hw148 : k0_chk148 v884), ∀ a, (k0_off222 v884) a + S1x64.size a ≤ S100000x64.size a := fun v884 k0_hw148 => k0_hw148

def k0_off223 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c74_i32 : BitVec 32 := 74#32
  let v891 : BitVec 32 := Scalar.addi v2 c74_i32
  let v892 : Index := Scalar.indexCast v891
  ![v892.toNat]
def k0_off224 (v893 : BitVec 32) : Fin 2 → Nat :=
  let v897 : Index := Scalar.indexCast v893
  let c0_226 : Index := 0#32
  ![v897.toNat, 0]

def k0_chk149 (v893 : BitVec 32) : Prop :=
  (∀ a, (k0_off224 v893) a + S1x64.size a ≤ S100000x64.size a)
instance k0_chk149.dec : ∀ (v893 : BitVec 32), Decidable (k0_chk149 v893) := fun v893 => decidable_of_iff' _ (Iff.of_eq (k0_chk149.eq_1 v893))
theorem k0_off224_inb : ∀ (v893 : BitVec 32) (k0_hw149 : k0_chk149 v893), ∀ a, (k0_off224 v893) a + S1x64.size a ≤ S100000x64.size a := fun v893 k0_hw149 => k0_hw149

def k0_off225 (v896 : BitVec 32) : Fin 2 → Nat :=
  let v900 : Index := Scalar.indexCast v896
  let c0_227 : Index := 0#32
  ![v900.toNat, 0]

def k0_chk150 (v896 : BitVec 32) : Prop :=
  (∀ a, (k0_off225 v896) a + S1x64.size a ≤ S100000x64.size a)
instance k0_chk150.dec : ∀ (v896 : BitVec 32), Decidable (k0_chk150 v896) := fun v896 => decidable_of_iff' _ (Iff.of_eq (k0_chk150.eq_1 v896))
theorem k0_off225_inb : ∀ (v896 : BitVec 32) (k0_hw150 : k0_chk150 v896), ∀ a, (k0_off225 v896) a + S1x64.size a ≤ S100000x64.size a := fun v896 k0_hw150 => k0_hw150

def k0_off226 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c75_i32 : BitVec 32 := 75#32
  let v903 : BitVec 32 := Scalar.addi v2 c75_i32
  let v904 : Index := Scalar.indexCast v903
  ![v904.toNat]
def k0_off227 (v905 : BitVec 32) : Fin 2 → Nat :=
  let v909 : Index := Scalar.indexCast v905
  let c0_229 : Index := 0#32
  ![v909.toNat, 0]

def k0_chk151 (v905 : BitVec 32) : Prop :=
  (∀ a, (k0_off227 v905) a + S1x64.size a ≤ S100000x64.size a)
instance k0_chk151.dec : ∀ (v905 : BitVec 32), Decidable (k0_chk151 v905) := fun v905 => decidable_of_iff' _ (Iff.of_eq (k0_chk151.eq_1 v905))
theorem k0_off227_inb : ∀ (v905 : BitVec 32) (k0_hw151 : k0_chk151 v905), ∀ a, (k0_off227 v905) a + S1x64.size a ≤ S100000x64.size a := fun v905 k0_hw151 => k0_hw151

def k0_off228 (v908 : BitVec 32) : Fin 2 → Nat :=
  let v912 : Index := Scalar.indexCast v908
  let c0_230 : Index := 0#32
  ![v912.toNat, 0]

def k0_chk152 (v908 : BitVec 32) : Prop :=
  (∀ a, (k0_off228 v908) a + S1x64.size a ≤ S100000x64.size a)
instance k0_chk152.dec : ∀ (v908 : BitVec 32), Decidable (k0_chk152 v908) := fun v908 => decidable_of_iff' _ (Iff.of_eq (k0_chk152.eq_1 v908))
theorem k0_off228_inb : ∀ (v908 : BitVec 32) (k0_hw152 : k0_chk152 v908), ∀ a, (k0_off228 v908) a + S1x64.size a ≤ S100000x64.size a := fun v908 k0_hw152 => k0_hw152

def k0_off229 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c76_i32 : BitVec 32 := 76#32
  let v915 : BitVec 32 := Scalar.addi v2 c76_i32
  let v916 : Index := Scalar.indexCast v915
  ![v916.toNat]
def k0_off230 (v917 : BitVec 32) : Fin 2 → Nat :=
  let v921 : Index := Scalar.indexCast v917
  let c0_232 : Index := 0#32
  ![v921.toNat, 0]

def k0_chk153 (v917 : BitVec 32) : Prop :=
  (∀ a, (k0_off230 v917) a + S1x64.size a ≤ S100000x64.size a)
instance k0_chk153.dec : ∀ (v917 : BitVec 32), Decidable (k0_chk153 v917) := fun v917 => decidable_of_iff' _ (Iff.of_eq (k0_chk153.eq_1 v917))
theorem k0_off230_inb : ∀ (v917 : BitVec 32) (k0_hw153 : k0_chk153 v917), ∀ a, (k0_off230 v917) a + S1x64.size a ≤ S100000x64.size a := fun v917 k0_hw153 => k0_hw153

def k0_off231 (v920 : BitVec 32) : Fin 2 → Nat :=
  let v924 : Index := Scalar.indexCast v920
  let c0_233 : Index := 0#32
  ![v924.toNat, 0]

def k0_chk154 (v920 : BitVec 32) : Prop :=
  (∀ a, (k0_off231 v920) a + S1x64.size a ≤ S100000x64.size a)
instance k0_chk154.dec : ∀ (v920 : BitVec 32), Decidable (k0_chk154 v920) := fun v920 => decidable_of_iff' _ (Iff.of_eq (k0_chk154.eq_1 v920))
theorem k0_off231_inb : ∀ (v920 : BitVec 32) (k0_hw154 : k0_chk154 v920), ∀ a, (k0_off231 v920) a + S1x64.size a ≤ S100000x64.size a := fun v920 k0_hw154 => k0_hw154

def k0_off232 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c77_i32 : BitVec 32 := 77#32
  let v927 : BitVec 32 := Scalar.addi v2 c77_i32
  let v928 : Index := Scalar.indexCast v927
  ![v928.toNat]
def k0_off233 (v929 : BitVec 32) : Fin 2 → Nat :=
  let v933 : Index := Scalar.indexCast v929
  let c0_235 : Index := 0#32
  ![v933.toNat, 0]

def k0_chk155 (v929 : BitVec 32) : Prop :=
  (∀ a, (k0_off233 v929) a + S1x64.size a ≤ S100000x64.size a)
instance k0_chk155.dec : ∀ (v929 : BitVec 32), Decidable (k0_chk155 v929) := fun v929 => decidable_of_iff' _ (Iff.of_eq (k0_chk155.eq_1 v929))
theorem k0_off233_inb : ∀ (v929 : BitVec 32) (k0_hw155 : k0_chk155 v929), ∀ a, (k0_off233 v929) a + S1x64.size a ≤ S100000x64.size a := fun v929 k0_hw155 => k0_hw155

def k0_off234 (v932 : BitVec 32) : Fin 2 → Nat :=
  let v936 : Index := Scalar.indexCast v932
  let c0_236 : Index := 0#32
  ![v936.toNat, 0]

def k0_chk156 (v932 : BitVec 32) : Prop :=
  (∀ a, (k0_off234 v932) a + S1x64.size a ≤ S100000x64.size a)
instance k0_chk156.dec : ∀ (v932 : BitVec 32), Decidable (k0_chk156 v932) := fun v932 => decidable_of_iff' _ (Iff.of_eq (k0_chk156.eq_1 v932))
theorem k0_off234_inb : ∀ (v932 : BitVec 32) (k0_hw156 : k0_chk156 v932), ∀ a, (k0_off234 v932) a + S1x64.size a ≤ S100000x64.size a := fun v932 k0_hw156 => k0_hw156

def k0_off235 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c78_i32 : BitVec 32 := 78#32
  let v939 : BitVec 32 := Scalar.addi v2 c78_i32
  let v940 : Index := Scalar.indexCast v939
  ![v940.toNat]
def k0_off236 (v941 : BitVec 32) : Fin 2 → Nat :=
  let v945 : Index := Scalar.indexCast v941
  let c0_238 : Index := 0#32
  ![v945.toNat, 0]

def k0_chk157 (v941 : BitVec 32) : Prop :=
  (∀ a, (k0_off236 v941) a + S1x64.size a ≤ S100000x64.size a)
instance k0_chk157.dec : ∀ (v941 : BitVec 32), Decidable (k0_chk157 v941) := fun v941 => decidable_of_iff' _ (Iff.of_eq (k0_chk157.eq_1 v941))
theorem k0_off236_inb : ∀ (v941 : BitVec 32) (k0_hw157 : k0_chk157 v941), ∀ a, (k0_off236 v941) a + S1x64.size a ≤ S100000x64.size a := fun v941 k0_hw157 => k0_hw157

def k0_off237 (v944 : BitVec 32) : Fin 2 → Nat :=
  let v948 : Index := Scalar.indexCast v944
  let c0_239 : Index := 0#32
  ![v948.toNat, 0]

def k0_chk158 (v944 : BitVec 32) : Prop :=
  (∀ a, (k0_off237 v944) a + S1x64.size a ≤ S100000x64.size a)
instance k0_chk158.dec : ∀ (v944 : BitVec 32), Decidable (k0_chk158 v944) := fun v944 => decidable_of_iff' _ (Iff.of_eq (k0_chk158.eq_1 v944))
theorem k0_off237_inb : ∀ (v944 : BitVec 32) (k0_hw158 : k0_chk158 v944), ∀ a, (k0_off237 v944) a + S1x64.size a ≤ S100000x64.size a := fun v944 k0_hw158 => k0_hw158

def k0_off238 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c79_i32 : BitVec 32 := 79#32
  let v951 : BitVec 32 := Scalar.addi v2 c79_i32
  let v952 : Index := Scalar.indexCast v951
  ![v952.toNat]
def k0_off239 (v953 : BitVec 32) : Fin 2 → Nat :=
  let v957 : Index := Scalar.indexCast v953
  let c0_241 : Index := 0#32
  ![v957.toNat, 0]

def k0_chk159 (v953 : BitVec 32) : Prop :=
  (∀ a, (k0_off239 v953) a + S1x64.size a ≤ S100000x64.size a)
instance k0_chk159.dec : ∀ (v953 : BitVec 32), Decidable (k0_chk159 v953) := fun v953 => decidable_of_iff' _ (Iff.of_eq (k0_chk159.eq_1 v953))
theorem k0_off239_inb : ∀ (v953 : BitVec 32) (k0_hw159 : k0_chk159 v953), ∀ a, (k0_off239 v953) a + S1x64.size a ≤ S100000x64.size a := fun v953 k0_hw159 => k0_hw159

def k0_off240 (v956 : BitVec 32) : Fin 2 → Nat :=
  let v960 : Index := Scalar.indexCast v956
  let c0_242 : Index := 0#32
  ![v960.toNat, 0]

def k0_chk160 (v956 : BitVec 32) : Prop :=
  (∀ a, (k0_off240 v956) a + S1x64.size a ≤ S100000x64.size a)
instance k0_chk160.dec : ∀ (v956 : BitVec 32), Decidable (k0_chk160 v956) := fun v956 => decidable_of_iff' _ (Iff.of_eq (k0_chk160.eq_1 v956))
theorem k0_off240_inb : ∀ (v956 : BitVec 32) (k0_hw160 : k0_chk160 v956), ∀ a, (k0_off240 v956) a + S1x64.size a ≤ S100000x64.size a := fun v956 k0_hw160 => k0_hw160

def k0_off241 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c80_i32 : BitVec 32 := 80#32
  let v963 : BitVec 32 := Scalar.addi v2 c80_i32
  let v964 : Index := Scalar.indexCast v963
  ![v964.toNat]
def k0_off242 (v965 : BitVec 32) : Fin 2 → Nat :=
  let v969 : Index := Scalar.indexCast v965
  let c0_244 : Index := 0#32
  ![v969.toNat, 0]

def k0_chk161 (v965 : BitVec 32) : Prop :=
  (∀ a, (k0_off242 v965) a + S1x64.size a ≤ S100000x64.size a)
instance k0_chk161.dec : ∀ (v965 : BitVec 32), Decidable (k0_chk161 v965) := fun v965 => decidable_of_iff' _ (Iff.of_eq (k0_chk161.eq_1 v965))
theorem k0_off242_inb : ∀ (v965 : BitVec 32) (k0_hw161 : k0_chk161 v965), ∀ a, (k0_off242 v965) a + S1x64.size a ≤ S100000x64.size a := fun v965 k0_hw161 => k0_hw161

def k0_off243 (v968 : BitVec 32) : Fin 2 → Nat :=
  let v972 : Index := Scalar.indexCast v968
  let c0_245 : Index := 0#32
  ![v972.toNat, 0]

def k0_chk162 (v968 : BitVec 32) : Prop :=
  (∀ a, (k0_off243 v968) a + S1x64.size a ≤ S100000x64.size a)
instance k0_chk162.dec : ∀ (v968 : BitVec 32), Decidable (k0_chk162 v968) := fun v968 => decidable_of_iff' _ (Iff.of_eq (k0_chk162.eq_1 v968))
theorem k0_off243_inb : ∀ (v968 : BitVec 32) (k0_hw162 : k0_chk162 v968), ∀ a, (k0_off243 v968) a + S1x64.size a ≤ S100000x64.size a := fun v968 k0_hw162 => k0_hw162

def k0_off244 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c81_i32 : BitVec 32 := 81#32
  let v975 : BitVec 32 := Scalar.addi v2 c81_i32
  let v976 : Index := Scalar.indexCast v975
  ![v976.toNat]
def k0_off245 (v977 : BitVec 32) : Fin 2 → Nat :=
  let v981 : Index := Scalar.indexCast v977
  let c0_247 : Index := 0#32
  ![v981.toNat, 0]

def k0_chk163 (v977 : BitVec 32) : Prop :=
  (∀ a, (k0_off245 v977) a + S1x64.size a ≤ S100000x64.size a)
instance k0_chk163.dec : ∀ (v977 : BitVec 32), Decidable (k0_chk163 v977) := fun v977 => decidable_of_iff' _ (Iff.of_eq (k0_chk163.eq_1 v977))
theorem k0_off245_inb : ∀ (v977 : BitVec 32) (k0_hw163 : k0_chk163 v977), ∀ a, (k0_off245 v977) a + S1x64.size a ≤ S100000x64.size a := fun v977 k0_hw163 => k0_hw163

def k0_off246 (v980 : BitVec 32) : Fin 2 → Nat :=
  let v984 : Index := Scalar.indexCast v980
  let c0_248 : Index := 0#32
  ![v984.toNat, 0]

def k0_chk164 (v980 : BitVec 32) : Prop :=
  (∀ a, (k0_off246 v980) a + S1x64.size a ≤ S100000x64.size a)
instance k0_chk164.dec : ∀ (v980 : BitVec 32), Decidable (k0_chk164 v980) := fun v980 => decidable_of_iff' _ (Iff.of_eq (k0_chk164.eq_1 v980))
theorem k0_off246_inb : ∀ (v980 : BitVec 32) (k0_hw164 : k0_chk164 v980), ∀ a, (k0_off246 v980) a + S1x64.size a ≤ S100000x64.size a := fun v980 k0_hw164 => k0_hw164

def k0_off247 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c82_i32 : BitVec 32 := 82#32
  let v987 : BitVec 32 := Scalar.addi v2 c82_i32
  let v988 : Index := Scalar.indexCast v987
  ![v988.toNat]
def k0_off248 (v989 : BitVec 32) : Fin 2 → Nat :=
  let v993 : Index := Scalar.indexCast v989
  let c0_250 : Index := 0#32
  ![v993.toNat, 0]

def k0_chk165 (v989 : BitVec 32) : Prop :=
  (∀ a, (k0_off248 v989) a + S1x64.size a ≤ S100000x64.size a)
instance k0_chk165.dec : ∀ (v989 : BitVec 32), Decidable (k0_chk165 v989) := fun v989 => decidable_of_iff' _ (Iff.of_eq (k0_chk165.eq_1 v989))
theorem k0_off248_inb : ∀ (v989 : BitVec 32) (k0_hw165 : k0_chk165 v989), ∀ a, (k0_off248 v989) a + S1x64.size a ≤ S100000x64.size a := fun v989 k0_hw165 => k0_hw165

def k0_off249 (v992 : BitVec 32) : Fin 2 → Nat :=
  let v996 : Index := Scalar.indexCast v992
  let c0_251 : Index := 0#32
  ![v996.toNat, 0]

def k0_chk166 (v992 : BitVec 32) : Prop :=
  (∀ a, (k0_off249 v992) a + S1x64.size a ≤ S100000x64.size a)
instance k0_chk166.dec : ∀ (v992 : BitVec 32), Decidable (k0_chk166 v992) := fun v992 => decidable_of_iff' _ (Iff.of_eq (k0_chk166.eq_1 v992))
theorem k0_off249_inb : ∀ (v992 : BitVec 32) (k0_hw166 : k0_chk166 v992), ∀ a, (k0_off249 v992) a + S1x64.size a ≤ S100000x64.size a := fun v992 k0_hw166 => k0_hw166

def k0_off250 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c83_i32 : BitVec 32 := 83#32
  let v999 : BitVec 32 := Scalar.addi v2 c83_i32
  let v1000 : Index := Scalar.indexCast v999
  ![v1000.toNat]
def k0_off251 (v1001 : BitVec 32) : Fin 2 → Nat :=
  let v1005 : Index := Scalar.indexCast v1001
  let c0_253 : Index := 0#32
  ![v1005.toNat, 0]

def k0_chk167 (v1001 : BitVec 32) : Prop :=
  (∀ a, (k0_off251 v1001) a + S1x64.size a ≤ S100000x64.size a)
instance k0_chk167.dec : ∀ (v1001 : BitVec 32), Decidable (k0_chk167 v1001) := fun v1001 => decidable_of_iff' _ (Iff.of_eq (k0_chk167.eq_1 v1001))
theorem k0_off251_inb : ∀ (v1001 : BitVec 32) (k0_hw167 : k0_chk167 v1001), ∀ a, (k0_off251 v1001) a + S1x64.size a ≤ S100000x64.size a := fun v1001 k0_hw167 => k0_hw167

def k0_off252 (v1004 : BitVec 32) : Fin 2 → Nat :=
  let v1008 : Index := Scalar.indexCast v1004
  let c0_254 : Index := 0#32
  ![v1008.toNat, 0]

def k0_chk168 (v1004 : BitVec 32) : Prop :=
  (∀ a, (k0_off252 v1004) a + S1x64.size a ≤ S100000x64.size a)
instance k0_chk168.dec : ∀ (v1004 : BitVec 32), Decidable (k0_chk168 v1004) := fun v1004 => decidable_of_iff' _ (Iff.of_eq (k0_chk168.eq_1 v1004))
theorem k0_off252_inb : ∀ (v1004 : BitVec 32) (k0_hw168 : k0_chk168 v1004), ∀ a, (k0_off252 v1004) a + S1x64.size a ≤ S100000x64.size a := fun v1004 k0_hw168 => k0_hw168

def k0_off253 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c84_i32 : BitVec 32 := 84#32
  let v1011 : BitVec 32 := Scalar.addi v2 c84_i32
  let v1012 : Index := Scalar.indexCast v1011
  ![v1012.toNat]
def k0_off254 (v1013 : BitVec 32) : Fin 2 → Nat :=
  let v1017 : Index := Scalar.indexCast v1013
  let c0_256 : Index := 0#32
  ![v1017.toNat, 0]

def k0_chk169 (v1013 : BitVec 32) : Prop :=
  (∀ a, (k0_off254 v1013) a + S1x64.size a ≤ S100000x64.size a)
instance k0_chk169.dec : ∀ (v1013 : BitVec 32), Decidable (k0_chk169 v1013) := fun v1013 => decidable_of_iff' _ (Iff.of_eq (k0_chk169.eq_1 v1013))
theorem k0_off254_inb : ∀ (v1013 : BitVec 32) (k0_hw169 : k0_chk169 v1013), ∀ a, (k0_off254 v1013) a + S1x64.size a ≤ S100000x64.size a := fun v1013 k0_hw169 => k0_hw169

def k0_off255 (v1016 : BitVec 32) : Fin 2 → Nat :=
  let v1020 : Index := Scalar.indexCast v1016
  let c0_257 : Index := 0#32
  ![v1020.toNat, 0]

def k0_chk170 (v1016 : BitVec 32) : Prop :=
  (∀ a, (k0_off255 v1016) a + S1x64.size a ≤ S100000x64.size a)
instance k0_chk170.dec : ∀ (v1016 : BitVec 32), Decidable (k0_chk170 v1016) := fun v1016 => decidable_of_iff' _ (Iff.of_eq (k0_chk170.eq_1 v1016))
theorem k0_off255_inb : ∀ (v1016 : BitVec 32) (k0_hw170 : k0_chk170 v1016), ∀ a, (k0_off255 v1016) a + S1x64.size a ≤ S100000x64.size a := fun v1016 k0_hw170 => k0_hw170

def k0_off256 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c85_i32 : BitVec 32 := 85#32
  let v1023 : BitVec 32 := Scalar.addi v2 c85_i32
  let v1024 : Index := Scalar.indexCast v1023
  ![v1024.toNat]
def k0_off257 (v1025 : BitVec 32) : Fin 2 → Nat :=
  let v1029 : Index := Scalar.indexCast v1025
  let c0_259 : Index := 0#32
  ![v1029.toNat, 0]

def k0_chk171 (v1025 : BitVec 32) : Prop :=
  (∀ a, (k0_off257 v1025) a + S1x64.size a ≤ S100000x64.size a)
instance k0_chk171.dec : ∀ (v1025 : BitVec 32), Decidable (k0_chk171 v1025) := fun v1025 => decidable_of_iff' _ (Iff.of_eq (k0_chk171.eq_1 v1025))
theorem k0_off257_inb : ∀ (v1025 : BitVec 32) (k0_hw171 : k0_chk171 v1025), ∀ a, (k0_off257 v1025) a + S1x64.size a ≤ S100000x64.size a := fun v1025 k0_hw171 => k0_hw171

def k0_off258 (v1028 : BitVec 32) : Fin 2 → Nat :=
  let v1032 : Index := Scalar.indexCast v1028
  let c0_260 : Index := 0#32
  ![v1032.toNat, 0]

def k0_chk172 (v1028 : BitVec 32) : Prop :=
  (∀ a, (k0_off258 v1028) a + S1x64.size a ≤ S100000x64.size a)
instance k0_chk172.dec : ∀ (v1028 : BitVec 32), Decidable (k0_chk172 v1028) := fun v1028 => decidable_of_iff' _ (Iff.of_eq (k0_chk172.eq_1 v1028))
theorem k0_off258_inb : ∀ (v1028 : BitVec 32) (k0_hw172 : k0_chk172 v1028), ∀ a, (k0_off258 v1028) a + S1x64.size a ≤ S100000x64.size a := fun v1028 k0_hw172 => k0_hw172

def k0_off259 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c86_i32 : BitVec 32 := 86#32
  let v1035 : BitVec 32 := Scalar.addi v2 c86_i32
  let v1036 : Index := Scalar.indexCast v1035
  ![v1036.toNat]
def k0_off260 (v1037 : BitVec 32) : Fin 2 → Nat :=
  let v1041 : Index := Scalar.indexCast v1037
  let c0_262 : Index := 0#32
  ![v1041.toNat, 0]

def k0_chk173 (v1037 : BitVec 32) : Prop :=
  (∀ a, (k0_off260 v1037) a + S1x64.size a ≤ S100000x64.size a)
instance k0_chk173.dec : ∀ (v1037 : BitVec 32), Decidable (k0_chk173 v1037) := fun v1037 => decidable_of_iff' _ (Iff.of_eq (k0_chk173.eq_1 v1037))
theorem k0_off260_inb : ∀ (v1037 : BitVec 32) (k0_hw173 : k0_chk173 v1037), ∀ a, (k0_off260 v1037) a + S1x64.size a ≤ S100000x64.size a := fun v1037 k0_hw173 => k0_hw173

def k0_off261 (v1040 : BitVec 32) : Fin 2 → Nat :=
  let v1044 : Index := Scalar.indexCast v1040
  let c0_263 : Index := 0#32
  ![v1044.toNat, 0]

def k0_chk174 (v1040 : BitVec 32) : Prop :=
  (∀ a, (k0_off261 v1040) a + S1x64.size a ≤ S100000x64.size a)
instance k0_chk174.dec : ∀ (v1040 : BitVec 32), Decidable (k0_chk174 v1040) := fun v1040 => decidable_of_iff' _ (Iff.of_eq (k0_chk174.eq_1 v1040))
theorem k0_off261_inb : ∀ (v1040 : BitVec 32) (k0_hw174 : k0_chk174 v1040), ∀ a, (k0_off261 v1040) a + S1x64.size a ≤ S100000x64.size a := fun v1040 k0_hw174 => k0_hw174

def k0_off262 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c87_i32 : BitVec 32 := 87#32
  let v1047 : BitVec 32 := Scalar.addi v2 c87_i32
  let v1048 : Index := Scalar.indexCast v1047
  ![v1048.toNat]
def k0_off263 (v1049 : BitVec 32) : Fin 2 → Nat :=
  let v1053 : Index := Scalar.indexCast v1049
  let c0_265 : Index := 0#32
  ![v1053.toNat, 0]

def k0_chk175 (v1049 : BitVec 32) : Prop :=
  (∀ a, (k0_off263 v1049) a + S1x64.size a ≤ S100000x64.size a)
instance k0_chk175.dec : ∀ (v1049 : BitVec 32), Decidable (k0_chk175 v1049) := fun v1049 => decidable_of_iff' _ (Iff.of_eq (k0_chk175.eq_1 v1049))
theorem k0_off263_inb : ∀ (v1049 : BitVec 32) (k0_hw175 : k0_chk175 v1049), ∀ a, (k0_off263 v1049) a + S1x64.size a ≤ S100000x64.size a := fun v1049 k0_hw175 => k0_hw175

def k0_off264 (v1052 : BitVec 32) : Fin 2 → Nat :=
  let v1056 : Index := Scalar.indexCast v1052
  let c0_266 : Index := 0#32
  ![v1056.toNat, 0]

def k0_chk176 (v1052 : BitVec 32) : Prop :=
  (∀ a, (k0_off264 v1052) a + S1x64.size a ≤ S100000x64.size a)
instance k0_chk176.dec : ∀ (v1052 : BitVec 32), Decidable (k0_chk176 v1052) := fun v1052 => decidable_of_iff' _ (Iff.of_eq (k0_chk176.eq_1 v1052))
theorem k0_off264_inb : ∀ (v1052 : BitVec 32) (k0_hw176 : k0_chk176 v1052), ∀ a, (k0_off264 v1052) a + S1x64.size a ≤ S100000x64.size a := fun v1052 k0_hw176 => k0_hw176

def k0_off265 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c88_i32 : BitVec 32 := 88#32
  let v1059 : BitVec 32 := Scalar.addi v2 c88_i32
  let v1060 : Index := Scalar.indexCast v1059
  ![v1060.toNat]
def k0_off266 (v1061 : BitVec 32) : Fin 2 → Nat :=
  let v1065 : Index := Scalar.indexCast v1061
  let c0_268 : Index := 0#32
  ![v1065.toNat, 0]

def k0_chk177 (v1061 : BitVec 32) : Prop :=
  (∀ a, (k0_off266 v1061) a + S1x64.size a ≤ S100000x64.size a)
instance k0_chk177.dec : ∀ (v1061 : BitVec 32), Decidable (k0_chk177 v1061) := fun v1061 => decidable_of_iff' _ (Iff.of_eq (k0_chk177.eq_1 v1061))
theorem k0_off266_inb : ∀ (v1061 : BitVec 32) (k0_hw177 : k0_chk177 v1061), ∀ a, (k0_off266 v1061) a + S1x64.size a ≤ S100000x64.size a := fun v1061 k0_hw177 => k0_hw177

def k0_off267 (v1064 : BitVec 32) : Fin 2 → Nat :=
  let v1068 : Index := Scalar.indexCast v1064
  let c0_269 : Index := 0#32
  ![v1068.toNat, 0]

def k0_chk178 (v1064 : BitVec 32) : Prop :=
  (∀ a, (k0_off267 v1064) a + S1x64.size a ≤ S100000x64.size a)
instance k0_chk178.dec : ∀ (v1064 : BitVec 32), Decidable (k0_chk178 v1064) := fun v1064 => decidable_of_iff' _ (Iff.of_eq (k0_chk178.eq_1 v1064))
theorem k0_off267_inb : ∀ (v1064 : BitVec 32) (k0_hw178 : k0_chk178 v1064), ∀ a, (k0_off267 v1064) a + S1x64.size a ≤ S100000x64.size a := fun v1064 k0_hw178 => k0_hw178

def k0_off268 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c89_i32 : BitVec 32 := 89#32
  let v1071 : BitVec 32 := Scalar.addi v2 c89_i32
  let v1072 : Index := Scalar.indexCast v1071
  ![v1072.toNat]
def k0_off269 (v1073 : BitVec 32) : Fin 2 → Nat :=
  let v1077 : Index := Scalar.indexCast v1073
  let c0_271 : Index := 0#32
  ![v1077.toNat, 0]

def k0_chk179 (v1073 : BitVec 32) : Prop :=
  (∀ a, (k0_off269 v1073) a + S1x64.size a ≤ S100000x64.size a)
instance k0_chk179.dec : ∀ (v1073 : BitVec 32), Decidable (k0_chk179 v1073) := fun v1073 => decidable_of_iff' _ (Iff.of_eq (k0_chk179.eq_1 v1073))
theorem k0_off269_inb : ∀ (v1073 : BitVec 32) (k0_hw179 : k0_chk179 v1073), ∀ a, (k0_off269 v1073) a + S1x64.size a ≤ S100000x64.size a := fun v1073 k0_hw179 => k0_hw179

def k0_off270 (v1076 : BitVec 32) : Fin 2 → Nat :=
  let v1080 : Index := Scalar.indexCast v1076
  let c0_272 : Index := 0#32
  ![v1080.toNat, 0]

def k0_chk180 (v1076 : BitVec 32) : Prop :=
  (∀ a, (k0_off270 v1076) a + S1x64.size a ≤ S100000x64.size a)
instance k0_chk180.dec : ∀ (v1076 : BitVec 32), Decidable (k0_chk180 v1076) := fun v1076 => decidable_of_iff' _ (Iff.of_eq (k0_chk180.eq_1 v1076))
theorem k0_off270_inb : ∀ (v1076 : BitVec 32) (k0_hw180 : k0_chk180 v1076), ∀ a, (k0_off270 v1076) a + S1x64.size a ≤ S100000x64.size a := fun v1076 k0_hw180 => k0_hw180

def k0_off271 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c90_i32 : BitVec 32 := 90#32
  let v1083 : BitVec 32 := Scalar.addi v2 c90_i32
  let v1084 : Index := Scalar.indexCast v1083
  ![v1084.toNat]
def k0_off272 (v1085 : BitVec 32) : Fin 2 → Nat :=
  let v1089 : Index := Scalar.indexCast v1085
  let c0_274 : Index := 0#32
  ![v1089.toNat, 0]

def k0_chk181 (v1085 : BitVec 32) : Prop :=
  (∀ a, (k0_off272 v1085) a + S1x64.size a ≤ S100000x64.size a)
instance k0_chk181.dec : ∀ (v1085 : BitVec 32), Decidable (k0_chk181 v1085) := fun v1085 => decidable_of_iff' _ (Iff.of_eq (k0_chk181.eq_1 v1085))
theorem k0_off272_inb : ∀ (v1085 : BitVec 32) (k0_hw181 : k0_chk181 v1085), ∀ a, (k0_off272 v1085) a + S1x64.size a ≤ S100000x64.size a := fun v1085 k0_hw181 => k0_hw181

def k0_off273 (v1088 : BitVec 32) : Fin 2 → Nat :=
  let v1092 : Index := Scalar.indexCast v1088
  let c0_275 : Index := 0#32
  ![v1092.toNat, 0]

def k0_chk182 (v1088 : BitVec 32) : Prop :=
  (∀ a, (k0_off273 v1088) a + S1x64.size a ≤ S100000x64.size a)
instance k0_chk182.dec : ∀ (v1088 : BitVec 32), Decidable (k0_chk182 v1088) := fun v1088 => decidable_of_iff' _ (Iff.of_eq (k0_chk182.eq_1 v1088))
theorem k0_off273_inb : ∀ (v1088 : BitVec 32) (k0_hw182 : k0_chk182 v1088), ∀ a, (k0_off273 v1088) a + S1x64.size a ≤ S100000x64.size a := fun v1088 k0_hw182 => k0_hw182

def k0_off274 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c91_i32 : BitVec 32 := 91#32
  let v1095 : BitVec 32 := Scalar.addi v2 c91_i32
  let v1096 : Index := Scalar.indexCast v1095
  ![v1096.toNat]
def k0_off275 (v1097 : BitVec 32) : Fin 2 → Nat :=
  let v1101 : Index := Scalar.indexCast v1097
  let c0_277 : Index := 0#32
  ![v1101.toNat, 0]

def k0_chk183 (v1097 : BitVec 32) : Prop :=
  (∀ a, (k0_off275 v1097) a + S1x64.size a ≤ S100000x64.size a)
instance k0_chk183.dec : ∀ (v1097 : BitVec 32), Decidable (k0_chk183 v1097) := fun v1097 => decidable_of_iff' _ (Iff.of_eq (k0_chk183.eq_1 v1097))
theorem k0_off275_inb : ∀ (v1097 : BitVec 32) (k0_hw183 : k0_chk183 v1097), ∀ a, (k0_off275 v1097) a + S1x64.size a ≤ S100000x64.size a := fun v1097 k0_hw183 => k0_hw183

def k0_off276 (v1100 : BitVec 32) : Fin 2 → Nat :=
  let v1104 : Index := Scalar.indexCast v1100
  let c0_278 : Index := 0#32
  ![v1104.toNat, 0]

def k0_chk184 (v1100 : BitVec 32) : Prop :=
  (∀ a, (k0_off276 v1100) a + S1x64.size a ≤ S100000x64.size a)
instance k0_chk184.dec : ∀ (v1100 : BitVec 32), Decidable (k0_chk184 v1100) := fun v1100 => decidable_of_iff' _ (Iff.of_eq (k0_chk184.eq_1 v1100))
theorem k0_off276_inb : ∀ (v1100 : BitVec 32) (k0_hw184 : k0_chk184 v1100), ∀ a, (k0_off276 v1100) a + S1x64.size a ≤ S100000x64.size a := fun v1100 k0_hw184 => k0_hw184

def k0_off277 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c92_i32 : BitVec 32 := 92#32
  let v1107 : BitVec 32 := Scalar.addi v2 c92_i32
  let v1108 : Index := Scalar.indexCast v1107
  ![v1108.toNat]
def k0_off278 (v1109 : BitVec 32) : Fin 2 → Nat :=
  let v1113 : Index := Scalar.indexCast v1109
  let c0_280 : Index := 0#32
  ![v1113.toNat, 0]

def k0_chk185 (v1109 : BitVec 32) : Prop :=
  (∀ a, (k0_off278 v1109) a + S1x64.size a ≤ S100000x64.size a)
instance k0_chk185.dec : ∀ (v1109 : BitVec 32), Decidable (k0_chk185 v1109) := fun v1109 => decidable_of_iff' _ (Iff.of_eq (k0_chk185.eq_1 v1109))
theorem k0_off278_inb : ∀ (v1109 : BitVec 32) (k0_hw185 : k0_chk185 v1109), ∀ a, (k0_off278 v1109) a + S1x64.size a ≤ S100000x64.size a := fun v1109 k0_hw185 => k0_hw185

def k0_off279 (v1112 : BitVec 32) : Fin 2 → Nat :=
  let v1116 : Index := Scalar.indexCast v1112
  let c0_281 : Index := 0#32
  ![v1116.toNat, 0]

def k0_chk186 (v1112 : BitVec 32) : Prop :=
  (∀ a, (k0_off279 v1112) a + S1x64.size a ≤ S100000x64.size a)
instance k0_chk186.dec : ∀ (v1112 : BitVec 32), Decidable (k0_chk186 v1112) := fun v1112 => decidable_of_iff' _ (Iff.of_eq (k0_chk186.eq_1 v1112))
theorem k0_off279_inb : ∀ (v1112 : BitVec 32) (k0_hw186 : k0_chk186 v1112), ∀ a, (k0_off279 v1112) a + S1x64.size a ≤ S100000x64.size a := fun v1112 k0_hw186 => k0_hw186

def k0_off280 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c93_i32 : BitVec 32 := 93#32
  let v1119 : BitVec 32 := Scalar.addi v2 c93_i32
  let v1120 : Index := Scalar.indexCast v1119
  ![v1120.toNat]
def k0_off281 (v1121 : BitVec 32) : Fin 2 → Nat :=
  let v1125 : Index := Scalar.indexCast v1121
  let c0_283 : Index := 0#32
  ![v1125.toNat, 0]

def k0_chk187 (v1121 : BitVec 32) : Prop :=
  (∀ a, (k0_off281 v1121) a + S1x64.size a ≤ S100000x64.size a)
instance k0_chk187.dec : ∀ (v1121 : BitVec 32), Decidable (k0_chk187 v1121) := fun v1121 => decidable_of_iff' _ (Iff.of_eq (k0_chk187.eq_1 v1121))
theorem k0_off281_inb : ∀ (v1121 : BitVec 32) (k0_hw187 : k0_chk187 v1121), ∀ a, (k0_off281 v1121) a + S1x64.size a ≤ S100000x64.size a := fun v1121 k0_hw187 => k0_hw187

def k0_off282 (v1124 : BitVec 32) : Fin 2 → Nat :=
  let v1128 : Index := Scalar.indexCast v1124
  let c0_284 : Index := 0#32
  ![v1128.toNat, 0]

def k0_chk188 (v1124 : BitVec 32) : Prop :=
  (∀ a, (k0_off282 v1124) a + S1x64.size a ≤ S100000x64.size a)
instance k0_chk188.dec : ∀ (v1124 : BitVec 32), Decidable (k0_chk188 v1124) := fun v1124 => decidable_of_iff' _ (Iff.of_eq (k0_chk188.eq_1 v1124))
theorem k0_off282_inb : ∀ (v1124 : BitVec 32) (k0_hw188 : k0_chk188 v1124), ∀ a, (k0_off282 v1124) a + S1x64.size a ≤ S100000x64.size a := fun v1124 k0_hw188 => k0_hw188

def k0_off283 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c94_i32 : BitVec 32 := 94#32
  let v1131 : BitVec 32 := Scalar.addi v2 c94_i32
  let v1132 : Index := Scalar.indexCast v1131
  ![v1132.toNat]
def k0_off284 (v1133 : BitVec 32) : Fin 2 → Nat :=
  let v1137 : Index := Scalar.indexCast v1133
  let c0_286 : Index := 0#32
  ![v1137.toNat, 0]

def k0_chk189 (v1133 : BitVec 32) : Prop :=
  (∀ a, (k0_off284 v1133) a + S1x64.size a ≤ S100000x64.size a)
instance k0_chk189.dec : ∀ (v1133 : BitVec 32), Decidable (k0_chk189 v1133) := fun v1133 => decidable_of_iff' _ (Iff.of_eq (k0_chk189.eq_1 v1133))
theorem k0_off284_inb : ∀ (v1133 : BitVec 32) (k0_hw189 : k0_chk189 v1133), ∀ a, (k0_off284 v1133) a + S1x64.size a ≤ S100000x64.size a := fun v1133 k0_hw189 => k0_hw189

def k0_off285 (v1136 : BitVec 32) : Fin 2 → Nat :=
  let v1140 : Index := Scalar.indexCast v1136
  let c0_287 : Index := 0#32
  ![v1140.toNat, 0]

def k0_chk190 (v1136 : BitVec 32) : Prop :=
  (∀ a, (k0_off285 v1136) a + S1x64.size a ≤ S100000x64.size a)
instance k0_chk190.dec : ∀ (v1136 : BitVec 32), Decidable (k0_chk190 v1136) := fun v1136 => decidable_of_iff' _ (Iff.of_eq (k0_chk190.eq_1 v1136))
theorem k0_off285_inb : ∀ (v1136 : BitVec 32) (k0_hw190 : k0_chk190 v1136), ∀ a, (k0_off285 v1136) a + S1x64.size a ≤ S100000x64.size a := fun v1136 k0_hw190 => k0_hw190

def k0_off286 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c95_i32 : BitVec 32 := 95#32
  let v1143 : BitVec 32 := Scalar.addi v2 c95_i32
  let v1144 : Index := Scalar.indexCast v1143
  ![v1144.toNat]
def k0_off287 (v1145 : BitVec 32) : Fin 2 → Nat :=
  let v1149 : Index := Scalar.indexCast v1145
  let c0_289 : Index := 0#32
  ![v1149.toNat, 0]

def k0_chk191 (v1145 : BitVec 32) : Prop :=
  (∀ a, (k0_off287 v1145) a + S1x64.size a ≤ S100000x64.size a)
instance k0_chk191.dec : ∀ (v1145 : BitVec 32), Decidable (k0_chk191 v1145) := fun v1145 => decidable_of_iff' _ (Iff.of_eq (k0_chk191.eq_1 v1145))
theorem k0_off287_inb : ∀ (v1145 : BitVec 32) (k0_hw191 : k0_chk191 v1145), ∀ a, (k0_off287 v1145) a + S1x64.size a ≤ S100000x64.size a := fun v1145 k0_hw191 => k0_hw191

def k0_off288 (v1148 : BitVec 32) : Fin 2 → Nat :=
  let v1152 : Index := Scalar.indexCast v1148
  let c0_290 : Index := 0#32
  ![v1152.toNat, 0]

def k0_chk192 (v1148 : BitVec 32) : Prop :=
  (∀ a, (k0_off288 v1148) a + S1x64.size a ≤ S100000x64.size a)
instance k0_chk192.dec : ∀ (v1148 : BitVec 32), Decidable (k0_chk192 v1148) := fun v1148 => decidable_of_iff' _ (Iff.of_eq (k0_chk192.eq_1 v1148))
theorem k0_off288_inb : ∀ (v1148 : BitVec 32) (k0_hw192 : k0_chk192 v1148), ∀ a, (k0_off288 v1148) a + S1x64.size a ≤ S100000x64.size a := fun v1148 k0_hw192 => k0_hw192

def k0_off289 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c96_i32 : BitVec 32 := 96#32
  let v1155 : BitVec 32 := Scalar.addi v2 c96_i32
  let v1156 : Index := Scalar.indexCast v1155
  ![v1156.toNat]
def k0_off290 (v1157 : BitVec 32) : Fin 2 → Nat :=
  let v1161 : Index := Scalar.indexCast v1157
  let c0_292 : Index := 0#32
  ![v1161.toNat, 0]

def k0_chk193 (v1157 : BitVec 32) : Prop :=
  (∀ a, (k0_off290 v1157) a + S1x64.size a ≤ S100000x64.size a)
instance k0_chk193.dec : ∀ (v1157 : BitVec 32), Decidable (k0_chk193 v1157) := fun v1157 => decidable_of_iff' _ (Iff.of_eq (k0_chk193.eq_1 v1157))
theorem k0_off290_inb : ∀ (v1157 : BitVec 32) (k0_hw193 : k0_chk193 v1157), ∀ a, (k0_off290 v1157) a + S1x64.size a ≤ S100000x64.size a := fun v1157 k0_hw193 => k0_hw193

def k0_off291 (v1160 : BitVec 32) : Fin 2 → Nat :=
  let v1164 : Index := Scalar.indexCast v1160
  let c0_293 : Index := 0#32
  ![v1164.toNat, 0]

def k0_chk194 (v1160 : BitVec 32) : Prop :=
  (∀ a, (k0_off291 v1160) a + S1x64.size a ≤ S100000x64.size a)
instance k0_chk194.dec : ∀ (v1160 : BitVec 32), Decidable (k0_chk194 v1160) := fun v1160 => decidable_of_iff' _ (Iff.of_eq (k0_chk194.eq_1 v1160))
theorem k0_off291_inb : ∀ (v1160 : BitVec 32) (k0_hw194 : k0_chk194 v1160), ∀ a, (k0_off291 v1160) a + S1x64.size a ≤ S100000x64.size a := fun v1160 k0_hw194 => k0_hw194

def k0_off292 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c97_i32 : BitVec 32 := 97#32
  let v1167 : BitVec 32 := Scalar.addi v2 c97_i32
  let v1168 : Index := Scalar.indexCast v1167
  ![v1168.toNat]
def k0_off293 (v1169 : BitVec 32) : Fin 2 → Nat :=
  let v1173 : Index := Scalar.indexCast v1169
  let c0_295 : Index := 0#32
  ![v1173.toNat, 0]

def k0_chk195 (v1169 : BitVec 32) : Prop :=
  (∀ a, (k0_off293 v1169) a + S1x64.size a ≤ S100000x64.size a)
instance k0_chk195.dec : ∀ (v1169 : BitVec 32), Decidable (k0_chk195 v1169) := fun v1169 => decidable_of_iff' _ (Iff.of_eq (k0_chk195.eq_1 v1169))
theorem k0_off293_inb : ∀ (v1169 : BitVec 32) (k0_hw195 : k0_chk195 v1169), ∀ a, (k0_off293 v1169) a + S1x64.size a ≤ S100000x64.size a := fun v1169 k0_hw195 => k0_hw195

def k0_off294 (v1172 : BitVec 32) : Fin 2 → Nat :=
  let v1176 : Index := Scalar.indexCast v1172
  let c0_296 : Index := 0#32
  ![v1176.toNat, 0]

def k0_chk196 (v1172 : BitVec 32) : Prop :=
  (∀ a, (k0_off294 v1172) a + S1x64.size a ≤ S100000x64.size a)
instance k0_chk196.dec : ∀ (v1172 : BitVec 32), Decidable (k0_chk196 v1172) := fun v1172 => decidable_of_iff' _ (Iff.of_eq (k0_chk196.eq_1 v1172))
theorem k0_off294_inb : ∀ (v1172 : BitVec 32) (k0_hw196 : k0_chk196 v1172), ∀ a, (k0_off294 v1172) a + S1x64.size a ≤ S100000x64.size a := fun v1172 k0_hw196 => k0_hw196

def k0_off295 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c98_i32 : BitVec 32 := 98#32
  let v1179 : BitVec 32 := Scalar.addi v2 c98_i32
  let v1180 : Index := Scalar.indexCast v1179
  ![v1180.toNat]
def k0_off296 (v1181 : BitVec 32) : Fin 2 → Nat :=
  let v1185 : Index := Scalar.indexCast v1181
  let c0_298 : Index := 0#32
  ![v1185.toNat, 0]

def k0_chk197 (v1181 : BitVec 32) : Prop :=
  (∀ a, (k0_off296 v1181) a + S1x64.size a ≤ S100000x64.size a)
instance k0_chk197.dec : ∀ (v1181 : BitVec 32), Decidable (k0_chk197 v1181) := fun v1181 => decidable_of_iff' _ (Iff.of_eq (k0_chk197.eq_1 v1181))
theorem k0_off296_inb : ∀ (v1181 : BitVec 32) (k0_hw197 : k0_chk197 v1181), ∀ a, (k0_off296 v1181) a + S1x64.size a ≤ S100000x64.size a := fun v1181 k0_hw197 => k0_hw197

def k0_off297 (v1184 : BitVec 32) : Fin 2 → Nat :=
  let v1188 : Index := Scalar.indexCast v1184
  let c0_299 : Index := 0#32
  ![v1188.toNat, 0]

def k0_chk198 (v1184 : BitVec 32) : Prop :=
  (∀ a, (k0_off297 v1184) a + S1x64.size a ≤ S100000x64.size a)
instance k0_chk198.dec : ∀ (v1184 : BitVec 32), Decidable (k0_chk198 v1184) := fun v1184 => decidable_of_iff' _ (Iff.of_eq (k0_chk198.eq_1 v1184))
theorem k0_off297_inb : ∀ (v1184 : BitVec 32) (k0_hw198 : k0_chk198 v1184), ∀ a, (k0_off297 v1184) a + S1x64.size a ≤ S100000x64.size a := fun v1184 k0_hw198 => k0_hw198

def k0_off298 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c99_i32 : BitVec 32 := 99#32
  let v1191 : BitVec 32 := Scalar.addi v2 c99_i32
  let v1192 : Index := Scalar.indexCast v1191
  ![v1192.toNat]
def k0_off299 (v1193 : BitVec 32) : Fin 2 → Nat :=
  let v1197 : Index := Scalar.indexCast v1193
  let c0_301 : Index := 0#32
  ![v1197.toNat, 0]

def k0_chk199 (v1193 : BitVec 32) : Prop :=
  (∀ a, (k0_off299 v1193) a + S1x64.size a ≤ S100000x64.size a)
instance k0_chk199.dec : ∀ (v1193 : BitVec 32), Decidable (k0_chk199 v1193) := fun v1193 => decidable_of_iff' _ (Iff.of_eq (k0_chk199.eq_1 v1193))
theorem k0_off299_inb : ∀ (v1193 : BitVec 32) (k0_hw199 : k0_chk199 v1193), ∀ a, (k0_off299 v1193) a + S1x64.size a ≤ S100000x64.size a := fun v1193 k0_hw199 => k0_hw199

def k0_off300 (v1196 : BitVec 32) : Fin 2 → Nat :=
  let v1200 : Index := Scalar.indexCast v1196
  let c0_302 : Index := 0#32
  ![v1200.toNat, 0]

def k0_chk200 (v1196 : BitVec 32) : Prop :=
  (∀ a, (k0_off300 v1196) a + S1x64.size a ≤ S100000x64.size a)
instance k0_chk200.dec : ∀ (v1196 : BitVec 32), Decidable (k0_chk200 v1196) := fun v1196 => decidable_of_iff' _ (Iff.of_eq (k0_chk200.eq_1 v1196))
theorem k0_off300_inb : ∀ (v1196 : BitVec 32) (k0_hw200 : k0_chk200 v1196), ∀ a, (k0_off300 v1196) a + S1x64.size a ≤ S100000x64.size a := fun v1196 k0_hw200 => k0_hw200

def k0_off301 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c100_i32 : BitVec 32 := 100#32
  let v1203 : BitVec 32 := Scalar.addi v2 c100_i32
  let v1204 : Index := Scalar.indexCast v1203
  ![v1204.toNat]
def k0_off302 (v1205 : BitVec 32) : Fin 2 → Nat :=
  let v1209 : Index := Scalar.indexCast v1205
  let c0_304 : Index := 0#32
  ![v1209.toNat, 0]

def k0_chk201 (v1205 : BitVec 32) : Prop :=
  (∀ a, (k0_off302 v1205) a + S1x64.size a ≤ S100000x64.size a)
instance k0_chk201.dec : ∀ (v1205 : BitVec 32), Decidable (k0_chk201 v1205) := fun v1205 => decidable_of_iff' _ (Iff.of_eq (k0_chk201.eq_1 v1205))
theorem k0_off302_inb : ∀ (v1205 : BitVec 32) (k0_hw201 : k0_chk201 v1205), ∀ a, (k0_off302 v1205) a + S1x64.size a ≤ S100000x64.size a := fun v1205 k0_hw201 => k0_hw201

def k0_off303 (v1208 : BitVec 32) : Fin 2 → Nat :=
  let v1212 : Index := Scalar.indexCast v1208
  let c0_305 : Index := 0#32
  ![v1212.toNat, 0]

def k0_chk202 (v1208 : BitVec 32) : Prop :=
  (∀ a, (k0_off303 v1208) a + S1x64.size a ≤ S100000x64.size a)
instance k0_chk202.dec : ∀ (v1208 : BitVec 32), Decidable (k0_chk202 v1208) := fun v1208 => decidable_of_iff' _ (Iff.of_eq (k0_chk202.eq_1 v1208))
theorem k0_off303_inb : ∀ (v1208 : BitVec 32) (k0_hw202 : k0_chk202 v1208), ∀ a, (k0_off303 v1208) a + S1x64.size a ≤ S100000x64.size a := fun v1208 k0_hw202 => k0_hw202

def k0_off304 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c101_i32 : BitVec 32 := 101#32
  let v1215 : BitVec 32 := Scalar.addi v2 c101_i32
  let v1216 : Index := Scalar.indexCast v1215
  ![v1216.toNat]
def k0_off305 (v1217 : BitVec 32) : Fin 2 → Nat :=
  let v1221 : Index := Scalar.indexCast v1217
  let c0_307 : Index := 0#32
  ![v1221.toNat, 0]

def k0_chk203 (v1217 : BitVec 32) : Prop :=
  (∀ a, (k0_off305 v1217) a + S1x64.size a ≤ S100000x64.size a)
instance k0_chk203.dec : ∀ (v1217 : BitVec 32), Decidable (k0_chk203 v1217) := fun v1217 => decidable_of_iff' _ (Iff.of_eq (k0_chk203.eq_1 v1217))
theorem k0_off305_inb : ∀ (v1217 : BitVec 32) (k0_hw203 : k0_chk203 v1217), ∀ a, (k0_off305 v1217) a + S1x64.size a ≤ S100000x64.size a := fun v1217 k0_hw203 => k0_hw203

def k0_off306 (v1220 : BitVec 32) : Fin 2 → Nat :=
  let v1224 : Index := Scalar.indexCast v1220
  let c0_308 : Index := 0#32
  ![v1224.toNat, 0]

def k0_chk204 (v1220 : BitVec 32) : Prop :=
  (∀ a, (k0_off306 v1220) a + S1x64.size a ≤ S100000x64.size a)
instance k0_chk204.dec : ∀ (v1220 : BitVec 32), Decidable (k0_chk204 v1220) := fun v1220 => decidable_of_iff' _ (Iff.of_eq (k0_chk204.eq_1 v1220))
theorem k0_off306_inb : ∀ (v1220 : BitVec 32) (k0_hw204 : k0_chk204 v1220), ∀ a, (k0_off306 v1220) a + S1x64.size a ≤ S100000x64.size a := fun v1220 k0_hw204 => k0_hw204

def k0_off307 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c102_i32 : BitVec 32 := 102#32
  let v1227 : BitVec 32 := Scalar.addi v2 c102_i32
  let v1228 : Index := Scalar.indexCast v1227
  ![v1228.toNat]
def k0_off308 (v1229 : BitVec 32) : Fin 2 → Nat :=
  let v1233 : Index := Scalar.indexCast v1229
  let c0_310 : Index := 0#32
  ![v1233.toNat, 0]

def k0_chk205 (v1229 : BitVec 32) : Prop :=
  (∀ a, (k0_off308 v1229) a + S1x64.size a ≤ S100000x64.size a)
instance k0_chk205.dec : ∀ (v1229 : BitVec 32), Decidable (k0_chk205 v1229) := fun v1229 => decidable_of_iff' _ (Iff.of_eq (k0_chk205.eq_1 v1229))
theorem k0_off308_inb : ∀ (v1229 : BitVec 32) (k0_hw205 : k0_chk205 v1229), ∀ a, (k0_off308 v1229) a + S1x64.size a ≤ S100000x64.size a := fun v1229 k0_hw205 => k0_hw205

def k0_off309 (v1232 : BitVec 32) : Fin 2 → Nat :=
  let v1236 : Index := Scalar.indexCast v1232
  let c0_311 : Index := 0#32
  ![v1236.toNat, 0]

def k0_chk206 (v1232 : BitVec 32) : Prop :=
  (∀ a, (k0_off309 v1232) a + S1x64.size a ≤ S100000x64.size a)
instance k0_chk206.dec : ∀ (v1232 : BitVec 32), Decidable (k0_chk206 v1232) := fun v1232 => decidable_of_iff' _ (Iff.of_eq (k0_chk206.eq_1 v1232))
theorem k0_off309_inb : ∀ (v1232 : BitVec 32) (k0_hw206 : k0_chk206 v1232), ∀ a, (k0_off309 v1232) a + S1x64.size a ≤ S100000x64.size a := fun v1232 k0_hw206 => k0_hw206

def k0_off310 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c103_i32 : BitVec 32 := 103#32
  let v1239 : BitVec 32 := Scalar.addi v2 c103_i32
  let v1240 : Index := Scalar.indexCast v1239
  ![v1240.toNat]
def k0_off311 (v1241 : BitVec 32) : Fin 2 → Nat :=
  let v1245 : Index := Scalar.indexCast v1241
  let c0_313 : Index := 0#32
  ![v1245.toNat, 0]

def k0_chk207 (v1241 : BitVec 32) : Prop :=
  (∀ a, (k0_off311 v1241) a + S1x64.size a ≤ S100000x64.size a)
instance k0_chk207.dec : ∀ (v1241 : BitVec 32), Decidable (k0_chk207 v1241) := fun v1241 => decidable_of_iff' _ (Iff.of_eq (k0_chk207.eq_1 v1241))
theorem k0_off311_inb : ∀ (v1241 : BitVec 32) (k0_hw207 : k0_chk207 v1241), ∀ a, (k0_off311 v1241) a + S1x64.size a ≤ S100000x64.size a := fun v1241 k0_hw207 => k0_hw207

def k0_off312 (v1244 : BitVec 32) : Fin 2 → Nat :=
  let v1248 : Index := Scalar.indexCast v1244
  let c0_314 : Index := 0#32
  ![v1248.toNat, 0]

def k0_chk208 (v1244 : BitVec 32) : Prop :=
  (∀ a, (k0_off312 v1244) a + S1x64.size a ≤ S100000x64.size a)
instance k0_chk208.dec : ∀ (v1244 : BitVec 32), Decidable (k0_chk208 v1244) := fun v1244 => decidable_of_iff' _ (Iff.of_eq (k0_chk208.eq_1 v1244))
theorem k0_off312_inb : ∀ (v1244 : BitVec 32) (k0_hw208 : k0_chk208 v1244), ∀ a, (k0_off312 v1244) a + S1x64.size a ≤ S100000x64.size a := fun v1244 k0_hw208 => k0_hw208

def k0_off313 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c104_i32 : BitVec 32 := 104#32
  let v1251 : BitVec 32 := Scalar.addi v2 c104_i32
  let v1252 : Index := Scalar.indexCast v1251
  ![v1252.toNat]
def k0_off314 (v1253 : BitVec 32) : Fin 2 → Nat :=
  let v1257 : Index := Scalar.indexCast v1253
  let c0_316 : Index := 0#32
  ![v1257.toNat, 0]

def k0_chk209 (v1253 : BitVec 32) : Prop :=
  (∀ a, (k0_off314 v1253) a + S1x64.size a ≤ S100000x64.size a)
instance k0_chk209.dec : ∀ (v1253 : BitVec 32), Decidable (k0_chk209 v1253) := fun v1253 => decidable_of_iff' _ (Iff.of_eq (k0_chk209.eq_1 v1253))
theorem k0_off314_inb : ∀ (v1253 : BitVec 32) (k0_hw209 : k0_chk209 v1253), ∀ a, (k0_off314 v1253) a + S1x64.size a ≤ S100000x64.size a := fun v1253 k0_hw209 => k0_hw209

def k0_off315 (v1256 : BitVec 32) : Fin 2 → Nat :=
  let v1260 : Index := Scalar.indexCast v1256
  let c0_317 : Index := 0#32
  ![v1260.toNat, 0]

def k0_chk210 (v1256 : BitVec 32) : Prop :=
  (∀ a, (k0_off315 v1256) a + S1x64.size a ≤ S100000x64.size a)
instance k0_chk210.dec : ∀ (v1256 : BitVec 32), Decidable (k0_chk210 v1256) := fun v1256 => decidable_of_iff' _ (Iff.of_eq (k0_chk210.eq_1 v1256))
theorem k0_off315_inb : ∀ (v1256 : BitVec 32) (k0_hw210 : k0_chk210 v1256), ∀ a, (k0_off315 v1256) a + S1x64.size a ≤ S100000x64.size a := fun v1256 k0_hw210 => k0_hw210

def k0_off316 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c105_i32 : BitVec 32 := 105#32
  let v1263 : BitVec 32 := Scalar.addi v2 c105_i32
  let v1264 : Index := Scalar.indexCast v1263
  ![v1264.toNat]
def k0_off317 (v1265 : BitVec 32) : Fin 2 → Nat :=
  let v1269 : Index := Scalar.indexCast v1265
  let c0_319 : Index := 0#32
  ![v1269.toNat, 0]

def k0_chk211 (v1265 : BitVec 32) : Prop :=
  (∀ a, (k0_off317 v1265) a + S1x64.size a ≤ S100000x64.size a)
instance k0_chk211.dec : ∀ (v1265 : BitVec 32), Decidable (k0_chk211 v1265) := fun v1265 => decidable_of_iff' _ (Iff.of_eq (k0_chk211.eq_1 v1265))
theorem k0_off317_inb : ∀ (v1265 : BitVec 32) (k0_hw211 : k0_chk211 v1265), ∀ a, (k0_off317 v1265) a + S1x64.size a ≤ S100000x64.size a := fun v1265 k0_hw211 => k0_hw211

def k0_off318 (v1268 : BitVec 32) : Fin 2 → Nat :=
  let v1272 : Index := Scalar.indexCast v1268
  let c0_320 : Index := 0#32
  ![v1272.toNat, 0]

def k0_chk212 (v1268 : BitVec 32) : Prop :=
  (∀ a, (k0_off318 v1268) a + S1x64.size a ≤ S100000x64.size a)
instance k0_chk212.dec : ∀ (v1268 : BitVec 32), Decidable (k0_chk212 v1268) := fun v1268 => decidable_of_iff' _ (Iff.of_eq (k0_chk212.eq_1 v1268))
theorem k0_off318_inb : ∀ (v1268 : BitVec 32) (k0_hw212 : k0_chk212 v1268), ∀ a, (k0_off318 v1268) a + S1x64.size a ≤ S100000x64.size a := fun v1268 k0_hw212 => k0_hw212

def k0_off319 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c106_i32 : BitVec 32 := 106#32
  let v1275 : BitVec 32 := Scalar.addi v2 c106_i32
  let v1276 : Index := Scalar.indexCast v1275
  ![v1276.toNat]
def k0_off320 (v1277 : BitVec 32) : Fin 2 → Nat :=
  let v1281 : Index := Scalar.indexCast v1277
  let c0_322 : Index := 0#32
  ![v1281.toNat, 0]

def k0_chk213 (v1277 : BitVec 32) : Prop :=
  (∀ a, (k0_off320 v1277) a + S1x64.size a ≤ S100000x64.size a)
instance k0_chk213.dec : ∀ (v1277 : BitVec 32), Decidable (k0_chk213 v1277) := fun v1277 => decidable_of_iff' _ (Iff.of_eq (k0_chk213.eq_1 v1277))
theorem k0_off320_inb : ∀ (v1277 : BitVec 32) (k0_hw213 : k0_chk213 v1277), ∀ a, (k0_off320 v1277) a + S1x64.size a ≤ S100000x64.size a := fun v1277 k0_hw213 => k0_hw213

def k0_off321 (v1280 : BitVec 32) : Fin 2 → Nat :=
  let v1284 : Index := Scalar.indexCast v1280
  let c0_323 : Index := 0#32
  ![v1284.toNat, 0]

def k0_chk214 (v1280 : BitVec 32) : Prop :=
  (∀ a, (k0_off321 v1280) a + S1x64.size a ≤ S100000x64.size a)
instance k0_chk214.dec : ∀ (v1280 : BitVec 32), Decidable (k0_chk214 v1280) := fun v1280 => decidable_of_iff' _ (Iff.of_eq (k0_chk214.eq_1 v1280))
theorem k0_off321_inb : ∀ (v1280 : BitVec 32) (k0_hw214 : k0_chk214 v1280), ∀ a, (k0_off321 v1280) a + S1x64.size a ≤ S100000x64.size a := fun v1280 k0_hw214 => k0_hw214

def k0_off322 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c107_i32 : BitVec 32 := 107#32
  let v1287 : BitVec 32 := Scalar.addi v2 c107_i32
  let v1288 : Index := Scalar.indexCast v1287
  ![v1288.toNat]
def k0_off323 (v1289 : BitVec 32) : Fin 2 → Nat :=
  let v1293 : Index := Scalar.indexCast v1289
  let c0_325 : Index := 0#32
  ![v1293.toNat, 0]

def k0_chk215 (v1289 : BitVec 32) : Prop :=
  (∀ a, (k0_off323 v1289) a + S1x64.size a ≤ S100000x64.size a)
instance k0_chk215.dec : ∀ (v1289 : BitVec 32), Decidable (k0_chk215 v1289) := fun v1289 => decidable_of_iff' _ (Iff.of_eq (k0_chk215.eq_1 v1289))
theorem k0_off323_inb : ∀ (v1289 : BitVec 32) (k0_hw215 : k0_chk215 v1289), ∀ a, (k0_off323 v1289) a + S1x64.size a ≤ S100000x64.size a := fun v1289 k0_hw215 => k0_hw215

def k0_off324 (v1292 : BitVec 32) : Fin 2 → Nat :=
  let v1296 : Index := Scalar.indexCast v1292
  let c0_326 : Index := 0#32
  ![v1296.toNat, 0]

def k0_chk216 (v1292 : BitVec 32) : Prop :=
  (∀ a, (k0_off324 v1292) a + S1x64.size a ≤ S100000x64.size a)
instance k0_chk216.dec : ∀ (v1292 : BitVec 32), Decidable (k0_chk216 v1292) := fun v1292 => decidable_of_iff' _ (Iff.of_eq (k0_chk216.eq_1 v1292))
theorem k0_off324_inb : ∀ (v1292 : BitVec 32) (k0_hw216 : k0_chk216 v1292), ∀ a, (k0_off324 v1292) a + S1x64.size a ≤ S100000x64.size a := fun v1292 k0_hw216 => k0_hw216

def k0_off325 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c108_i32 : BitVec 32 := 108#32
  let v1299 : BitVec 32 := Scalar.addi v2 c108_i32
  let v1300 : Index := Scalar.indexCast v1299
  ![v1300.toNat]
def k0_off326 (v1301 : BitVec 32) : Fin 2 → Nat :=
  let v1305 : Index := Scalar.indexCast v1301
  let c0_328 : Index := 0#32
  ![v1305.toNat, 0]

def k0_chk217 (v1301 : BitVec 32) : Prop :=
  (∀ a, (k0_off326 v1301) a + S1x64.size a ≤ S100000x64.size a)
instance k0_chk217.dec : ∀ (v1301 : BitVec 32), Decidable (k0_chk217 v1301) := fun v1301 => decidable_of_iff' _ (Iff.of_eq (k0_chk217.eq_1 v1301))
theorem k0_off326_inb : ∀ (v1301 : BitVec 32) (k0_hw217 : k0_chk217 v1301), ∀ a, (k0_off326 v1301) a + S1x64.size a ≤ S100000x64.size a := fun v1301 k0_hw217 => k0_hw217

def k0_off327 (v1304 : BitVec 32) : Fin 2 → Nat :=
  let v1308 : Index := Scalar.indexCast v1304
  let c0_329 : Index := 0#32
  ![v1308.toNat, 0]

def k0_chk218 (v1304 : BitVec 32) : Prop :=
  (∀ a, (k0_off327 v1304) a + S1x64.size a ≤ S100000x64.size a)
instance k0_chk218.dec : ∀ (v1304 : BitVec 32), Decidable (k0_chk218 v1304) := fun v1304 => decidable_of_iff' _ (Iff.of_eq (k0_chk218.eq_1 v1304))
theorem k0_off327_inb : ∀ (v1304 : BitVec 32) (k0_hw218 : k0_chk218 v1304), ∀ a, (k0_off327 v1304) a + S1x64.size a ≤ S100000x64.size a := fun v1304 k0_hw218 => k0_hw218

def k0_off328 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c109_i32 : BitVec 32 := 109#32
  let v1311 : BitVec 32 := Scalar.addi v2 c109_i32
  let v1312 : Index := Scalar.indexCast v1311
  ![v1312.toNat]
def k0_off329 (v1313 : BitVec 32) : Fin 2 → Nat :=
  let v1317 : Index := Scalar.indexCast v1313
  let c0_331 : Index := 0#32
  ![v1317.toNat, 0]

def k0_chk219 (v1313 : BitVec 32) : Prop :=
  (∀ a, (k0_off329 v1313) a + S1x64.size a ≤ S100000x64.size a)
instance k0_chk219.dec : ∀ (v1313 : BitVec 32), Decidable (k0_chk219 v1313) := fun v1313 => decidable_of_iff' _ (Iff.of_eq (k0_chk219.eq_1 v1313))
theorem k0_off329_inb : ∀ (v1313 : BitVec 32) (k0_hw219 : k0_chk219 v1313), ∀ a, (k0_off329 v1313) a + S1x64.size a ≤ S100000x64.size a := fun v1313 k0_hw219 => k0_hw219

def k0_off330 (v1316 : BitVec 32) : Fin 2 → Nat :=
  let v1320 : Index := Scalar.indexCast v1316
  let c0_332 : Index := 0#32
  ![v1320.toNat, 0]

def k0_chk220 (v1316 : BitVec 32) : Prop :=
  (∀ a, (k0_off330 v1316) a + S1x64.size a ≤ S100000x64.size a)
instance k0_chk220.dec : ∀ (v1316 : BitVec 32), Decidable (k0_chk220 v1316) := fun v1316 => decidable_of_iff' _ (Iff.of_eq (k0_chk220.eq_1 v1316))
theorem k0_off330_inb : ∀ (v1316 : BitVec 32) (k0_hw220 : k0_chk220 v1316), ∀ a, (k0_off330 v1316) a + S1x64.size a ≤ S100000x64.size a := fun v1316 k0_hw220 => k0_hw220

def k0_off331 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c110_i32 : BitVec 32 := 110#32
  let v1323 : BitVec 32 := Scalar.addi v2 c110_i32
  let v1324 : Index := Scalar.indexCast v1323
  ![v1324.toNat]
def k0_off332 (v1325 : BitVec 32) : Fin 2 → Nat :=
  let v1329 : Index := Scalar.indexCast v1325
  let c0_334 : Index := 0#32
  ![v1329.toNat, 0]

def k0_chk221 (v1325 : BitVec 32) : Prop :=
  (∀ a, (k0_off332 v1325) a + S1x64.size a ≤ S100000x64.size a)
instance k0_chk221.dec : ∀ (v1325 : BitVec 32), Decidable (k0_chk221 v1325) := fun v1325 => decidable_of_iff' _ (Iff.of_eq (k0_chk221.eq_1 v1325))
theorem k0_off332_inb : ∀ (v1325 : BitVec 32) (k0_hw221 : k0_chk221 v1325), ∀ a, (k0_off332 v1325) a + S1x64.size a ≤ S100000x64.size a := fun v1325 k0_hw221 => k0_hw221

def k0_off333 (v1328 : BitVec 32) : Fin 2 → Nat :=
  let v1332 : Index := Scalar.indexCast v1328
  let c0_335 : Index := 0#32
  ![v1332.toNat, 0]

def k0_chk222 (v1328 : BitVec 32) : Prop :=
  (∀ a, (k0_off333 v1328) a + S1x64.size a ≤ S100000x64.size a)
instance k0_chk222.dec : ∀ (v1328 : BitVec 32), Decidable (k0_chk222 v1328) := fun v1328 => decidable_of_iff' _ (Iff.of_eq (k0_chk222.eq_1 v1328))
theorem k0_off333_inb : ∀ (v1328 : BitVec 32) (k0_hw222 : k0_chk222 v1328), ∀ a, (k0_off333 v1328) a + S1x64.size a ≤ S100000x64.size a := fun v1328 k0_hw222 => k0_hw222

def k0_off334 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c111_i32 : BitVec 32 := 111#32
  let v1335 : BitVec 32 := Scalar.addi v2 c111_i32
  let v1336 : Index := Scalar.indexCast v1335
  ![v1336.toNat]
def k0_off335 (v1337 : BitVec 32) : Fin 2 → Nat :=
  let v1341 : Index := Scalar.indexCast v1337
  let c0_337 : Index := 0#32
  ![v1341.toNat, 0]

def k0_chk223 (v1337 : BitVec 32) : Prop :=
  (∀ a, (k0_off335 v1337) a + S1x64.size a ≤ S100000x64.size a)
instance k0_chk223.dec : ∀ (v1337 : BitVec 32), Decidable (k0_chk223 v1337) := fun v1337 => decidable_of_iff' _ (Iff.of_eq (k0_chk223.eq_1 v1337))
theorem k0_off335_inb : ∀ (v1337 : BitVec 32) (k0_hw223 : k0_chk223 v1337), ∀ a, (k0_off335 v1337) a + S1x64.size a ≤ S100000x64.size a := fun v1337 k0_hw223 => k0_hw223

def k0_off336 (v1340 : BitVec 32) : Fin 2 → Nat :=
  let v1344 : Index := Scalar.indexCast v1340
  let c0_338 : Index := 0#32
  ![v1344.toNat, 0]

def k0_chk224 (v1340 : BitVec 32) : Prop :=
  (∀ a, (k0_off336 v1340) a + S1x64.size a ≤ S100000x64.size a)
instance k0_chk224.dec : ∀ (v1340 : BitVec 32), Decidable (k0_chk224 v1340) := fun v1340 => decidable_of_iff' _ (Iff.of_eq (k0_chk224.eq_1 v1340))
theorem k0_off336_inb : ∀ (v1340 : BitVec 32) (k0_hw224 : k0_chk224 v1340), ∀ a, (k0_off336 v1340) a + S1x64.size a ≤ S100000x64.size a := fun v1340 k0_hw224 => k0_hw224

def k0_off337 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c112_i32 : BitVec 32 := 112#32
  let v1347 : BitVec 32 := Scalar.addi v2 c112_i32
  let v1348 : Index := Scalar.indexCast v1347
  ![v1348.toNat]
def k0_off338 (v1349 : BitVec 32) : Fin 2 → Nat :=
  let v1353 : Index := Scalar.indexCast v1349
  let c0_340 : Index := 0#32
  ![v1353.toNat, 0]

def k0_chk225 (v1349 : BitVec 32) : Prop :=
  (∀ a, (k0_off338 v1349) a + S1x64.size a ≤ S100000x64.size a)
instance k0_chk225.dec : ∀ (v1349 : BitVec 32), Decidable (k0_chk225 v1349) := fun v1349 => decidable_of_iff' _ (Iff.of_eq (k0_chk225.eq_1 v1349))
theorem k0_off338_inb : ∀ (v1349 : BitVec 32) (k0_hw225 : k0_chk225 v1349), ∀ a, (k0_off338 v1349) a + S1x64.size a ≤ S100000x64.size a := fun v1349 k0_hw225 => k0_hw225

def k0_off339 (v1352 : BitVec 32) : Fin 2 → Nat :=
  let v1356 : Index := Scalar.indexCast v1352
  let c0_341 : Index := 0#32
  ![v1356.toNat, 0]

def k0_chk226 (v1352 : BitVec 32) : Prop :=
  (∀ a, (k0_off339 v1352) a + S1x64.size a ≤ S100000x64.size a)
instance k0_chk226.dec : ∀ (v1352 : BitVec 32), Decidable (k0_chk226 v1352) := fun v1352 => decidable_of_iff' _ (Iff.of_eq (k0_chk226.eq_1 v1352))
theorem k0_off339_inb : ∀ (v1352 : BitVec 32) (k0_hw226 : k0_chk226 v1352), ∀ a, (k0_off339 v1352) a + S1x64.size a ≤ S100000x64.size a := fun v1352 k0_hw226 => k0_hw226

def k0_off340 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c113_i32 : BitVec 32 := 113#32
  let v1359 : BitVec 32 := Scalar.addi v2 c113_i32
  let v1360 : Index := Scalar.indexCast v1359
  ![v1360.toNat]
def k0_off341 (v1361 : BitVec 32) : Fin 2 → Nat :=
  let v1365 : Index := Scalar.indexCast v1361
  let c0_343 : Index := 0#32
  ![v1365.toNat, 0]

def k0_chk227 (v1361 : BitVec 32) : Prop :=
  (∀ a, (k0_off341 v1361) a + S1x64.size a ≤ S100000x64.size a)
instance k0_chk227.dec : ∀ (v1361 : BitVec 32), Decidable (k0_chk227 v1361) := fun v1361 => decidable_of_iff' _ (Iff.of_eq (k0_chk227.eq_1 v1361))
theorem k0_off341_inb : ∀ (v1361 : BitVec 32) (k0_hw227 : k0_chk227 v1361), ∀ a, (k0_off341 v1361) a + S1x64.size a ≤ S100000x64.size a := fun v1361 k0_hw227 => k0_hw227

def k0_off342 (v1364 : BitVec 32) : Fin 2 → Nat :=
  let v1368 : Index := Scalar.indexCast v1364
  let c0_344 : Index := 0#32
  ![v1368.toNat, 0]

def k0_chk228 (v1364 : BitVec 32) : Prop :=
  (∀ a, (k0_off342 v1364) a + S1x64.size a ≤ S100000x64.size a)
instance k0_chk228.dec : ∀ (v1364 : BitVec 32), Decidable (k0_chk228 v1364) := fun v1364 => decidable_of_iff' _ (Iff.of_eq (k0_chk228.eq_1 v1364))
theorem k0_off342_inb : ∀ (v1364 : BitVec 32) (k0_hw228 : k0_chk228 v1364), ∀ a, (k0_off342 v1364) a + S1x64.size a ≤ S100000x64.size a := fun v1364 k0_hw228 => k0_hw228

def k0_off343 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c114_i32 : BitVec 32 := 114#32
  let v1371 : BitVec 32 := Scalar.addi v2 c114_i32
  let v1372 : Index := Scalar.indexCast v1371
  ![v1372.toNat]
def k0_off344 (v1373 : BitVec 32) : Fin 2 → Nat :=
  let v1377 : Index := Scalar.indexCast v1373
  let c0_346 : Index := 0#32
  ![v1377.toNat, 0]

def k0_chk229 (v1373 : BitVec 32) : Prop :=
  (∀ a, (k0_off344 v1373) a + S1x64.size a ≤ S100000x64.size a)
instance k0_chk229.dec : ∀ (v1373 : BitVec 32), Decidable (k0_chk229 v1373) := fun v1373 => decidable_of_iff' _ (Iff.of_eq (k0_chk229.eq_1 v1373))
theorem k0_off344_inb : ∀ (v1373 : BitVec 32) (k0_hw229 : k0_chk229 v1373), ∀ a, (k0_off344 v1373) a + S1x64.size a ≤ S100000x64.size a := fun v1373 k0_hw229 => k0_hw229

def k0_off345 (v1376 : BitVec 32) : Fin 2 → Nat :=
  let v1380 : Index := Scalar.indexCast v1376
  let c0_347 : Index := 0#32
  ![v1380.toNat, 0]

def k0_chk230 (v1376 : BitVec 32) : Prop :=
  (∀ a, (k0_off345 v1376) a + S1x64.size a ≤ S100000x64.size a)
instance k0_chk230.dec : ∀ (v1376 : BitVec 32), Decidable (k0_chk230 v1376) := fun v1376 => decidable_of_iff' _ (Iff.of_eq (k0_chk230.eq_1 v1376))
theorem k0_off345_inb : ∀ (v1376 : BitVec 32) (k0_hw230 : k0_chk230 v1376), ∀ a, (k0_off345 v1376) a + S1x64.size a ≤ S100000x64.size a := fun v1376 k0_hw230 => k0_hw230

def k0_off346 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c115_i32 : BitVec 32 := 115#32
  let v1383 : BitVec 32 := Scalar.addi v2 c115_i32
  let v1384 : Index := Scalar.indexCast v1383
  ![v1384.toNat]
def k0_off347 (v1385 : BitVec 32) : Fin 2 → Nat :=
  let v1389 : Index := Scalar.indexCast v1385
  let c0_349 : Index := 0#32
  ![v1389.toNat, 0]

def k0_chk231 (v1385 : BitVec 32) : Prop :=
  (∀ a, (k0_off347 v1385) a + S1x64.size a ≤ S100000x64.size a)
instance k0_chk231.dec : ∀ (v1385 : BitVec 32), Decidable (k0_chk231 v1385) := fun v1385 => decidable_of_iff' _ (Iff.of_eq (k0_chk231.eq_1 v1385))
theorem k0_off347_inb : ∀ (v1385 : BitVec 32) (k0_hw231 : k0_chk231 v1385), ∀ a, (k0_off347 v1385) a + S1x64.size a ≤ S100000x64.size a := fun v1385 k0_hw231 => k0_hw231

def k0_off348 (v1388 : BitVec 32) : Fin 2 → Nat :=
  let v1392 : Index := Scalar.indexCast v1388
  let c0_350 : Index := 0#32
  ![v1392.toNat, 0]

def k0_chk232 (v1388 : BitVec 32) : Prop :=
  (∀ a, (k0_off348 v1388) a + S1x64.size a ≤ S100000x64.size a)
instance k0_chk232.dec : ∀ (v1388 : BitVec 32), Decidable (k0_chk232 v1388) := fun v1388 => decidable_of_iff' _ (Iff.of_eq (k0_chk232.eq_1 v1388))
theorem k0_off348_inb : ∀ (v1388 : BitVec 32) (k0_hw232 : k0_chk232 v1388), ∀ a, (k0_off348 v1388) a + S1x64.size a ≤ S100000x64.size a := fun v1388 k0_hw232 => k0_hw232

def k0_off349 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c116_i32 : BitVec 32 := 116#32
  let v1395 : BitVec 32 := Scalar.addi v2 c116_i32
  let v1396 : Index := Scalar.indexCast v1395
  ![v1396.toNat]
def k0_off350 (v1397 : BitVec 32) : Fin 2 → Nat :=
  let v1401 : Index := Scalar.indexCast v1397
  let c0_352 : Index := 0#32
  ![v1401.toNat, 0]

def k0_chk233 (v1397 : BitVec 32) : Prop :=
  (∀ a, (k0_off350 v1397) a + S1x64.size a ≤ S100000x64.size a)
instance k0_chk233.dec : ∀ (v1397 : BitVec 32), Decidable (k0_chk233 v1397) := fun v1397 => decidable_of_iff' _ (Iff.of_eq (k0_chk233.eq_1 v1397))
theorem k0_off350_inb : ∀ (v1397 : BitVec 32) (k0_hw233 : k0_chk233 v1397), ∀ a, (k0_off350 v1397) a + S1x64.size a ≤ S100000x64.size a := fun v1397 k0_hw233 => k0_hw233

def k0_off351 (v1400 : BitVec 32) : Fin 2 → Nat :=
  let v1404 : Index := Scalar.indexCast v1400
  let c0_353 : Index := 0#32
  ![v1404.toNat, 0]

def k0_chk234 (v1400 : BitVec 32) : Prop :=
  (∀ a, (k0_off351 v1400) a + S1x64.size a ≤ S100000x64.size a)
instance k0_chk234.dec : ∀ (v1400 : BitVec 32), Decidable (k0_chk234 v1400) := fun v1400 => decidable_of_iff' _ (Iff.of_eq (k0_chk234.eq_1 v1400))
theorem k0_off351_inb : ∀ (v1400 : BitVec 32) (k0_hw234 : k0_chk234 v1400), ∀ a, (k0_off351 v1400) a + S1x64.size a ≤ S100000x64.size a := fun v1400 k0_hw234 => k0_hw234

def k0_off352 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c117_i32 : BitVec 32 := 117#32
  let v1407 : BitVec 32 := Scalar.addi v2 c117_i32
  let v1408 : Index := Scalar.indexCast v1407
  ![v1408.toNat]
def k0_off353 (v1409 : BitVec 32) : Fin 2 → Nat :=
  let v1413 : Index := Scalar.indexCast v1409
  let c0_355 : Index := 0#32
  ![v1413.toNat, 0]

def k0_chk235 (v1409 : BitVec 32) : Prop :=
  (∀ a, (k0_off353 v1409) a + S1x64.size a ≤ S100000x64.size a)
instance k0_chk235.dec : ∀ (v1409 : BitVec 32), Decidable (k0_chk235 v1409) := fun v1409 => decidable_of_iff' _ (Iff.of_eq (k0_chk235.eq_1 v1409))
theorem k0_off353_inb : ∀ (v1409 : BitVec 32) (k0_hw235 : k0_chk235 v1409), ∀ a, (k0_off353 v1409) a + S1x64.size a ≤ S100000x64.size a := fun v1409 k0_hw235 => k0_hw235

def k0_off354 (v1412 : BitVec 32) : Fin 2 → Nat :=
  let v1416 : Index := Scalar.indexCast v1412
  let c0_356 : Index := 0#32
  ![v1416.toNat, 0]

def k0_chk236 (v1412 : BitVec 32) : Prop :=
  (∀ a, (k0_off354 v1412) a + S1x64.size a ≤ S100000x64.size a)
instance k0_chk236.dec : ∀ (v1412 : BitVec 32), Decidable (k0_chk236 v1412) := fun v1412 => decidable_of_iff' _ (Iff.of_eq (k0_chk236.eq_1 v1412))
theorem k0_off354_inb : ∀ (v1412 : BitVec 32) (k0_hw236 : k0_chk236 v1412), ∀ a, (k0_off354 v1412) a + S1x64.size a ≤ S100000x64.size a := fun v1412 k0_hw236 => k0_hw236

def k0_off355 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c118_i32 : BitVec 32 := 118#32
  let v1419 : BitVec 32 := Scalar.addi v2 c118_i32
  let v1420 : Index := Scalar.indexCast v1419
  ![v1420.toNat]
def k0_off356 (v1421 : BitVec 32) : Fin 2 → Nat :=
  let v1425 : Index := Scalar.indexCast v1421
  let c0_358 : Index := 0#32
  ![v1425.toNat, 0]

def k0_chk237 (v1421 : BitVec 32) : Prop :=
  (∀ a, (k0_off356 v1421) a + S1x64.size a ≤ S100000x64.size a)
instance k0_chk237.dec : ∀ (v1421 : BitVec 32), Decidable (k0_chk237 v1421) := fun v1421 => decidable_of_iff' _ (Iff.of_eq (k0_chk237.eq_1 v1421))
theorem k0_off356_inb : ∀ (v1421 : BitVec 32) (k0_hw237 : k0_chk237 v1421), ∀ a, (k0_off356 v1421) a + S1x64.size a ≤ S100000x64.size a := fun v1421 k0_hw237 => k0_hw237

def k0_off357 (v1424 : BitVec 32) : Fin 2 → Nat :=
  let v1428 : Index := Scalar.indexCast v1424
  let c0_359 : Index := 0#32
  ![v1428.toNat, 0]

def k0_chk238 (v1424 : BitVec 32) : Prop :=
  (∀ a, (k0_off357 v1424) a + S1x64.size a ≤ S100000x64.size a)
instance k0_chk238.dec : ∀ (v1424 : BitVec 32), Decidable (k0_chk238 v1424) := fun v1424 => decidable_of_iff' _ (Iff.of_eq (k0_chk238.eq_1 v1424))
theorem k0_off357_inb : ∀ (v1424 : BitVec 32) (k0_hw238 : k0_chk238 v1424), ∀ a, (k0_off357 v1424) a + S1x64.size a ≤ S100000x64.size a := fun v1424 k0_hw238 => k0_hw238

def k0_off358 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c119_i32 : BitVec 32 := 119#32
  let v1431 : BitVec 32 := Scalar.addi v2 c119_i32
  let v1432 : Index := Scalar.indexCast v1431
  ![v1432.toNat]
def k0_off359 (v1433 : BitVec 32) : Fin 2 → Nat :=
  let v1437 : Index := Scalar.indexCast v1433
  let c0_361 : Index := 0#32
  ![v1437.toNat, 0]

def k0_chk239 (v1433 : BitVec 32) : Prop :=
  (∀ a, (k0_off359 v1433) a + S1x64.size a ≤ S100000x64.size a)
instance k0_chk239.dec : ∀ (v1433 : BitVec 32), Decidable (k0_chk239 v1433) := fun v1433 => decidable_of_iff' _ (Iff.of_eq (k0_chk239.eq_1 v1433))
theorem k0_off359_inb : ∀ (v1433 : BitVec 32) (k0_hw239 : k0_chk239 v1433), ∀ a, (k0_off359 v1433) a + S1x64.size a ≤ S100000x64.size a := fun v1433 k0_hw239 => k0_hw239

def k0_off360 (v1436 : BitVec 32) : Fin 2 → Nat :=
  let v1440 : Index := Scalar.indexCast v1436
  let c0_362 : Index := 0#32
  ![v1440.toNat, 0]

def k0_chk240 (v1436 : BitVec 32) : Prop :=
  (∀ a, (k0_off360 v1436) a + S1x64.size a ≤ S100000x64.size a)
instance k0_chk240.dec : ∀ (v1436 : BitVec 32), Decidable (k0_chk240 v1436) := fun v1436 => decidable_of_iff' _ (Iff.of_eq (k0_chk240.eq_1 v1436))
theorem k0_off360_inb : ∀ (v1436 : BitVec 32) (k0_hw240 : k0_chk240 v1436), ∀ a, (k0_off360 v1436) a + S1x64.size a ≤ S100000x64.size a := fun v1436 k0_hw240 => k0_hw240

def k0_off361 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c120_i32 : BitVec 32 := 120#32
  let v1443 : BitVec 32 := Scalar.addi v2 c120_i32
  let v1444 : Index := Scalar.indexCast v1443
  ![v1444.toNat]
def k0_off362 (v1445 : BitVec 32) : Fin 2 → Nat :=
  let v1449 : Index := Scalar.indexCast v1445
  let c0_364 : Index := 0#32
  ![v1449.toNat, 0]

def k0_chk241 (v1445 : BitVec 32) : Prop :=
  (∀ a, (k0_off362 v1445) a + S1x64.size a ≤ S100000x64.size a)
instance k0_chk241.dec : ∀ (v1445 : BitVec 32), Decidable (k0_chk241 v1445) := fun v1445 => decidable_of_iff' _ (Iff.of_eq (k0_chk241.eq_1 v1445))
theorem k0_off362_inb : ∀ (v1445 : BitVec 32) (k0_hw241 : k0_chk241 v1445), ∀ a, (k0_off362 v1445) a + S1x64.size a ≤ S100000x64.size a := fun v1445 k0_hw241 => k0_hw241

def k0_off363 (v1448 : BitVec 32) : Fin 2 → Nat :=
  let v1452 : Index := Scalar.indexCast v1448
  let c0_365 : Index := 0#32
  ![v1452.toNat, 0]

def k0_chk242 (v1448 : BitVec 32) : Prop :=
  (∀ a, (k0_off363 v1448) a + S1x64.size a ≤ S100000x64.size a)
instance k0_chk242.dec : ∀ (v1448 : BitVec 32), Decidable (k0_chk242 v1448) := fun v1448 => decidable_of_iff' _ (Iff.of_eq (k0_chk242.eq_1 v1448))
theorem k0_off363_inb : ∀ (v1448 : BitVec 32) (k0_hw242 : k0_chk242 v1448), ∀ a, (k0_off363 v1448) a + S1x64.size a ≤ S100000x64.size a := fun v1448 k0_hw242 => k0_hw242

def k0_off364 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c121_i32 : BitVec 32 := 121#32
  let v1455 : BitVec 32 := Scalar.addi v2 c121_i32
  let v1456 : Index := Scalar.indexCast v1455
  ![v1456.toNat]
def k0_off365 (v1457 : BitVec 32) : Fin 2 → Nat :=
  let v1461 : Index := Scalar.indexCast v1457
  let c0_367 : Index := 0#32
  ![v1461.toNat, 0]

def k0_chk243 (v1457 : BitVec 32) : Prop :=
  (∀ a, (k0_off365 v1457) a + S1x64.size a ≤ S100000x64.size a)
instance k0_chk243.dec : ∀ (v1457 : BitVec 32), Decidable (k0_chk243 v1457) := fun v1457 => decidable_of_iff' _ (Iff.of_eq (k0_chk243.eq_1 v1457))
theorem k0_off365_inb : ∀ (v1457 : BitVec 32) (k0_hw243 : k0_chk243 v1457), ∀ a, (k0_off365 v1457) a + S1x64.size a ≤ S100000x64.size a := fun v1457 k0_hw243 => k0_hw243

def k0_off366 (v1460 : BitVec 32) : Fin 2 → Nat :=
  let v1464 : Index := Scalar.indexCast v1460
  let c0_368 : Index := 0#32
  ![v1464.toNat, 0]

def k0_chk244 (v1460 : BitVec 32) : Prop :=
  (∀ a, (k0_off366 v1460) a + S1x64.size a ≤ S100000x64.size a)
instance k0_chk244.dec : ∀ (v1460 : BitVec 32), Decidable (k0_chk244 v1460) := fun v1460 => decidable_of_iff' _ (Iff.of_eq (k0_chk244.eq_1 v1460))
theorem k0_off366_inb : ∀ (v1460 : BitVec 32) (k0_hw244 : k0_chk244 v1460), ∀ a, (k0_off366 v1460) a + S1x64.size a ≤ S100000x64.size a := fun v1460 k0_hw244 => k0_hw244

def k0_off367 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c122_i32 : BitVec 32 := 122#32
  let v1467 : BitVec 32 := Scalar.addi v2 c122_i32
  let v1468 : Index := Scalar.indexCast v1467
  ![v1468.toNat]
def k0_off368 (v1469 : BitVec 32) : Fin 2 → Nat :=
  let v1473 : Index := Scalar.indexCast v1469
  let c0_370 : Index := 0#32
  ![v1473.toNat, 0]

def k0_chk245 (v1469 : BitVec 32) : Prop :=
  (∀ a, (k0_off368 v1469) a + S1x64.size a ≤ S100000x64.size a)
instance k0_chk245.dec : ∀ (v1469 : BitVec 32), Decidable (k0_chk245 v1469) := fun v1469 => decidable_of_iff' _ (Iff.of_eq (k0_chk245.eq_1 v1469))
theorem k0_off368_inb : ∀ (v1469 : BitVec 32) (k0_hw245 : k0_chk245 v1469), ∀ a, (k0_off368 v1469) a + S1x64.size a ≤ S100000x64.size a := fun v1469 k0_hw245 => k0_hw245

def k0_off369 (v1472 : BitVec 32) : Fin 2 → Nat :=
  let v1476 : Index := Scalar.indexCast v1472
  let c0_371 : Index := 0#32
  ![v1476.toNat, 0]

def k0_chk246 (v1472 : BitVec 32) : Prop :=
  (∀ a, (k0_off369 v1472) a + S1x64.size a ≤ S100000x64.size a)
instance k0_chk246.dec : ∀ (v1472 : BitVec 32), Decidable (k0_chk246 v1472) := fun v1472 => decidable_of_iff' _ (Iff.of_eq (k0_chk246.eq_1 v1472))
theorem k0_off369_inb : ∀ (v1472 : BitVec 32) (k0_hw246 : k0_chk246 v1472), ∀ a, (k0_off369 v1472) a + S1x64.size a ≤ S100000x64.size a := fun v1472 k0_hw246 => k0_hw246

def k0_off370 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c123_i32 : BitVec 32 := 123#32
  let v1479 : BitVec 32 := Scalar.addi v2 c123_i32
  let v1480 : Index := Scalar.indexCast v1479
  ![v1480.toNat]
def k0_off371 (v1481 : BitVec 32) : Fin 2 → Nat :=
  let v1485 : Index := Scalar.indexCast v1481
  let c0_373 : Index := 0#32
  ![v1485.toNat, 0]

def k0_chk247 (v1481 : BitVec 32) : Prop :=
  (∀ a, (k0_off371 v1481) a + S1x64.size a ≤ S100000x64.size a)
instance k0_chk247.dec : ∀ (v1481 : BitVec 32), Decidable (k0_chk247 v1481) := fun v1481 => decidable_of_iff' _ (Iff.of_eq (k0_chk247.eq_1 v1481))
theorem k0_off371_inb : ∀ (v1481 : BitVec 32) (k0_hw247 : k0_chk247 v1481), ∀ a, (k0_off371 v1481) a + S1x64.size a ≤ S100000x64.size a := fun v1481 k0_hw247 => k0_hw247

def k0_off372 (v1484 : BitVec 32) : Fin 2 → Nat :=
  let v1488 : Index := Scalar.indexCast v1484
  let c0_374 : Index := 0#32
  ![v1488.toNat, 0]

def k0_chk248 (v1484 : BitVec 32) : Prop :=
  (∀ a, (k0_off372 v1484) a + S1x64.size a ≤ S100000x64.size a)
instance k0_chk248.dec : ∀ (v1484 : BitVec 32), Decidable (k0_chk248 v1484) := fun v1484 => decidable_of_iff' _ (Iff.of_eq (k0_chk248.eq_1 v1484))
theorem k0_off372_inb : ∀ (v1484 : BitVec 32) (k0_hw248 : k0_chk248 v1484), ∀ a, (k0_off372 v1484) a + S1x64.size a ≤ S100000x64.size a := fun v1484 k0_hw248 => k0_hw248

def k0_off373 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c124_i32 : BitVec 32 := 124#32
  let v1491 : BitVec 32 := Scalar.addi v2 c124_i32
  let v1492 : Index := Scalar.indexCast v1491
  ![v1492.toNat]
def k0_off374 (v1493 : BitVec 32) : Fin 2 → Nat :=
  let v1497 : Index := Scalar.indexCast v1493
  let c0_376 : Index := 0#32
  ![v1497.toNat, 0]

def k0_chk249 (v1493 : BitVec 32) : Prop :=
  (∀ a, (k0_off374 v1493) a + S1x64.size a ≤ S100000x64.size a)
instance k0_chk249.dec : ∀ (v1493 : BitVec 32), Decidable (k0_chk249 v1493) := fun v1493 => decidable_of_iff' _ (Iff.of_eq (k0_chk249.eq_1 v1493))
theorem k0_off374_inb : ∀ (v1493 : BitVec 32) (k0_hw249 : k0_chk249 v1493), ∀ a, (k0_off374 v1493) a + S1x64.size a ≤ S100000x64.size a := fun v1493 k0_hw249 => k0_hw249

def k0_off375 (v1496 : BitVec 32) : Fin 2 → Nat :=
  let v1500 : Index := Scalar.indexCast v1496
  let c0_377 : Index := 0#32
  ![v1500.toNat, 0]

def k0_chk250 (v1496 : BitVec 32) : Prop :=
  (∀ a, (k0_off375 v1496) a + S1x64.size a ≤ S100000x64.size a)
instance k0_chk250.dec : ∀ (v1496 : BitVec 32), Decidable (k0_chk250 v1496) := fun v1496 => decidable_of_iff' _ (Iff.of_eq (k0_chk250.eq_1 v1496))
theorem k0_off375_inb : ∀ (v1496 : BitVec 32) (k0_hw250 : k0_chk250 v1496), ∀ a, (k0_off375 v1496) a + S1x64.size a ≤ S100000x64.size a := fun v1496 k0_hw250 => k0_hw250

def k0_off376 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c125_i32 : BitVec 32 := 125#32
  let v1503 : BitVec 32 := Scalar.addi v2 c125_i32
  let v1504 : Index := Scalar.indexCast v1503
  ![v1504.toNat]
def k0_off377 (v1505 : BitVec 32) : Fin 2 → Nat :=
  let v1509 : Index := Scalar.indexCast v1505
  let c0_379 : Index := 0#32
  ![v1509.toNat, 0]

def k0_chk251 (v1505 : BitVec 32) : Prop :=
  (∀ a, (k0_off377 v1505) a + S1x64.size a ≤ S100000x64.size a)
instance k0_chk251.dec : ∀ (v1505 : BitVec 32), Decidable (k0_chk251 v1505) := fun v1505 => decidable_of_iff' _ (Iff.of_eq (k0_chk251.eq_1 v1505))
theorem k0_off377_inb : ∀ (v1505 : BitVec 32) (k0_hw251 : k0_chk251 v1505), ∀ a, (k0_off377 v1505) a + S1x64.size a ≤ S100000x64.size a := fun v1505 k0_hw251 => k0_hw251

def k0_off378 (v1508 : BitVec 32) : Fin 2 → Nat :=
  let v1512 : Index := Scalar.indexCast v1508
  let c0_380 : Index := 0#32
  ![v1512.toNat, 0]

def k0_chk252 (v1508 : BitVec 32) : Prop :=
  (∀ a, (k0_off378 v1508) a + S1x64.size a ≤ S100000x64.size a)
instance k0_chk252.dec : ∀ (v1508 : BitVec 32), Decidable (k0_chk252 v1508) := fun v1508 => decidable_of_iff' _ (Iff.of_eq (k0_chk252.eq_1 v1508))
theorem k0_off378_inb : ∀ (v1508 : BitVec 32) (k0_hw252 : k0_chk252 v1508), ∀ a, (k0_off378 v1508) a + S1x64.size a ≤ S100000x64.size a := fun v1508 k0_hw252 => k0_hw252

def k0_off379 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c126_i32 : BitVec 32 := 126#32
  let v1515 : BitVec 32 := Scalar.addi v2 c126_i32
  let v1516 : Index := Scalar.indexCast v1515
  ![v1516.toNat]
def k0_off380 (v1517 : BitVec 32) : Fin 2 → Nat :=
  let v1521 : Index := Scalar.indexCast v1517
  let c0_382 : Index := 0#32
  ![v1521.toNat, 0]

def k0_chk253 (v1517 : BitVec 32) : Prop :=
  (∀ a, (k0_off380 v1517) a + S1x64.size a ≤ S100000x64.size a)
instance k0_chk253.dec : ∀ (v1517 : BitVec 32), Decidable (k0_chk253 v1517) := fun v1517 => decidable_of_iff' _ (Iff.of_eq (k0_chk253.eq_1 v1517))
theorem k0_off380_inb : ∀ (v1517 : BitVec 32) (k0_hw253 : k0_chk253 v1517), ∀ a, (k0_off380 v1517) a + S1x64.size a ≤ S100000x64.size a := fun v1517 k0_hw253 => k0_hw253

def k0_off381 (v1520 : BitVec 32) : Fin 2 → Nat :=
  let v1524 : Index := Scalar.indexCast v1520
  let c0_383 : Index := 0#32
  ![v1524.toNat, 0]

def k0_chk254 (v1520 : BitVec 32) : Prop :=
  (∀ a, (k0_off381 v1520) a + S1x64.size a ≤ S100000x64.size a)
instance k0_chk254.dec : ∀ (v1520 : BitVec 32), Decidable (k0_chk254 v1520) := fun v1520 => decidable_of_iff' _ (Iff.of_eq (k0_chk254.eq_1 v1520))
theorem k0_off381_inb : ∀ (v1520 : BitVec 32) (k0_hw254 : k0_chk254 v1520), ∀ a, (k0_off381 v1520) a + S1x64.size a ≤ S100000x64.size a := fun v1520 k0_hw254 => k0_hw254

def k0_off382 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let c127_i32 : BitVec 32 := 127#32
  let v1527 : BitVec 32 := Scalar.addi v2 c127_i32
  let v1528 : Index := Scalar.indexCast v1527
  ![v1528.toNat]
def k0_off383 (v1529 : BitVec 32) : Fin 2 → Nat :=
  let v1533 : Index := Scalar.indexCast v1529
  let c0_385 : Index := 0#32
  ![v1533.toNat, 0]

def k0_chk255 (v1529 : BitVec 32) : Prop :=
  (∀ a, (k0_off383 v1529) a + S1x64.size a ≤ S100000x64.size a)
instance k0_chk255.dec : ∀ (v1529 : BitVec 32), Decidable (k0_chk255 v1529) := fun v1529 => decidable_of_iff' _ (Iff.of_eq (k0_chk255.eq_1 v1529))
theorem k0_off383_inb : ∀ (v1529 : BitVec 32) (k0_hw255 : k0_chk255 v1529), ∀ a, (k0_off383 v1529) a + S1x64.size a ≤ S100000x64.size a := fun v1529 k0_hw255 => k0_hw255

def k0_off384 (v1532 : BitVec 32) : Fin 2 → Nat :=
  let v1536 : Index := Scalar.indexCast v1532
  let c0_386 : Index := 0#32
  ![v1536.toNat, 0]

def k0_chk256 (v1532 : BitVec 32) : Prop :=
  (∀ a, (k0_off384 v1532) a + S1x64.size a ≤ S100000x64.size a)
instance k0_chk256.dec : ∀ (v1532 : BitVec 32), Decidable (k0_chk256 v1532) := fun v1532 => decidable_of_iff' _ (Iff.of_eq (k0_chk256.eq_1 v1532))
theorem k0_off384_inb : ∀ (v1532 : BitVec 32) (k0_hw256 : k0_chk256 v1532), ∀ a, (k0_off384 v1532) a + S1x64.size a ≤ S100000x64.size a := fun v1532 k0_hw256 => k0_hw256

def k0_off385 (k0_t1 : Fin k0_t1_loop.trips) : Fin 1 → Nat :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1799 : Index := Scalar.indexCast v2
  ![v1799.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S100000x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .smem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S1250000_S1253376_033760 : S1250000.Pads (![0] : Fin 1 → Nat) ![3376] ![0] S1253376
  h_S_ : 0 < S_.numel
  numel1_S1 : S1.numel = 1
  h_S1x64 : 0 < S1x64.numel
  shapeCasts_S1x64_S64 : S1x64.ShapeCasts S64
  shapeCasts_S64_S1x64 : S64.ShapeCasts S1x64
  concatenates_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S128x64_d0 : Shape.Concatenates (S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: []) S128x64 0
  reduces_S128x64_S128 : S128x64.Reduces [1] S128
  h_S128 : 0 < S128.numel
  slices_S1253376_S1250000_0 : S1253376.Slices ![0] S1250000
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1.size a ≤ S8192.size a
  k0_off4_inb : ∀ k0_t1 : Fin k0_t1_loop.trips, ∀ a, (k0_off4 k0_t1) a + S1.size a ≤ S8192.size a
  k0_off7_inb : ∀ k0_t1 : Fin k0_t1_loop.trips, ∀ a, (k0_off7 k0_t1) a + S1.size a ≤ S8192.size a
  k0_off10_inb : ∀ k0_t1 : Fin k0_t1_loop.trips, ∀ a, (k0_off10 k0_t1) a + S1.size a ≤ S8192.size a
  k0_off13_inb : ∀ k0_t1 : Fin k0_t1_loop.trips, ∀ a, (k0_off13 k0_t1) a + S1.size a ≤ S8192.size a
  k0_off16_inb : ∀ k0_t1 : Fin k0_t1_loop.trips, ∀ a, (k0_off16 k0_t1) a + S1.size a ≤ S8192.size a
  k0_off19_inb : ∀ k0_t1 : Fin k0_t1_loop.trips, ∀ a, (k0_off19 k0_t1) a + S1.size a ≤ S8192.size a
  k0_off22_inb : ∀ k0_t1 : Fin k0_t1_loop.trips, ∀ a, (k0_off22 k0_t1) a + S1.size a ≤ S8192.size a
  k0_off25_inb : ∀ k0_t1 : Fin k0_t1_loop.trips, ∀ a, (k0_off25 k0_t1) a + S1.size a ≤ S8192.size a
  k0_off28_inb : ∀ k0_t1 : Fin k0_t1_loop.trips, ∀ a, (k0_off28 k0_t1) a + S1.size a ≤ S8192.size a
  k0_off31_inb : ∀ k0_t1 : Fin k0_t1_loop.trips, ∀ a, (k0_off31 k0_t1) a + S1.size a ≤ S8192.size a
  k0_off34_inb : ∀ k0_t1 : Fin k0_t1_loop.trips, ∀ a, (k0_off34 k0_t1) a + S1.size a ≤ S8192.size a
  k0_off37_inb : ∀ k0_t1 : Fin k0_t1_loop.trips, ∀ a, (k0_off37 k0_t1) a + S1.size a ≤ S8192.size a
  k0_off40_inb : ∀ k0_t1 : Fin k0_t1_loop.trips, ∀ a, (k0_off40 k0_t1) a + S1.size a ≤ S8192.size a
  k0_off43_inb : ∀ k0_t1 : Fin k0_t1_loop.trips, ∀ a, (k0_off43 k0_t1) a + S1.size a ≤ S8192.size a
  k0_off46_inb : ∀ k0_t1 : Fin k0_t1_loop.trips, ∀ a, (k0_off46 k0_t1) a + S1.size a ≤ S8192.size a
  k0_off49_inb : ∀ k0_t1 : Fin k0_t1_loop.trips, ∀ a, (k0_off49 k0_t1) a + S1.size a ≤ S8192.size a
  k0_off52_inb : ∀ k0_t1 : Fin k0_t1_loop.trips, ∀ a, (k0_off52 k0_t1) a + S1.size a ≤ S8192.size a
  k0_off55_inb : ∀ k0_t1 : Fin k0_t1_loop.trips, ∀ a, (k0_off55 k0_t1) a + S1.size a ≤ S8192.size a
  k0_off58_inb : ∀ k0_t1 : Fin k0_t1_loop.trips, ∀ a, (k0_off58 k0_t1) a + S1.size a ≤ S8192.size a
  k0_off61_inb : ∀ k0_t1 : Fin k0_t1_loop.trips, ∀ a, (k0_off61 k0_t1) a + S1.size a ≤ S8192.size a
  k0_off64_inb : ∀ k0_t1 : Fin k0_t1_loop.trips, ∀ a, (k0_off64 k0_t1) a + S1.size a ≤ S8192.size a
  k0_off67_inb : ∀ k0_t1 : Fin k0_t1_loop.trips, ∀ a, (k0_off67 k0_t1) a + S1.size a ≤ S8192.size a
  k0_off70_inb : ∀ k0_t1 : Fin k0_t1_loop.trips, ∀ a, (k0_off70 k0_t1) a + S1.size a ≤ S8192.size a
  k0_off73_inb : ∀ k0_t1 : Fin k0_t1_loop.trips, ∀ a, (k0_off73 k0_t1) a + S1.size a ≤ S8192.size a
  k0_off76_inb : ∀ k0_t1 : Fin k0_t1_loop.trips, ∀ a, (k0_off76 k0_t1) a + S1.size a ≤ S8192.size a
  k0_off79_inb : ∀ k0_t1 : Fin k0_t1_loop.trips, ∀ a, (k0_off79 k0_t1) a + S1.size a ≤ S8192.size a
  k0_off82_inb : ∀ k0_t1 : Fin k0_t1_loop.trips, ∀ a, (k0_off82 k0_t1) a + S1.size a ≤ S8192.size a
  k0_off85_inb : ∀ k0_t1 : Fin k0_t1_loop.trips, ∀ a, (k0_off85 k0_t1) a + S1.size a ≤ S8192.size a
  k0_off88_inb : ∀ k0_t1 : Fin k0_t1_loop.trips, ∀ a, (k0_off88 k0_t1) a + S1.size a ≤ S8192.size a
  k0_off91_inb : ∀ k0_t1 : Fin k0_t1_loop.trips, ∀ a, (k0_off91 k0_t1) a + S1.size a ≤ S8192.size a
  k0_off94_inb : ∀ k0_t1 : Fin k0_t1_loop.trips, ∀ a, (k0_off94 k0_t1) a + S1.size a ≤ S8192.size a
  k0_off97_inb : ∀ k0_t1 : Fin k0_t1_loop.trips, ∀ a, (k0_off97 k0_t1) a + S1.size a ≤ S8192.size a
  k0_off100_inb : ∀ k0_t1 : Fin k0_t1_loop.trips, ∀ a, (k0_off100 k0_t1) a + S1.size a ≤ S8192.size a
  k0_off103_inb : ∀ k0_t1 : Fin k0_t1_loop.trips, ∀ a, (k0_off103 k0_t1) a + S1.size a ≤ S8192.size a
  k0_off106_inb : ∀ k0_t1 : Fin k0_t1_loop.trips, ∀ a, (k0_off106 k0_t1) a + S1.size a ≤ S8192.size a
  k0_off109_inb : ∀ k0_t1 : Fin k0_t1_loop.trips, ∀ a, (k0_off109 k0_t1) a + S1.size a ≤ S8192.size a
  k0_off112_inb : ∀ k0_t1 : Fin k0_t1_loop.trips, ∀ a, (k0_off112 k0_t1) a + S1.size a ≤ S8192.size a
  k0_off115_inb : ∀ k0_t1 : Fin k0_t1_loop.trips, ∀ a, (k0_off115 k0_t1) a + S1.size a ≤ S8192.size a
  k0_off118_inb : ∀ k0_t1 : Fin k0_t1_loop.trips, ∀ a, (k0_off118 k0_t1) a + S1.size a ≤ S8192.size a
  k0_off121_inb : ∀ k0_t1 : Fin k0_t1_loop.trips, ∀ a, (k0_off121 k0_t1) a + S1.size a ≤ S8192.size a
  k0_off124_inb : ∀ k0_t1 : Fin k0_t1_loop.trips, ∀ a, (k0_off124 k0_t1) a + S1.size a ≤ S8192.size a
  k0_off127_inb : ∀ k0_t1 : Fin k0_t1_loop.trips, ∀ a, (k0_off127 k0_t1) a + S1.size a ≤ S8192.size a
  k0_off130_inb : ∀ k0_t1 : Fin k0_t1_loop.trips, ∀ a, (k0_off130 k0_t1) a + S1.size a ≤ S8192.size a
  k0_off133_inb : ∀ k0_t1 : Fin k0_t1_loop.trips, ∀ a, (k0_off133 k0_t1) a + S1.size a ≤ S8192.size a
  k0_off136_inb : ∀ k0_t1 : Fin k0_t1_loop.trips, ∀ a, (k0_off136 k0_t1) a + S1.size a ≤ S8192.size a
  k0_off139_inb : ∀ k0_t1 : Fin k0_t1_loop.trips, ∀ a, (k0_off139 k0_t1) a + S1.size a ≤ S8192.size a
  k0_off142_inb : ∀ k0_t1 : Fin k0_t1_loop.trips, ∀ a, (k0_off142 k0_t1) a + S1.size a ≤ S8192.size a
  k0_off145_inb : ∀ k0_t1 : Fin k0_t1_loop.trips, ∀ a, (k0_off145 k0_t1) a + S1.size a ≤ S8192.size a
  k0_off148_inb : ∀ k0_t1 : Fin k0_t1_loop.trips, ∀ a, (k0_off148 k0_t1) a + S1.size a ≤ S8192.size a
  k0_off151_inb : ∀ k0_t1 : Fin k0_t1_loop.trips, ∀ a, (k0_off151 k0_t1) a + S1.size a ≤ S8192.size a
  k0_off154_inb : ∀ k0_t1 : Fin k0_t1_loop.trips, ∀ a, (k0_off154 k0_t1) a + S1.size a ≤ S8192.size a
  k0_off157_inb : ∀ k0_t1 : Fin k0_t1_loop.trips, ∀ a, (k0_off157 k0_t1) a + S1.size a ≤ S8192.size a
  k0_off160_inb : ∀ k0_t1 : Fin k0_t1_loop.trips, ∀ a, (k0_off160 k0_t1) a + S1.size a ≤ S8192.size a
  k0_off163_inb : ∀ k0_t1 : Fin k0_t1_loop.trips, ∀ a, (k0_off163 k0_t1) a + S1.size a ≤ S8192.size a
  k0_off166_inb : ∀ k0_t1 : Fin k0_t1_loop.trips, ∀ a, (k0_off166 k0_t1) a + S1.size a ≤ S8192.size a
  k0_off169_inb : ∀ k0_t1 : Fin k0_t1_loop.trips, ∀ a, (k0_off169 k0_t1) a + S1.size a ≤ S8192.size a
  k0_off172_inb : ∀ k0_t1 : Fin k0_t1_loop.trips, ∀ a, (k0_off172 k0_t1) a + S1.size a ≤ S8192.size a
  k0_off175_inb : ∀ k0_t1 : Fin k0_t1_loop.trips, ∀ a, (k0_off175 k0_t1) a + S1.size a ≤ S8192.size a
  k0_off178_inb : ∀ k0_t1 : Fin k0_t1_loop.trips, ∀ a, (k0_off178 k0_t1) a + S1.size a ≤ S8192.size a
  k0_off181_inb : ∀ k0_t1 : Fin k0_t1_loop.trips, ∀ a, (k0_off181 k0_t1) a + S1.size a ≤ S8192.size a
  k0_off184_inb : ∀ k0_t1 : Fin k0_t1_loop.trips, ∀ a, (k0_off184 k0_t1) a + S1.size a ≤ S8192.size a
  k0_off187_inb : ∀ k0_t1 : Fin k0_t1_loop.trips, ∀ a, (k0_off187 k0_t1) a + S1.size a ≤ S8192.size a
  k0_off190_inb : ∀ k0_t1 : Fin k0_t1_loop.trips, ∀ a, (k0_off190 k0_t1) a + S1.size a ≤ S8192.size a
  k0_off193_inb : ∀ k0_t1 : Fin k0_t1_loop.trips, ∀ a, (k0_off193 k0_t1) a + S1.size a ≤ S8192.size a
  k0_off196_inb : ∀ k0_t1 : Fin k0_t1_loop.trips, ∀ a, (k0_off196 k0_t1) a + S1.size a ≤ S8192.size a
  k0_off199_inb : ∀ k0_t1 : Fin k0_t1_loop.trips, ∀ a, (k0_off199 k0_t1) a + S1.size a ≤ S8192.size a
  k0_off202_inb : ∀ k0_t1 : Fin k0_t1_loop.trips, ∀ a, (k0_off202 k0_t1) a + S1.size a ≤ S8192.size a
  k0_off205_inb : ∀ k0_t1 : Fin k0_t1_loop.trips, ∀ a, (k0_off205 k0_t1) a + S1.size a ≤ S8192.size a
  k0_off208_inb : ∀ k0_t1 : Fin k0_t1_loop.trips, ∀ a, (k0_off208 k0_t1) a + S1.size a ≤ S8192.size a
  k0_off211_inb : ∀ k0_t1 : Fin k0_t1_loop.trips, ∀ a, (k0_off211 k0_t1) a + S1.size a ≤ S8192.size a
  k0_off214_inb : ∀ k0_t1 : Fin k0_t1_loop.trips, ∀ a, (k0_off214 k0_t1) a + S1.size a ≤ S8192.size a
  k0_off217_inb : ∀ k0_t1 : Fin k0_t1_loop.trips, ∀ a, (k0_off217 k0_t1) a + S1.size a ≤ S8192.size a
  k0_off220_inb : ∀ k0_t1 : Fin k0_t1_loop.trips, ∀ a, (k0_off220 k0_t1) a + S1.size a ≤ S8192.size a
  k0_off223_inb : ∀ k0_t1 : Fin k0_t1_loop.trips, ∀ a, (k0_off223 k0_t1) a + S1.size a ≤ S8192.size a
  k0_off226_inb : ∀ k0_t1 : Fin k0_t1_loop.trips, ∀ a, (k0_off226 k0_t1) a + S1.size a ≤ S8192.size a
  k0_off229_inb : ∀ k0_t1 : Fin k0_t1_loop.trips, ∀ a, (k0_off229 k0_t1) a + S1.size a ≤ S8192.size a
  k0_off232_inb : ∀ k0_t1 : Fin k0_t1_loop.trips, ∀ a, (k0_off232 k0_t1) a + S1.size a ≤ S8192.size a
  k0_off235_inb : ∀ k0_t1 : Fin k0_t1_loop.trips, ∀ a, (k0_off235 k0_t1) a + S1.size a ≤ S8192.size a
  k0_off238_inb : ∀ k0_t1 : Fin k0_t1_loop.trips, ∀ a, (k0_off238 k0_t1) a + S1.size a ≤ S8192.size a
  k0_off241_inb : ∀ k0_t1 : Fin k0_t1_loop.trips, ∀ a, (k0_off241 k0_t1) a + S1.size a ≤ S8192.size a
  k0_off244_inb : ∀ k0_t1 : Fin k0_t1_loop.trips, ∀ a, (k0_off244 k0_t1) a + S1.size a ≤ S8192.size a
  k0_off247_inb : ∀ k0_t1 : Fin k0_t1_loop.trips, ∀ a, (k0_off247 k0_t1) a + S1.size a ≤ S8192.size a
  k0_off250_inb : ∀ k0_t1 : Fin k0_t1_loop.trips, ∀ a, (k0_off250 k0_t1) a + S1.size a ≤ S8192.size a
  k0_off253_inb : ∀ k0_t1 : Fin k0_t1_loop.trips, ∀ a, (k0_off253 k0_t1) a + S1.size a ≤ S8192.size a
  k0_off256_inb : ∀ k0_t1 : Fin k0_t1_loop.trips, ∀ a, (k0_off256 k0_t1) a + S1.size a ≤ S8192.size a
  k0_off259_inb : ∀ k0_t1 : Fin k0_t1_loop.trips, ∀ a, (k0_off259 k0_t1) a + S1.size a ≤ S8192.size a
  k0_off262_inb : ∀ k0_t1 : Fin k0_t1_loop.trips, ∀ a, (k0_off262 k0_t1) a + S1.size a ≤ S8192.size a
  k0_off265_inb : ∀ k0_t1 : Fin k0_t1_loop.trips, ∀ a, (k0_off265 k0_t1) a + S1.size a ≤ S8192.size a
  k0_off268_inb : ∀ k0_t1 : Fin k0_t1_loop.trips, ∀ a, (k0_off268 k0_t1) a + S1.size a ≤ S8192.size a
  k0_off271_inb : ∀ k0_t1 : Fin k0_t1_loop.trips, ∀ a, (k0_off271 k0_t1) a + S1.size a ≤ S8192.size a
  k0_off274_inb : ∀ k0_t1 : Fin k0_t1_loop.trips, ∀ a, (k0_off274 k0_t1) a + S1.size a ≤ S8192.size a
  k0_off277_inb : ∀ k0_t1 : Fin k0_t1_loop.trips, ∀ a, (k0_off277 k0_t1) a + S1.size a ≤ S8192.size a
  k0_off280_inb : ∀ k0_t1 : Fin k0_t1_loop.trips, ∀ a, (k0_off280 k0_t1) a + S1.size a ≤ S8192.size a
  k0_off283_inb : ∀ k0_t1 : Fin k0_t1_loop.trips, ∀ a, (k0_off283 k0_t1) a + S1.size a ≤ S8192.size a
  k0_off286_inb : ∀ k0_t1 : Fin k0_t1_loop.trips, ∀ a, (k0_off286 k0_t1) a + S1.size a ≤ S8192.size a
  k0_off289_inb : ∀ k0_t1 : Fin k0_t1_loop.trips, ∀ a, (k0_off289 k0_t1) a + S1.size a ≤ S8192.size a
  k0_off292_inb : ∀ k0_t1 : Fin k0_t1_loop.trips, ∀ a, (k0_off292 k0_t1) a + S1.size a ≤ S8192.size a
  k0_off295_inb : ∀ k0_t1 : Fin k0_t1_loop.trips, ∀ a, (k0_off295 k0_t1) a + S1.size a ≤ S8192.size a
  k0_off298_inb : ∀ k0_t1 : Fin k0_t1_loop.trips, ∀ a, (k0_off298 k0_t1) a + S1.size a ≤ S8192.size a
  k0_off301_inb : ∀ k0_t1 : Fin k0_t1_loop.trips, ∀ a, (k0_off301 k0_t1) a + S1.size a ≤ S8192.size a
  k0_off304_inb : ∀ k0_t1 : Fin k0_t1_loop.trips, ∀ a, (k0_off304 k0_t1) a + S1.size a ≤ S8192.size a
  k0_off307_inb : ∀ k0_t1 : Fin k0_t1_loop.trips, ∀ a, (k0_off307 k0_t1) a + S1.size a ≤ S8192.size a
  k0_off310_inb : ∀ k0_t1 : Fin k0_t1_loop.trips, ∀ a, (k0_off310 k0_t1) a + S1.size a ≤ S8192.size a
  k0_off313_inb : ∀ k0_t1 : Fin k0_t1_loop.trips, ∀ a, (k0_off313 k0_t1) a + S1.size a ≤ S8192.size a
  k0_off316_inb : ∀ k0_t1 : Fin k0_t1_loop.trips, ∀ a, (k0_off316 k0_t1) a + S1.size a ≤ S8192.size a
  k0_off319_inb : ∀ k0_t1 : Fin k0_t1_loop.trips, ∀ a, (k0_off319 k0_t1) a + S1.size a ≤ S8192.size a
  k0_off322_inb : ∀ k0_t1 : Fin k0_t1_loop.trips, ∀ a, (k0_off322 k0_t1) a + S1.size a ≤ S8192.size a
  k0_off325_inb : ∀ k0_t1 : Fin k0_t1_loop.trips, ∀ a, (k0_off325 k0_t1) a + S1.size a ≤ S8192.size a
  k0_off328_inb : ∀ k0_t1 : Fin k0_t1_loop.trips, ∀ a, (k0_off328 k0_t1) a + S1.size a ≤ S8192.size a
  k0_off331_inb : ∀ k0_t1 : Fin k0_t1_loop.trips, ∀ a, (k0_off331 k0_t1) a + S1.size a ≤ S8192.size a
  k0_off334_inb : ∀ k0_t1 : Fin k0_t1_loop.trips, ∀ a, (k0_off334 k0_t1) a + S1.size a ≤ S8192.size a
  k0_off337_inb : ∀ k0_t1 : Fin k0_t1_loop.trips, ∀ a, (k0_off337 k0_t1) a + S1.size a ≤ S8192.size a
  k0_off340_inb : ∀ k0_t1 : Fin k0_t1_loop.trips, ∀ a, (k0_off340 k0_t1) a + S1.size a ≤ S8192.size a
  k0_off343_inb : ∀ k0_t1 : Fin k0_t1_loop.trips, ∀ a, (k0_off343 k0_t1) a + S1.size a ≤ S8192.size a
  k0_off346_inb : ∀ k0_t1 : Fin k0_t1_loop.trips, ∀ a, (k0_off346 k0_t1) a + S1.size a ≤ S8192.size a
  k0_off349_inb : ∀ k0_t1 : Fin k0_t1_loop.trips, ∀ a, (k0_off349 k0_t1) a + S1.size a ≤ S8192.size a
  k0_off352_inb : ∀ k0_t1 : Fin k0_t1_loop.trips, ∀ a, (k0_off352 k0_t1) a + S1.size a ≤ S8192.size a
  k0_off355_inb : ∀ k0_t1 : Fin k0_t1_loop.trips, ∀ a, (k0_off355 k0_t1) a + S1.size a ≤ S8192.size a
  k0_off358_inb : ∀ k0_t1 : Fin k0_t1_loop.trips, ∀ a, (k0_off358 k0_t1) a + S1.size a ≤ S8192.size a
  k0_off361_inb : ∀ k0_t1 : Fin k0_t1_loop.trips, ∀ a, (k0_off361 k0_t1) a + S1.size a ≤ S8192.size a
  k0_off364_inb : ∀ k0_t1 : Fin k0_t1_loop.trips, ∀ a, (k0_off364 k0_t1) a + S1.size a ≤ S8192.size a
  k0_off367_inb : ∀ k0_t1 : Fin k0_t1_loop.trips, ∀ a, (k0_off367 k0_t1) a + S1.size a ≤ S8192.size a
  k0_off370_inb : ∀ k0_t1 : Fin k0_t1_loop.trips, ∀ a, (k0_off370 k0_t1) a + S1.size a ≤ S8192.size a
  k0_off373_inb : ∀ k0_t1 : Fin k0_t1_loop.trips, ∀ a, (k0_off373 k0_t1) a + S1.size a ≤ S8192.size a
  k0_off376_inb : ∀ k0_t1 : Fin k0_t1_loop.trips, ∀ a, (k0_off376 k0_t1) a + S1.size a ≤ S8192.size a
  k0_off379_inb : ∀ k0_t1 : Fin k0_t1_loop.trips, ∀ a, (k0_off379 k0_t1) a + S1.size a ≤ S8192.size a
  k0_off382_inb : ∀ k0_t1 : Fin k0_t1_loop.trips, ∀ a, (k0_off382 k0_t1) a + S1.size a ≤ S8192.size a
  k0_off385_inb : ∀ k0_t1 : Fin k0_t1_loop.trips, ∀ a, (k0_off385 k0_t1) a + S128.size a ≤ S8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S100000x64.size a ≤ S100000x64.size a
  hwx0_0 : ∀ i : grid0.Coords, EltTy.bits .f32 = 32 ∨ (Rect.block (s := S100000x64) S100000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S1253376.size a
  hwx0_1 : ∀ i : grid0.Coords, EltTy.bits .i32 = 32 ∨ (Rect.block (s := S1253376) S8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S1253376.size a
  hwx0_2 : ∀ i : grid0.Coords, EltTy.bits .i32 = 32 ∨ (Rect.block (s := S1253376) S8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S1253376.size a
  hwx0_3 : ∀ i : grid0.Coords, EltTy.bits .f32 = 32 ∨ (Rect.block (s := S1253376) S8192.size (cc0_transform_3 i) (hinb0_3 i)).WholeWords (EltTy.packing .f32)

variable [Facts₀]

abbrev win0_0 : Pipeline.Window sig grid0 :=
  Pipeline.Window.ofSpec (Memref.whole main_arg0) S100000x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩

abbrev nBuf : Space → Nat
  | .hbm => 24
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S_, .i32⟩
  | .hbm, ⟨4, _⟩ => ⟨S1250000, .i32⟩
  | .hbm, ⟨5, _⟩ => ⟨S1250000, .i1⟩
  | .hbm, ⟨6, _⟩ => ⟨S_, .i32⟩
  | .hbm, ⟨7, _⟩ => ⟨S1250000, .i32⟩
  | .hbm, ⟨8, _⟩ => ⟨S1250000, .i32⟩
  | .hbm, ⟨9, _⟩ => ⟨S1250000, .i32⟩
  | .hbm, ⟨10, _⟩ => ⟨S1250000x1, .i32⟩
  | .hbm, ⟨11, _⟩ => ⟨S1250000x64, .f32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S1250000x64, .f32⟩
  | .hbm, ⟨22, _⟩ => ⟨S_, .f32⟩
  | .hbm, ⟨23, _⟩ => ⟨S1250000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  reducesTo_S1250000x64_S1250000_d1 : S1250000x64.ReducesTo [1] S1250000
  h_S_ : 0 < S_.numel
  gather_S100000x64_S1250000x1_S1250000x64_1_0_n_n_0_1_164_wf : GatherDims.WF S100000x64 S1250000x1 S1250000x64 [1] [0] [] [0] [] 1 ![1, 64]

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf

class Facts : Prop extends Facts₀ where

variable [Facts]
-- ==== Proof.PreRange.lean ====
/-
  What the precondition says of the two endpoint arrays: every word of `src` and of `dst` is, read signed, at
  least 0 and below 100000 — so, read unsigned, it is below 100000 and names a row of the table.
-/
import proofs.«407063_j24352464569641_2_alg».proof.Pre_finite_inputs
import Idealize.ShloMosaic.Lib.ReduceAll
import Idealize.ShloMosaic.Lib.StableHlo.Predicate
import Idealize.ShloMosaic.Lib.ValueIdx

noncomputable section

namespace Cert.PreRange

open Idealize.ShloMosaic Cert.Pre_finite_inputs

variable [Cert.Pre_finite_inputs.Facts]
variable {F : FTy → Type} [FloatOps F]

/-- A 32-bit word that is, read signed, at least 0 and below 100000 has its top bit clear, so its unsigned value is its
    signed value and is below 100000. -/
theorem word_lt {a : BitVec 32} (h0 : IntOp.cmpi .sge a 0#32 = 1#1) (h1 : IntOp.cmpi .slt a 100000#32 = 1#1) :
    a.toNat < 100000 := by
  rw [IntOp.cmpi_sge, show (0#32 : BitVec 32).toInt = 0 from by decide] at h0
  rw [IntOp.cmpi_slt, show (100000#32 : BitVec 32).toInt = 100000 from by decide] at h1
  rw [BitVec.toInt_eq_toNat_cond] at h0 h1
  split at h0 <;> omega

/-- Under the precondition every source word is below 100000 read unsigned. -/
theorem src_lt (x0 : FVec F S100000x64 .f32) (x1 x2 : IVec S1250000 32)
    (h : Cert.Pre_finite_inputs.fn (F := F) x0 x1 x2 = fun _ => 1#1) (e : S1250000.Idx) : (x1 e).toNat < 100000 := by
  haveI : Subsingleton S_.Idx := ⟨fun a b => funext fun d => d.elim0⟩
  -- the scalar predicate read at its one index, its lets unfolded: (finite ∧ all src-range) ∧ all dst-range
  have h0 := congrFun h (fun d => d.elim0)
  dsimp only [fn, fn_part1] at h0
  obtain ⟨h10, _⟩ := IntOp.andi_eq_one.1 h0
  obtain ⟨_, h9⟩ := IntOp.andi_eq_one.1 h10
  -- the middle conjunct is an and-reduction over every position: read it at e, where it is (0 ≤ src e) ∧ (src e < 100000)
  have he := Host.reduce_andi_all _ _ _ _ _ h9 e
  obtain ⟨ha, hb⟩ := IntOp.andi_eq_one.1 he
  exact word_lt ha hb

/-- Under the precondition every destination word is below 100000 read unsigned. -/
theorem dst_lt (x0 : FVec F S100000x64 .f32) (x1 x2 : IVec S1250000 32)
    (h : Cert.Pre_finite_inputs.fn (F := F) x0 x1 x2 = fun _ => 1#1) (e : S1250000.Idx) : (x2 e).toNat < 100000 := by
  haveI : Subsingleton S_.Idx := ⟨fun a b => funext fun d => d.elim0⟩
  have h0 := congrFun h (fun d => d.elim0)
  dsimp only [fn, fn_part1] at h0
  -- the last conjunct is the and-reduction of (0 ≤ dst) ∧ (dst < 100000) over every position: read it at e
  obtain ⟨_, h16⟩ := IntOp.andi_eq_one.1 h0
  have he := Host.reduce_andi_all _ _ _ _ _ h16 e
  obtain ⟨ha, hb⟩ := IntOp.andi_eq_one.1 he
  exact word_lt ha hb

end Cert.PreRange

end
-- ==== Proof.Spec.lean ====
/-
  The edge score both programs compute, as one function of the node table and the two endpoint arrays.

  For edge `e` the score is the inner product of two rows of the table `h : [100000, 64]`: row `src e` and row
  `dst e`, summed over the 64 features. A word names its row by its unsigned value; `rowOf` is total (a word past
  the table's last row reads the last row), so the function is defined for every pair of endpoint arrays, and on
  words below 100000 it is the row the word spells.
-/
import Idealize.ShloMosaic.Lib.ValueIdx
import Idealize.ShloMosaic.PureOps.Ideal

noncomputable section

open scoped BigOperators

namespace Cert.DotSpec

open Idealize.ShloMosaic Idealize.ShloMosaic.ValueIdx

/-- The row of the 100000-row table a word names: its unsigned value, the last row for a word past the table. -/
def rowOf (w : BitVec 32) : Fin 100000 := ⟨min w.toNat 99999, by omega⟩

/-- On a word below 100000 the row is the word's value. -/
theorem rowOf_val (w : BitVec 32) (hw : w.toNat < 100000) : (rowOf w).val = w.toNat := by
  show min w.toNat 99999 = w.toNat
  omega

/-- The inner product of the rows `a` and `b` of the table over its 64 features. -/
def rowDot (h : (⟨2, ![100000, 64]⟩ : Shape).Idx → EReal) (a b : Fin 100000) : EReal :=
  ∑ k : Fin 64, h (ix2 a k) * h (ix2 b k)

/-- The score of every edge: the inner product of its two endpoints' rows. -/
def score (h : (⟨2, ![100000, 64]⟩ : Shape).Idx → EReal) (src dst : (⟨1, ![1250000]⟩ : Shape).Idx → BitVec 32) :
    (⟨1, ![1250000]⟩ : Shape).Idx → EReal :=
  fun e => rowDot h (rowOf (src e)) (rowOf (dst e))

end Cert.DotSpec

end
-- ==== Proof.RefSide.lean ====
/-
  The reference, read index by index at the exact instance: for endpoint words that name rows of the table, edge
  `e`'s result is the inner product of rows `src e` and `dst e` (`Cert.DotSpec.score`).
-/
import proofs.«407063_j24352464569641_2_alg».proof.Proof.Gen.ReferenceIdeal.Read
import proofs.«407063_j24352464569641_2_alg».proof.Proof.Spec
import Idealize.ShloMosaic.Lib.ValueIdx
import Idealize.ShloMosaic.PureOps.Ideal.Laws

noncomputable section

namespace Cert.RefSide

open Idealize.ShloMosaic Idealize.ShloMosaic.ValueIdx Cert.ReferenceIdeal Cert.ReferenceIdeal.Gen Cert.ReferenceIdeal.Read

/-- The row gather read at `(i, k)`: the table at the row the start index `idx[i, 0]` names, read signed and clamped
    into `[0, 99999]`, and at feature `k`. Operand axis 0 is collapsed and named by the start index map, so its
    coordinate is the clamped start; operand axis 1 is the offset axis, so its coordinate is the result's own. -/
theorem gather_row {α : Type} (x : S100000x64.Idx → α) (idx : IVec S1250000x1 32) (i : Fin 1250000) (k : Fin 64) :
    Host.gather gather_S100000x64_S1250000x1_S1250000x64_1_0_n_n_0_1_164 x idx (ix2 i k)
      = x (ix2 (⟨min (idx (ix2 i (0 : Fin 1))).toInt.toNat 99999, by omega⟩ : Fin 100000) k) := by
  unfold Host.gather
  congr 1
  funext a
  refine Fin.ext ?_
  show gather_S100000x64_S1250000x1_S1250000x64_1_0_n_n_0_1_164.start (ix2 i k) idx a
      + gather_S100000x64_S1250000x1_S1250000x64_1_0_n_n_0_1_164.batchCoord (ix2 i k) a
      + gather_S100000x64_S1250000x1_S1250000x64_1_0_n_n_0_1_164.offCoord (ix2 i k) a = _
  rw [GatherDims.batchCoord_eq_zero _ _ _ List.not_mem_nil]
  match a with
  | ⟨0, h0⟩ =>
    -- axis 0: collapsed (no offset coordinate) and in the start index map (the clamped start index)
    have hmem : (⟨0, h0⟩ : Fin S100000x64.rank) ∈
        gather_S100000x64_S1250000x1_S1250000x64_1_0_n_n_0_1_164.startIndexMap := List.mem_singleton.mpr rfl
    rw [GatherDims.offCoord_eq_zero _ _ _
      (fun h => ((GatherDims.mem_sKept _ _).mp h).1 (List.mem_singleton.mpr rfl))]
    simp only [Nat.add_zero]
    unfold GatherDims.start
    rw [dif_pos hmem]
    have hsi : gather_S100000x64_S1250000x1_S1250000x64_1_0_n_n_0_1_164.siIdx (ix2 i k)
        ⟨List.idxOf (⟨0, h0⟩ : Fin S100000x64.rank)
            gather_S100000x64_S1250000x1_S1250000x64_1_0_n_n_0_1_164.startIndexMap,
          List.idxOf_lt_length_iff.2 hmem⟩ = ix2 i (0 : Fin 1) := by
      funext b; refine Fin.ext ?_
      match b with
      | ⟨0, _⟩ => rfl
      | ⟨1, _⟩ => rfl
    rw [hsi]
    rfl
  | ⟨1, h1⟩ =>
    -- axis 1: not in the start index map (start 0), kept, and read by the result's offset axis 1
    have hnot : (⟨1, h1⟩ : Fin S100000x64.rank) ∉
        gather_S100000x64_S1250000x1_S1250000x64_1_0_n_n_0_1_164.startIndexMap :=
      fun h => Nat.one_ne_zero (congrArg Fin.val (List.mem_singleton.mp h))
    have hkept : (⟨1, h1⟩ : Fin S100000x64.rank) ∈
        gather_S100000x64_S1250000x1_S1250000x64_1_0_n_n_0_1_164.sKept :=
      (GatherDims.mem_sKept _ _).mpr
        ⟨fun h => Nat.one_ne_zero (congrArg Fin.val (List.mem_singleton.mp h)), List.not_mem_nil⟩
    unfold GatherDims.start GatherDims.offCoord
    rw [dif_neg hnot, dif_pos hkept]
    simp only [Nat.add_zero, Nat.zero_add]
    rfl

/-- A word below 100000 is its unsigned value read signed (it is below `2 ^ 31`). -/
theorem toInt_of_lt (w : BitVec 32) (hw : w.toNat < 100000) : w.toInt = (w.toNat : Int) :=
  BitVec.toInt_eq_toNat_of_lt (by omega)

/-- A word below 100000 is not negative read signed: the signed comparison with 0 gives the bit 0. -/
theorem cmpi_slt_zero_of_lt (w : BitVec 32) (hw : w.toNat < 100000) : IntOp.cmpi .slt w 0#32 = 0#1 := by
  have hs : w.slt 0#32 = false := by
    rw [BitVec.slt_eq_decide, BitVec.toInt_zero, toInt_of_lt w hw]
    exact decide_eq_false (by omega)
  show BitVec.ofBool (w.slt 0#32) = 0#1
  rw [hs]
  rfl

/-- The clamped signed reading of a word below 100000 is the row the word names. -/
theorem clamp_eq_rowOf (w : BitVec 32) (hw : w.toNat < 100000) :
    min w.toInt.toNat 99999 = (Cert.DotSpec.rowOf w).val := by
  show min w.toInt.toNat 99999 = min w.toNat 99999
  rw [toInt_of_lt w hw, Int.toNat_natCast]

/-- The source start index of edge `i`: the wrap of a negative index is not taken on a word below 100000, so the
    start index is the word itself. -/
theorem val_main_v5_word (x1 : (⟨S1250000, .i32⟩ : BufTy).Contents (Elt Ideal)) (i : Fin 1250000)
    (h : (x1 (ix1 i)).toNat < 100000) : val_main_v5 (F := Ideal) x1 (ix2 i (0 : Fin 1)) = x1 (ix1 i) := by
  have hidx : idx_main_v5 (ix2 i (0 : Fin 1)) = ix1 i := by
    funext a; refine Fin.ext ?_
    match a with
    | ⟨0, _⟩ => rfl
  rw [val_main_v5_apply, hidx, val_main_v4_apply, val_main_v1_apply, val_main_v0_apply, val_main_c_apply,
    cmpi_slt_zero_of_lt _ h, select_zero]

/-- The destination start index of edge `i`, likewise the word itself. -/
theorem val_main_v12_word (x2 : (⟨S1250000, .i32⟩ : BufTy).Contents (Elt Ideal)) (i : Fin 1250000)
    (h : (x2 (ix1 i)).toNat < 100000) : val_main_v12 (F := Ideal) x2 (ix2 i (0 : Fin 1)) = x2 (ix1 i) := by
  have hidx : idx_main_v12 (ix2 i (0 : Fin 1)) = ix1 i := by
    funext a; refine Fin.ext ?_
    match a with
    | ⟨0, _⟩ => rfl
  rw [val_main_v12_apply, hidx, val_main_v11_apply, val_main_v8_apply, val_main_v7_apply, val_main_c_1_apply,
    cmpi_slt_zero_of_lt _ h, select_zero]

/-- The first gather at `(i, k)`: feature `k` of the row the source word of edge `i` names. -/
theorem val_main_v6_at (x0 : (⟨S100000x64, .f32⟩ : BufTy).Contents (Elt Ideal))
    (x1 : (⟨S1250000, .i32⟩ : BufTy).Contents (Elt Ideal)) (i : Fin 1250000) (k : Fin 64)
    (h : (x1 (ix1 i)).toNat < 100000) :
    val_main_v6 (F := Ideal) x0 x1 (ix2 i k) = x0 (ix2 (Cert.DotSpec.rowOf (x1 (ix1 i))) k) := by
  unfold val_main_v6
  rw [gather_row]
  refine congrArg (fun r => x0 (ix2 r k)) (Fin.ext ?_)
  show min (val_main_v5 (F := Ideal) x1 (ix2 i (0 : Fin 1))).toInt.toNat 99999 = _
  rw [val_main_v5_word x1 i h]
  exact clamp_eq_rowOf _ h

/-- The second gather at `(i, k)`: feature `k` of the row the destination word of edge `i` names. -/
theorem val_main_v13_at (x0 : (⟨S100000x64, .f32⟩ : BufTy).Contents (Elt Ideal))
    (x2 : (⟨S1250000, .i32⟩ : BufTy).Contents (Elt Ideal)) (i : Fin 1250000) (k : Fin 64)
    (h : (x2 (ix1 i)).toNat < 100000) :
    val_main_v13 (F := Ideal) x0 x2 (ix2 i k) = x0 (ix2 (Cert.DotSpec.rowOf (x2 (ix1 i))) k) := by
  unfold val_main_v13
  rw [gather_row]
  refine congrArg (fun r => x0 (ix2 r k)) (Fin.ext ?_)
  show min (val_main_v12 (F := Ideal) x2 (ix2 i (0 : Fin 1))).toInt.toNat 99999 = _
  rw [val_main_v12_word x2 i h]
  exact clamp_eq_rowOf _ h

/-- The reference's result array is the score array, when every endpoint word is below 100000. -/
theorem ref_score (x0 : (⟨S100000x64, .f32⟩ : BufTy).Contents (Elt Ideal))
    (x1 x2 : (⟨S1250000, .i32⟩ : BufTy).Contents (Elt Ideal))
    (h1 : ∀ e, (x1 e).toNat < 100000) (h2 : ∀ e, (x2 e).toNat < 100000) :
    val_main_v15 (F := Ideal) x0 x1 x2 = Cert.DotSpec.score x0 x1 x2 := by
  funext e
  obtain ⟨i, rfl⟩ : ∃ i, e = ix1 i := ⟨e 0, eq_ix1 e⟩
  -- the sum over the 64 features, from the initial value 0
  rw [val_main_v15_apply, val_main_cst_apply]
  show Ideal.ofBits .f32 0x00000000#32 + _ = _
  rw [Ideal.ofBits_zero_f32, zero_add]
  show _ = ∑ k : Fin 64, x0 (ix2 (Cert.DotSpec.rowOf (x1 (ix1 i))) k) * x0 (ix2 (Cert.DotSpec.rowOf (x2 (ix1 i))) k)
  refine Finset.sum_congr rfl fun k _ => ?_
  -- one term: the product of the two gathered elements
  have hidx : idx_main_v15 (ix1 i) k = ix2 i k := by
    funext a; refine Fin.ext ?_
    match a with
    | ⟨0, _⟩ => rfl
    | ⟨1, _⟩ => rfl
  rw [hidx, val_main_v14_apply, val_main_v6_at x0 x1 i k (h1 _), val_main_v13_at x0 x2 i k (h2 _)]
  rfl

end Cert.RefSide

end
-- ==== Proof.Blocks.lean ====
/-
  What the kernel region finds in its three input windows. The two endpoint arrays reach the region padded with
  zeros from 1250000 to 1253376 words (153 tiles of 8192); tile `t` of a padded array is its words
  `8192 t … 8192 t + 8191`; the table is fetched whole at every point. A scalar load of one word of a staged tile at
  offset `p` reads the tile's word `p`.
-/
import proofs.«407063_j24352464569641_2_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- An endpoint array padded with zero words to 1253376 words. -/
def padded (x : S1250000.Idx → BitVec 32) : S1253376.Idx → BitVec 32 :=
  fun p => if h : (p 0).val < 1250000 then x (ix1 ⟨(p 0).val, h⟩) else 0#32

/-- Padding with the zero scalar, nothing below, 3376 words above and no interior padding is `padded`: an index
    below 1250000 reads the operand's word there, any other the zero. -/
theorem pad_eq_padded (x : S1250000.Idx → BitVec 32) :
    pad S1253376 ![0] ![3376] ![0] x (constantI S_ 32 0#32) pads_S1250000_S1253376_033760 h_S_ = padded x := by
  funext p
  unfold pad padded
  by_cases h : (p 0).val < 1250000
  · rw [dif_pos h, dif_pos]
    · congr 1
      funext a
      apply Fin.ext
      fin_cases a
      show ((p 0).val - 0) / (0 + 1) = (p 0).val
      omega
    · intro a
      fin_cases a
      show 0 ≤ (p 0).val ∧ ((p 0).val - 0) % (0 + 1) = 0 ∧ ((p 0).val - 0) / (0 + 1) < 1250000
      omega
  · rw [dif_neg h, dif_neg]
    · rfl
    · intro hin
      have e : ((p 0).val - 0) / (0 + 1) < 1250000 := (hin 0).2.2
      omega

/-- The source endpoints as the region finds them: the argument padded with zeros. -/
theorem V_main_v0 (c : Dev nD) : (V m c main_v0 : S1253376.Idx → BitVec 32) = padded (m ((c : Thread nD τ).loc main_arg1)) := by
  dsimp only [Gen.V, Gen.V0]
  simp only [Gen.hostOps0, Gen.hostOps0_1, Gen.hostOps0_2, Gen.hostOps0_3, List.flatten_cons, List.flatten_nil, List.append_nil, List.cons_append, List.nil_append]
  open StableHlo in after_results
  exact pad_eq_padded _

/-- The destination endpoints as the region finds them: the argument padded with zeros. -/
theorem V_main_v1 (c : Dev nD) : (V m c main_v1 : S1253376.Idx → BitVec 32) = padded (m ((c : Thread nD τ).loc main_arg2)) := by
  dsimp only [Gen.V, Gen.V0]
  simp only [Gen.hostOps0, Gen.hostOps0_1, Gen.hostOps0_2, Gen.hostOps0_3, List.flatten_cons, List.flatten_nil, List.append_nil, List.cons_append, List.nil_append]
  open StableHlo in after_results
  exact pad_eq_padded _

/-- The table's block at point `t`, over its literal type. -/
abbrev tblBlk (c : Dev nD) (t : Fin cfg0.N) : Vec F S100000x64 .f32 := iblk m c 0 t
/-- The source tile at point `t`, over its literal type. -/
abbrev srcBlk (c : Dev nD) (t : Fin cfg0.N) : Vec F S8192 .i32 := iblk m c 1 t
/-- The destination tile at point `t`, over its literal type. -/
abbrev dstBlk (c : Dev nD) (t : Fin cfg0.N) : Vec F S8192 .i32 := iblk m c 2 t

/-- Point `t`'s tile reaches no further than the padded array: `8192 t + p < 1253376`. -/
theorem tile_lt (t : Fin cfg0.N) (p : Fin 8192) : 8192 * t.val + p.val < 1253376 := by
  have := t.isLt
  have hN : cfg0.N = 153 := N_0
  omega

/-- The table's block index is zero on both axes at every point. -/
theorem index0 : ∀ (t : Fin grid0.N) (a : Fin 2), win0_0.index t a = 0 := by decide +kernel
/-- The source window's block index at point `t` is `t`. -/
theorem index1 : ∀ t : Fin grid0.N, win0_1.index t (0 : Fin 1) = t.val := by decide +kernel
/-- The destination window's block index at point `t` is `t`. -/
theorem index2 : ∀ t : Fin grid0.N, win0_2.index t (0 : Fin 1) = t.val := by decide +kernel

/-- The table is fetched whole: its block at any point is the argument. -/
theorem tblBlk_eq (c : Dev nD) (t : Fin cfg0.N) : tblBlk m c t = m ((c : Thread nD τ).loc main_arg0) := by
  funext x
  show iblk m c 0 t x = _
  unfold iblk
  rw [View.read_apply]
  simp only [cast_eq]
  show V m c main_arg0 _ = m (c.tc.loc main_arg0) x
  rw [V_main_arg0]
  congr 1
  funext a
  apply Fin.ext
  show win0_0.index t a * S100000x64.size a + 1 * (x a).val = (x a).val
  rw [index0 t a]; omega

/-- Word `p` of the source tile at point `t` is word `8192 t + p` of the padded source array. -/
theorem srcBlk_apply (c : Dev nD) (t : Fin cfg0.N) (p : Fin 8192) :
    srcBlk m c t (ix1 p) = padded (m ((c : Thread nD τ).loc main_arg1)) (ix1 ⟨8192 * t.val + p.val, tile_lt t p⟩) := by
  show iblk m c 1 t (ix1 p) = _
  unfold iblk
  rw [View.read_apply]
  simp only [cast_eq]
  show V m c main_v0 _ = _
  rw [V_main_v0]
  congr 1
  funext a
  apply Fin.ext
  fin_cases a
  show win0_1.index t 0 * 8192 + 1 * p.val = 8192 * t.val + p.val
  rw [index1 t]; omega

/-- Word `p` of the destination tile at point `t` is word `8192 t + p` of the padded destination array. -/
theorem dstBlk_apply (c : Dev nD) (t : Fin cfg0.N) (p : Fin 8192) :
    dstBlk m c t (ix1 p) = padded (m ((c : Thread nD τ).loc main_arg2)) (ix1 ⟨8192 * t.val + p.val, tile_lt t p⟩) := by
  show iblk m c 2 t (ix1 p) = _
  unfold iblk
  rw [View.read_apply]
  simp only [cast_eq]
  show V m c main_v1 _ = _
  rw [V_main_v1]
  congr 1
  funext a
  apply Fin.ext
  fin_cases a
  show win0_2.index t 0 * 8192 + 1 * p.val = 8192 * t.val + p.val
  rw [index2 t]; omega

/-- A one-word load of a whole staging memref holding the tile `x`, at offset `off`, reads `x`'s word `off 0`. -/
theorem word_load (M : Memref sig .tc .smem S8192 .i32) (hM : M.IsWhole) (x : Vec F S8192 .i32)
    (off : Fin 1 → Nat) (inb : ∀ a, off a + S1.size a ≤ S8192.size a) (h1 : 0 < S1.numel) :
    M.view.readAt (Elt F) (Rect.unit (s := S8192) off S1.size inb).toLoadRect (hM.unread x) (Shape.Idx.first h1)
      = x (ix1 ⟨off 0, by have := inb 0; simp [S1, S8192] at this; omega⟩) := by
  rw [View.readAt_eq_ld, Memref.IsWhole.read_unread]
  show x _ = x _
  congr 1
  funext a
  apply Fin.ext
  fin_cases a
  show off 0 + 1 * (Shape.Idx.first h1 (0 : Fin 1)).val = off 0
  have h0 : (Shape.Idx.first h1 (0 : Fin 1)).val = 0 := by
    have hlt := (Shape.Idx.first h1 (0 : Fin 1)).isLt
    have e : S1.size (0 : Fin 1) = 1 := by decide
    omega
  omega

/-- A padded endpoint array's words are below 100000 when the argument's are. -/
theorem padded_lt (x : S1250000.Idx → BitVec 32) (hx : ∀ e, (x e).toNat < 100000) (p : S1253376.Idx) :
    (padded x p).toNat < 100000 := by
  unfold padded
  split
  · exact hx _
  · decide

end Cert.KernelIdeal.Blocks

end
-- ==== Proof.HypsIdeal.lean ====
/-
  The side conditions the kernel body assumes hold when every endpoint word names a row of the table: each of the
  256 loads of a table row per loop trip (128 edges, two endpoints each) takes its row number from a word of the staged
  source or destination tile, and the row must lie inside the 100000-row table. A tile's words are words of the
  zero-padded endpoint arrays, all below 100000.
-/
import proofs.«407063_j24352464569641_2_alg».proof.Proof.Blocks

set_option maxRecDepth 16384

noncomputable section

namespace Cert.KernelIdeal.HypsOfRange

open Cert.KernelIdeal Cert.KernelIdeal.Gen Cert.KernelIdeal.Blocks
open Idealize.ShloMosaic Idealize.ShloMosaic.TcCoe Idealize.ShloMosaic.ValueIdx Idealize.SL.Sem

variable {F : FTy → Type} [FloatOps F]
variable (m : (ℓ : Loc nD τ sig) → Buf (Elt F) ℓ)

/-- A row load at the row a word below 100000 names lies inside the table. -/
theorem row_inb (w : BitVec 32) (hw : w.toNat < 100000) :
    ∀ a, (![(Scalar.indexCast w).toNat, 0] : Fin 2 → Nat) a + S1x64.size a ≤ S100000x64.size a := by
  intro a
  -- the cast to an index keeps the word
  have e : (Scalar.indexCast w).toNat = w.toNat := rfl
  match a with
  | ⟨0, _⟩ =>
    -- rows: one row starting at row `w`, of 100000
    show (Scalar.indexCast w).toNat + 1 ≤ 100000
    omega
  | ⟨1, _⟩ =>
    -- columns: the whole row, 64 of 64
    show 0 + 64 ≤ 64
    omega

/-- Any word of a staged source tile is below 100000: whatever the offset, it is a word of the zero-padded source
    array. -/
theorem src_word_lt
    (h1 : ∀ (c : Dev nD) (e : S1250000.Idx), (m ((c : Thread nD τ).loc main_arg1) e).toNat < 100000)
    (c : Dev nD) (t : Fin cfg0.N) (off : Fin 1 → Nat) (inb : ∀ a, off a + S1.size a ≤ S8192.size a)
    (hpos : 0 < S1.numel) :
    (((ms0_1 t).view.readAt (Elt F) (Rect.unit (s := S8192) off S1.size inb).toLoadRect
        ((hs0_1 t).unread (iblk m c 1 t)) (Shape.Idx.first hpos) : BitVec 32)).toNat < 100000 := by
  show (((ms0_1 t).view.readAt (Elt F) (Rect.unit (s := S8192) off S1.size inb).toLoadRect
        ((hs0_1 t).unread (srcBlk m c t)) (Shape.Idx.first hpos) : BitVec 32)).toNat < 100000
  rw [word_load (ms0_1 t) (hs0_1 t) (srcBlk m c t) off inb hpos, srcBlk_apply]
  exact padded_lt _ (h1 c) _

/-- Any word of a staged destination tile is below 100000: whatever the offset, it is a word of the zero-padded
    destination array. -/
theorem dst_word_lt
    (h2 : ∀ (c : Dev nD) (e : S1250000.Idx), (m ((c : Thread nD τ).loc main_arg2) e).toNat < 100000)
    (c : Dev nD) (t : Fin cfg0.N) (off : Fin 1 → Nat) (inb : ∀ a, off a + S1.size a ≤ S8192.size a)
    (hpos : 0 < S1.numel) :
    (((ms0_2 t).view.readAt (Elt F) (Rect.unit (s := S8192) off S1.size inb).toLoadRect
        ((hs0_2 t).unread (iblk m c 2 t)) (Shape.Idx.first hpos) : BitVec 32)).toNat < 100000 := by
  show (((ms0_2 t).view.readAt (Elt F) (Rect.unit (s := S8192) off S1.size inb).toLoadRect
        ((hs0_2 t).unread (dstBlk m c t)) (Shape.Idx.first hpos) : BitVec 32)).toNat < 100000
  rw [word_load (ms0_2 t) (hs0_2 t) (dstBlk m c t) off inb hpos, dstBlk_apply]
  exact padded_lt _ (h2 c) _

/-- The body's side conditions, from the range of the endpoint words. The 256 conditions alternate: an even one is
    the row check of a word of the source tile, the next odd one the row check of the word of the destination tile at
    the same offset. Each check unfolds to the statement of `row_inb` at that word, and the word is below 100000 at
    every offset, so no offset is ever computed. -/
theorem hyps_of_range
    (h1 : ∀ (c : Dev nD) (e : S1250000.Idx), (m ((c : Thread nD τ).loc main_arg1) e).toNat < 100000)
    (h2 : ∀ (c : Dev nD) (e : S1250000.Idx), (m ((c : Thread nD τ).loc main_arg2) e).toNat < 100000) :
    Hyps m := by
  -- the row check at a source word, at any point and offset
  have hs := fun (c : Dev nD) (t : Fin cfg0.N) (off : Fin 1 → Nat) (inb : ∀ a, off a + S1.size a ≤ S8192.size a)
      (hpos : 0 < S1.numel) => row_inb _ (src_word_lt m h1 c t off inb hpos)
  -- the row check at a destination word, at any point and offset
  have hd := fun (c : Dev nD) (t : Fin cfg0.N) (off : Fin 1 → Nat) (inb : ∀ a, off a + S1.size a ≤ S8192.size a)
      (hpos : 0 < S1.numel) => row_inb _ (dst_word_lt m h2 c t off inb hpos)
  exact Hyps.of
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)

end Cert.KernelIdeal.HypsOfRange

end
-- ==== Proof.BlocksBits.lean ====
/-
  What the kernel region finds in its three input windows. The two endpoint arrays reach the region padded with
  zeros from 1250000 to 1253376 words (153 tiles of 8192); tile `t` of a padded array is its words
  `8192 t … 8192 t + 8191`; the table is fetched whole at every point. A scalar load of one word of a staged tile at
  offset `p` reads the tile's word `p`.
-/
import proofs.«407063_j24352464569641_2_alg».proof.Proof.Gen.Kernel.Frame
import Idealize.ShloMosaic.Lib.ValueIdx
import Idealize.ShloMosaic.Lib.Pipeline.Value
import Idealize.ShloMosaic.Lib.StableHlo.Run

set_option maxRecDepth 16384

noncomputable section

namespace Cert.Kernel.Blocks

open Cert.Kernel Cert.Kernel.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- An endpoint array padded with zero words to 1253376 words. -/
def padded (x : S1250000.Idx → BitVec 32) : S1253376.Idx → BitVec 32 :=
  fun p => if h : (p 0).val < 1250000 then x (ix1 ⟨(p 0).val, h⟩) else 0#32

/-- Padding with the zero scalar, nothing below, 3376 words above and no interior padding is `padded`: an index
    below 1250000 reads the operand's word there, any other the zero. -/
theorem pad_eq_padded (x : S1250000.Idx → BitVec 32) :
    pad S1253376 ![0] ![3376] ![0] x (constantI S_ 32 0#32) pads_S1250000_S1253376_033760 h_S_ = padded x := by
  funext p
  unfold pad padded
  by_cases h : (p 0).val < 1250000
  · rw [dif_pos h, dif_pos]
    · congr 1
      funext a
      apply Fin.ext
      fin_cases a
      show ((p 0).val - 0) / (0 + 1) = (p 0).val
      omega
    · intro a
      fin_cases a
      show 0 ≤ (p 0).val ∧ ((p 0).val - 0) % (0 + 1) = 0 ∧ ((p 0).val - 0) / (0 + 1) < 1250000
      omega
  · rw [dif_neg h, dif_neg]
    · rfl
    · intro hin
      have e : ((p 0).val - 0) / (0 + 1) < 1250000 := (hin 0).2.2
      omega

/-- The source endpoints as the region finds them: the argument padded with zeros. -/
theorem V_main_v0 (c : Dev nD) : (V m c main_v0 : S1253376.Idx → BitVec 32) = padded (m ((c : Thread nD τ).loc main_arg1)) := by
  dsimp only [Gen.V, Gen.V0]
  simp only [Gen.hostOps0, Gen.hostOps0_1, Gen.hostOps0_2, Gen.hostOps0_3, List.flatten_cons, List.flatten_nil, List.append_nil, List.cons_append, List.nil_append]
  open StableHlo in after_results
  exact pad_eq_padded _

/-- The destination endpoints as the region finds them: the argument padded with zeros. -/
theorem V_main_v1 (c : Dev nD) : (V m c main_v1 : S1253376.Idx → BitVec 32) = padded (m ((c : Thread nD τ).loc main_arg2)) := by
  dsimp only [Gen.V, Gen.V0]
  simp only [Gen.hostOps0, Gen.hostOps0_1, Gen.hostOps0_2, Gen.hostOps0_3, List.flatten_cons, List.flatten_nil, List.append_nil, List.cons_append, List.nil_append]
  open StableHlo in after_results
  exact pad_eq_padded _

/-- The table's block at point `t`, over its literal type. -/
abbrev tblBlk (c : Dev nD) (t : Fin cfg0.N) : Vec F S100000x64 .f32 := iblk m c 0 t
/-- The source tile at point `t`, over its literal type. -/
abbrev srcBlk (c : Dev nD) (t : Fin cfg0.N) : Vec F S8192 .i32 := iblk m c 1 t
/-- The destination tile at point `t`, over its literal type. -/
abbrev dstBlk (c : Dev nD) (t : Fin cfg0.N) : Vec F S8192 .i32 := iblk m c 2 t

/-- Point `t`'s tile reaches no further than the padded array: `8192 t + p < 1253376`. -/
theorem tile_lt (t : Fin cfg0.N) (p : Fin 8192) : 8192 * t.val + p.val < 1253376 := by
  have := t.isLt
  have hN : cfg0.N = 153 := N_0
  omega

/-- The table's block index is zero on both axes at every point. -/
theorem index0 : ∀ (t : Fin grid0.N) (a : Fin 2), win0_0.index t a = 0 := by decide +kernel
/-- The source window's block index at point `t` is `t`. -/
theorem index1 : ∀ t : Fin grid0.N, win0_1.index t (0 : Fin 1) = t.val := by decide +kernel
/-- The destination window's block index at point `t` is `t`. -/
theorem index2 : ∀ t : Fin grid0.N, win0_2.index t (0 : Fin 1) = t.val := by decide +kernel

/-- The table is fetched whole: its block at any point is the argument. -/
theorem tblBlk_eq (c : Dev nD) (t : Fin cfg0.N) : tblBlk m c t = m ((c : Thread nD τ).loc main_arg0) := by
  funext x
  show iblk m c 0 t x = _
  unfold iblk
  rw [View.read_apply]
  simp only [cast_eq]
  show V m c main_arg0 _ = m (c.tc.loc main_arg0) x
  rw [V_main_arg0]
  congr 1
  funext a
  apply Fin.ext
  show win0_0.index t a * S100000x64.size a + 1 * (x a).val = (x a).val
  rw [index0 t a]; omega

/-- Word `p` of the source tile at point `t` is word `8192 t + p` of the padded source array. -/
theorem srcBlk_apply (c : Dev nD) (t : Fin cfg0.N) (p : Fin 8192) :
    srcBlk m c t (ix1 p) = padded (m ((c : Thread nD τ).loc main_arg1)) (ix1 ⟨8192 * t.val + p.val, tile_lt t p⟩) := by
  show iblk m c 1 t (ix1 p) = _
  unfold iblk
  rw [View.read_apply]
  simp only [cast_eq]
  show V m c main_v0 _ = _
  rw [V_main_v0]
  congr 1
  funext a
  apply Fin.ext
  fin_cases a
  show win0_1.index t 0 * 8192 + 1 * p.val = 8192 * t.val + p.val
  rw [index1 t]; omega

/-- Word `p` of the destination tile at point `t` is word `8192 t + p` of the padded destination array. -/
theorem dstBlk_apply (c : Dev nD) (t : Fin cfg0.N) (p : Fin 8192) :
    dstBlk m c t (ix1 p) = padded (m ((c : Thread nD τ).loc main_arg2)) (ix1 ⟨8192 * t.val + p.val, tile_lt t p⟩) := by
  show iblk m c 2 t (ix1 p) = _
  unfold iblk
  rw [View.read_apply]
  simp only [cast_eq]
  show V m c main_v1 _ = _
  rw [V_main_v1]
  congr 1
  funext a
  apply Fin.ext
  fin_cases a
  show win0_2.index t 0 * 8192 + 1 * p.val = 8192 * t.val + p.val
  rw [index2 t]; omega

/-- A one-word load of a whole staging memref holding the tile `x`, at offset `off`, reads `x`'s word `off 0`. -/
theorem word_load (M : Memref sig .tc .smem S8192 .i32) (hM : M.IsWhole) (x : Vec F S8192 .i32)
    (off : Fin 1 → Nat) (inb : ∀ a, off a + S1.size a ≤ S8192.size a) (h1 : 0 < S1.numel) :
    M.view.readAt (Elt F) (Rect.unit (s := S8192) off S1.size inb).toLoadRect (hM.unread x) (Shape.Idx.first h1)
      = x (ix1 ⟨off 0, by have := inb 0; simp [S1, S8192] at this; omega⟩) := by
  rw [View.readAt_eq_ld, Memref.IsWhole.read_unread]
  show x _ = x _
  congr 1
  funext a
  apply Fin.ext
  fin_cases a
  show off 0 + 1 * (Shape.Idx.first h1 (0 : Fin 1)).val = off 0
  have h0 : (Shape.Idx.first h1 (0 : Fin 1)).val = 0 := by
    have hlt := (Shape.Idx.first h1 (0 : Fin 1)).isLt
    have e : S1.size (0 : Fin 1) = 1 := by decide
    omega
  omega

/-- A padded endpoint array's words are below 100000 when the argument's are. -/
theorem padded_lt (x : S1250000.Idx → BitVec 32) (hx : ∀ e, (x e).toNat < 100000) (p : S1253376.Idx) :
    (padded x p).toNat < 100000 := by
  unfold padded
  split
  · exact hx _
  · decide

end Cert.Kernel.Blocks

end
-- ==== Proof.HypsBits.lean ====
/-
  The side conditions the kernel body assumes hold when every endpoint word names a row of the table: each of the
  256 loads of a table row per loop trip (128 edges, two endpoints each) takes its row number from a word of the staged
  source or destination tile, and the row must lie inside the 100000-row table. A tile's words are words of the
  zero-padded endpoint arrays, all below 100000.
-/
import proofs.«407063_j24352464569641_2_alg».proof.Proof.BlocksBits

set_option maxRecDepth 16384

noncomputable section

namespace Cert.Kernel.HypsOfRange

open Cert.Kernel Cert.Kernel.Gen Cert.Kernel.Blocks
open Idealize.ShloMosaic Idealize.ShloMosaic.TcCoe Idealize.ShloMosaic.ValueIdx Idealize.SL.Sem

variable {F : FTy → Type} [FloatOps F]
variable (m : (ℓ : Loc nD τ sig) → Buf (Elt F) ℓ)

/-- A row load at the row a word below 100000 names lies inside the table. -/
theorem row_inb (w : BitVec 32) (hw : w.toNat < 100000) :
    ∀ a, (![(Scalar.indexCast w).toNat, 0] : Fin 2 → Nat) a + S1x64.size a ≤ S100000x64.size a := by
  intro a
  -- the cast to an index keeps the word
  have e : (Scalar.indexCast w).toNat = w.toNat := rfl
  match a with
  | ⟨0, _⟩ =>
    -- rows: one row starting at row `w`, of 100000
    show (Scalar.indexCast w).toNat + 1 ≤ 100000
    omega
  | ⟨1, _⟩ =>
    -- columns: the whole row, 64 of 64
    show 0 + 64 ≤ 64
    omega

/-- Any word of a staged source tile is below 100000: whatever the offset, it is a word of the zero-padded source
    array. -/
theorem src_word_lt
    (h1 : ∀ (c : Dev nD) (e : S1250000.Idx), (m ((c : Thread nD τ).loc main_arg1) e).toNat < 100000)
    (c : Dev nD) (t : Fin cfg0.N) (off : Fin 1 → Nat) (inb : ∀ a, off a + S1.size a ≤ S8192.size a)
    (hpos : 0 < S1.numel) :
    (((ms0_1 t).view.readAt (Elt F) (Rect.unit (s := S8192) off S1.size inb).toLoadRect
        ((hs0_1 t).unread (iblk m c 1 t)) (Shape.Idx.first hpos) : BitVec 32)).toNat < 100000 := by
  show (((ms0_1 t).view.readAt (Elt F) (Rect.unit (s := S8192) off S1.size inb).toLoadRect
        ((hs0_1 t).unread (srcBlk m c t)) (Shape.Idx.first hpos) : BitVec 32)).toNat < 100000
  rw [word_load (ms0_1 t) (hs0_1 t) (srcBlk m c t) off inb hpos, srcBlk_apply]
  exact padded_lt _ (h1 c) _

/-- Any word of a staged destination tile is below 100000: whatever the offset, it is a word of the zero-padded
    destination array. -/
theorem dst_word_lt
    (h2 : ∀ (c : Dev nD) (e : S1250000.Idx), (m ((c : Thread nD τ).loc main_arg2) e).toNat < 100000)
    (c : Dev nD) (t : Fin cfg0.N) (off : Fin 1 → Nat) (inb : ∀ a, off a + S1.size a ≤ S8192.size a)
    (hpos : 0 < S1.numel) :
    (((ms0_2 t).view.readAt (Elt F) (Rect.unit (s := S8192) off S1.size inb).toLoadRect
        ((hs0_2 t).unread (iblk m c 2 t)) (Shape.Idx.first hpos) : BitVec 32)).toNat < 100000 := by
  show (((ms0_2 t).view.readAt (Elt F) (Rect.unit (s := S8192) off S1.size inb).toLoadRect
        ((hs0_2 t).unread (dstBlk m c t)) (Shape.Idx.first hpos) : BitVec 32)).toNat < 100000
  rw [word_load (ms0_2 t) (hs0_2 t) (dstBlk m c t) off inb hpos, dstBlk_apply]
  exact padded_lt _ (h2 c) _

/-- The body's side conditions, from the range of the endpoint words. The 256 conditions alternate: an even one is
    the row check of a word of the source tile, the next odd one the row check of the word of the destination tile at
    the same offset. Each check unfolds to the statement of `row_inb` at that word, and the word is below 100000 at
    every offset, so no offset is ever computed. -/
theorem hyps_of_range
    (h1 : ∀ (c : Dev nD) (e : S1250000.Idx), (m ((c : Thread nD τ).loc main_arg1) e).toNat < 100000)
    (h2 : ∀ (c : Dev nD) (e : S1250000.Idx), (m ((c : Thread nD τ).loc main_arg2) e).toNat < 100000) :
    Hyps m := by
  -- the row check at a source word, at any point and offset
  have hs := fun (c : Dev nD) (t : Fin cfg0.N) (off : Fin 1 → Nat) (inb : ∀ a, off a + S1.size a ≤ S8192.size a)
      (hpos : 0 < S1.numel) => row_inb _ (src_word_lt m h1 c t off inb hpos)
  -- the row check at a destination word, at any point and offset
  have hd := fun (c : Dev nD) (t : Fin cfg0.N) (off : Fin 1 → Nat) (inb : ∀ a, off a + S1.size a ≤ S8192.size a)
      (hpos : 0 < S1.numel) => row_inb _ (dst_word_lt m h2 c t off inb hpos)
  exact Hyps.of
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)
    (fun c t kq hkq => hs c t _ _ _)
    (fun c t kq hkq => hd c t _ _ _)

end Cert.Kernel.HypsOfRange

end
-- ==== Proof.KernelBlock.lean ====
/-
  What one grid point of the kernel leaves in its output tile, at the exact instance. The body runs 64 trips; trip `k`
  reads the 128 source words and the 128 destination words at offsets `128 k … 128 k + 127` of the staged tiles, loads
  the table rows they name, stacks them into two [128, 64] arrays, multiplies them entry by entry, sums each row
  over the 64 features and stores the 128 sums at offset `128 k` of the output tile. So entry `p` of the tile is the
  inner product of the rows named by word `p` of the source tile and word `p` of the destination tile.
-/
import proofs.«407063_j24352464569641_2_alg».proof.Proof.Blocks
import proofs.«407063_j24352464569641_2_alg».proof.Proof.Spec
import proofs.«407063_j24352464569641_2_alg».proof.Proof.HypsIdeal
import Idealize.ShloMosaic.PureOps.Ideal.Laws

set_option maxRecDepth 131072

noncomputable section

namespace Cert.KernelIdeal.BlockValue

open Cert.KernelIdeal Cert.KernelIdeal.Gen Cert.KernelIdeal.Blocks
open Idealize.ShloMosaic Idealize.ShloMosaic.TcCoe Idealize.ShloMosaic.ValueIdx Idealize.ShloMosaic.Tactic Idealize.SL.Sem

/-! ## Where a trip reads and writes -/

/-- Where lane `n` of trip `k` reads its endpoint word in a staged tile, as the body computes it. -/
def wordOff (k : Fin k0_t1_loop.trips) (n : Fin 128) : Fin 1 → Nat :=
  ![(Scalar.indexCast (Scalar.addi (Scalar.muli (Scf.iv 0#32 1#32 k) 128#32) (BitVec.ofNat 32 n.val))).toNat]

/-- It is word `128 k + n` of the tile. -/
theorem wordOff_eq : ∀ (k : Fin k0_t1_loop.trips) (n : Fin 128), wordOff k n = ![128 * k.val + n.val] := by
  decide +kernel

theorem trip_lt (k : Fin k0_t1_loop.trips) : k.val < 64 := Nat.lt_of_lt_of_le k.isLt k0_t1_abs.2.1

/-- The word lies inside the tile of 8192. -/
theorem wordOff_inb (k : Fin k0_t1_loop.trips) (n : Fin 128) : ∀ a, wordOff k n a + S1.size a ≤ S8192.size a := by
  intro a
  have hk := trip_lt k
  have hn := n.isLt
  rw [wordOff_eq]
  fin_cases a
  show 128 * k.val + n.val + 1 ≤ 8192
  omega

/-- Lane `j` of trip `k` is word `128 k + j` of a tile. -/
theorem lane_lt (k : Fin k0_t1_loop.trips) (j : Fin 128) : 128 * k.val + j.val < 8192 := by
  have hk := trip_lt k
  have hj := j.isLt
  omega

/-- Lane `j` of the 128 words a trip stores at offset `off` of the output tile is word `off 0 + j` of the tile. -/
theorem emb_lane (off : Fin 1 → Nat) (inb : ∀ a, off a + (![128] : Fin 1 → Nat) a ≤ S8192.size a) (j : Fin 128)
    (h : off 0 + j.val < 8192) :
    (Rect.unit (s := S8192) off ![128] inb).emb (ix1 j) = ix1 ⟨off 0 + j.val, h⟩ := by
  funext a
  apply Fin.ext
  fin_cases a
  show off 0 + 1 * j.val = off 0 + j.val
  omega

/-! ## Loads -/

/-- A row load of a whole staging memref holding the table `x`, at row offset `off 0` and column offset 0, cast to a
    vector of 64 and back to one row: its entry `d` is `x` at row `off 0`, column `d`. -/
theorem row_load (M : Memref sig .tc .vmem S100000x64 .f32) (hM : M.IsWhole) (x : Vec Ideal S100000x64 .f32)
    (off : Fin 2 → Nat) (inb : ∀ a, off a + S1x64.size a ≤ S100000x64.size a) (h0 : off 1 = 0)
    (hc1 : S1x64.ShapeCasts S64) (hc2 : S64.ShapeCasts S1x64) (d : Fin 64) (hr : off 0 < 100000) :
    shapeCast S1x64 (shapeCast S64 (M.view.readAt (Elt Ideal) (Rect.unit (s := S100000x64) off S1x64.size inb).toLoadRect (hM.unread x)) hc1) hc2
        (ix2 (0 : Fin 1) d)
      = x (ix2 ⟨off 0, hr⟩ d) := by
  rw [shapeCast_shapeCast, View.readAt_eq_ld, Memref.IsWhole.read_unread]
  show x _ = x _
  congr 1
  funext a
  apply Fin.ext
  match a with
  | ⟨0, _⟩ =>
    show off 0 + 1 * 0 = off 0
    omega
  | ⟨1, _⟩ =>
    show off 1 + 1 * d.val = d.val
    omega

/-- The row a loaded endpoint word names lies inside the table, when the tile's words are below 100000. -/
theorem load_inb (M : Memref sig .tc .smem S8192 .i32) (hM : M.IsWhole) (x : Vec Ideal S8192 .i32)
    (hx : ∀ p : S8192.Idx, (x p).toNat < 100000) (off : Fin 1 → Nat) (inb : ∀ a, off a + S1.size a ≤ S8192.size a)
    (h1 : 0 < S1.numel) :
    ∀ a, (![(Scalar.indexCast (M.view.readAt (Elt Ideal) (Rect.unit (s := S8192) off S1.size inb).toLoadRect (hM.unread x)
        (Shape.Idx.first h1))).toNat, 0] : Fin 2 → Nat) a + S1x64.size a ≤ S100000x64.size a :=
  Cert.KernelIdeal.HypsOfRange.row_inb _ (by rw [word_load]; exact hx _)

/-! ## The stack of 128 gathered rows -/

/-- 128 shapes of one row concatenate along axis 0 into [128, 64]. -/
theorem stack_concat {α : Type} (f : Fin 128 → (S1x64.Idx → α)) :
    Shape.Concatenates ((List.ofFn fun n : Fin 128 => (⟨S1x64, f n⟩ : (s : Shape) × (s.Idx → α))).map (·.1)) S128x64 0 := by
  rw [List.map_ofFn]
  show Shape.Concatenates (List.ofFn fun _ : Fin 128 => S1x64) S128x64 0
  decide +kernel

/-- The [128, 64] array a trip stacks from one staged endpoint tile: row `n` is the table row named by the tile's word at
    lane `n`'s offset, loaded as one row, cast to a vector of 64 and back. -/
def stackOf (M0 : Memref sig .tc .vmem S100000x64 .f32) (h0 : M0.IsWhole) (M1 : Memref sig .tc .smem S8192 .i32) (h1 : M1.IsWhole)
    (x0 : Vec Ideal S100000x64 .f32) (x1 : Vec Ideal S8192 .i32) (hx1 : ∀ p : S8192.Idx, (x1 p).toNat < 100000)
    (k : Fin k0_t1_loop.trips) : FVec Ideal S128x64 .f32 :=
  concatenate S128x64 0
    (List.ofFn fun n : Fin 128 => (⟨S1x64,
      shapeCast S1x64 (shapeCast S64 (M0.view.readAt (Elt Ideal)
        (Rect.unit (s := S100000x64)
          ![(Scalar.indexCast (M1.view.readAt (Elt Ideal) (Rect.unit (s := S8192) (wordOff k n) S1.size (wordOff_inb k n)).toLoadRect
              (h1.unread x1) (Shape.Idx.first (numel1_S1.symm ▸ Nat.one_pos)))).toNat, 0]
          S1x64.size (load_inb M1 h1 x1 hx1 _ _ _)).toLoadRect (h0.unread x0)) shapeCasts_S1x64_S64) shapeCasts_S64_S1x64⟩ :
        (s : Shape) × (s.Idx → Elt Ideal .f32)))
    (stack_concat _)

/-- Entry `(j, d)` of the stack is the table at the row named by word `128 k + j` of the tile, column `d`. -/
theorem stackOf_apply (M0 : Memref sig .tc .vmem S100000x64 .f32) (h0 : M0.IsWhole) (M1 : Memref sig .tc .smem S8192 .i32)
    (h1 : M1.IsWhole) (x0 : Vec Ideal S100000x64 .f32) (x1 : Vec Ideal S8192 .i32)
    (hx1 : ∀ p : S8192.Idx, (x1 p).toNat < 100000) (k : Fin k0_t1_loop.trips) (j : Fin 128) (d : Fin 64) :
    stackOf M0 h0 M1 h1 x0 x1 hx1 k (ix2 j d)
      = x0 (ix2 (Cert.DotSpec.rowOf (x1 (ix1 ⟨128 * k.val + j.val, lane_lt k j⟩))) d) := by
  unfold stackOf
  refine (concatenate_ofFn_unit_apply (t := S128x64) (s₁ := S1x64) (0 : Fin 2) _ (stack_concat _) rfl rfl (ix2 j d) j rfl (ix2 (0 : Fin 1) d) ?_).trans ?_
  · intro b hb
    match b with
    | ⟨0, _⟩ => exact absurd rfl hb
    | ⟨1, _⟩ => rfl
  · have hw : M1.view.readAt (Elt Ideal) (Rect.unit (s := S8192) (wordOff k j) S1.size (wordOff_inb k j)).toLoadRect
          (h1.unread x1) (Shape.Idx.first (numel1_S1.symm ▸ Nat.one_pos))
        = x1 (ix1 ⟨128 * k.val + j.val, lane_lt k j⟩) := by
      rw [word_load]
      congr 1
      funext a
      apply Fin.ext
      fin_cases a
      show wordOff k j 0 = 128 * k.val + j.val
      rw [wordOff_eq]
      rfl
    have hlt : (x1 (ix1 ⟨128 * k.val + j.val, lane_lt k j⟩)).toNat < 100000 := hx1 _
    refine (row_load M0 h0 x0 _ _ rfl _ _ d (by show (Scalar.indexCast _).toNat < 100000; rw [hw]; exact hlt)).trans ?_
    congr 1
    funext a
    apply Fin.ext
    match a with
    | ⟨0, _⟩ =>
      show (Scalar.indexCast _).toNat = (Cert.DotSpec.rowOf _).val
      rw [hw, Cert.DotSpec.rowOf_val _ hlt]
      rfl
    | ⟨1, _⟩ => rfl

/-! ## The row sums of a product of two stacks -/

/-- The body's payload at lane `j`: the sum over the 64 features of the entrywise product of the two stacks' rows `j`. -/
theorem pay_apply (A B : FVec Ideal S128x64 .f32) (j : Fin 128) :
    k0_pay2 (F := Ideal) A B (ix1 j) = ∑ d : Fin 64, A (ix2 j d) * B (ix2 j d) := by
  unfold k0_pay2
  refine (Ideal.multiReduction_add_single (mulf A B) _ _ _ _ (ix1 j)).trans ?_
  refine Finset.sum_congr rfl fun d _ => ?_
  show A _ * B _ = A (ix2 j d) * B (ix2 j d)
  have e : (reduces_S128x64_S128).lift (ix1 j) d = ix2 j d := by
    funext a
    match a with
    | ⟨0, _⟩ => rfl
    | ⟨1, _⟩ => rfl
  rw [e]
  rfl

/-! ## The output tile -/

variable (m : (ℓ : Loc nD τ sig) → Buf (Elt Ideal) ℓ)

set_option maxHeartbeats 6400000 in
/-- Entry `y` of the output tile after the body at point `t`: the inner product of the table rows that word `y` of
    the source tile and word `y` of the destination tile name. The tile is what the 64 trips' stores leave; each
    trip's one store is a block of this function, so the whole tile is the function. -/
theorem outsAt0_apply (hH : Hyps m) (c : Dev nD) (t : Fin cfg0.N)
    (hs : ∀ p : S8192.Idx, (srcBlk m c t p).toNat < 100000) (hd : ∀ p : S8192.Idx, (dstBlk m c t p).toNat < 100000)
    (y : S8192.Idx) :
    outsAt0 m hH c t y
      = Cert.DotSpec.rowDot (tblBlk m c t) (Cert.DotSpec.rowOf (srcBlk m c t y)) (Cert.DotSpec.rowOf (dstBlk m c t y)) := by
  unfold outsAt0 out0_A_3
  rw [View.read_writes_eq_canon _ _ _ (cover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  refine View.canon_apply_of_pieces (Val := Elt Ideal) (S := S8192) (e := .f32)
    (fun y : S8192.Idx => (Cert.DotSpec.rowDot (tblBlk m c t) (Cert.DotSpec.rowOf (srcBlk m c t y)) (Cert.DotSpec.rowOf (dstBlk m c t y)) : EReal))
    _ ?_ y (cover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  unfold kernelRun0_A
  dsimp only
  generalize hT : Scf.trips (0#32) (Scalar.addi 0#32 64#32) 1#32 = T
  have hle : T ≤ k0_t1_loop.trips := by rw [← hT]
  clear hT
  induction T with
  | zero =>
    intro p hp
    rw [pb_k0_t1.eq_1] at hp
    exact absurd hp List.not_mem_nil
  | succ n ih =>
    have hn : n < k0_t1_loop.trips := hle
    rw [show n + 1 = (⟨n, hn⟩ : Fin k0_t1_loop.trips).val + 1 from rfl, pb_k0_t1_succ]
    intro p hp
    rcases List.mem_append.mp hp with h | h
    · unfold tripL_k0_t1 trip_k0_t1 at h
      dsimp only at h
      rw [List.mem_singleton] at h
      subst h
      intro x
      dsimp only
      obtain ⟨j, rfl⟩ : ∃ j : Fin 128, x = ix1 j := ⟨x 0, eq_ix1 x⟩
      have hoff : k0_off385 ⟨n, hn⟩ 0 = 128 * n := by rw [k0_off385_eq]; rfl
      have hlt : k0_off385 ⟨n, hn⟩ 0 + j.val < 8192 := by
        have := lane_lt ⟨n, hn⟩ j
        rw [hoff]; exact this
      rw [emb_lane (k0_off385 ⟨n, hn⟩) _ j hlt]
      have hidx : (ix1 ⟨k0_off385 ⟨n, hn⟩ 0 + j.val, hlt⟩ : S8192.Idx) = ix1 ⟨128 * n + j.val, lane_lt ⟨n, hn⟩ j⟩ := by
        congr 1
        exact Fin.ext (by show k0_off385 ⟨n, hn⟩ 0 + j.val = 128 * n + j.val; rw [hoff])
      rw [hidx]
      refine (pay_apply _ _ j).trans ?_
      unfold Cert.DotSpec.rowDot
      refine Finset.sum_congr rfl fun d _ => ?_
      exact congrArg₂ (· * ·)
        (stackOf_apply (ms0_0 t) (hs0_0 t) (ms0_1 t) (hs0_1 t) (tblBlk m c t) (srcBlk m c t) hs ⟨n, hn⟩ j d)
        (stackOf_apply (ms0_0 t) (hs0_0 t) (ms0_2 t) (hs0_2 t) (tblBlk m c t) (dstBlk m c t) hd ⟨n, hn⟩ j d)
    · exact ih (Nat.le_of_lt hn) p h

end Cert.KernelIdeal.BlockValue

end
-- ==== Proof.KernelArray.lean ====
/-
  The region's result array, at the exact instance: point `t` writes its output tile back as words
  `8192 t … 8192 t + 8191` of the [1253376] array, the 153 tiles cover it, and entry `p` of tile `t` is the inner product
  of the rows named by words `8192 t + p` of the two padded endpoint arrays. So the array is the score of every padded
  edge.
-/
import proofs.«407063_j24352464569641_2_alg».proof.Proof.KernelBlock

set_option maxRecDepth 16384

noncomputable section

namespace Cert.KernelIdeal.ArrayValue

open Cert.KernelIdeal Cert.KernelIdeal.Gen Cert.KernelIdeal.Blocks Cert.KernelIdeal.BlockValue
open Idealize.ShloMosaic Idealize.ShloMosaic.TcCoe Idealize.ShloMosaic.ValueIdx Idealize.SL.Sem

variable (m : (ℓ : Loc nD τ sig) → Buf (Elt Ideal) ℓ)

/-- The score of every padded edge: the inner product of the rows its two padded endpoint words name. -/
def paddedScore (c : Dev nD) : S1253376.Idx → EReal := fun p =>
  Cert.DotSpec.rowDot (m ((c : Thread nD τ).loc main_arg0))
    (Cert.DotSpec.rowOf (padded (m ((c : Thread nD τ).loc main_arg1)) p))
    (Cert.DotSpec.rowOf (padded (m ((c : Thread nD τ).loc main_arg2)) p))

/-- The result window's block index at point `t` is `t`. -/
theorem index3 : ∀ t : Fin grid0.N, win0_3.index t (0 : Fin 1) = t.val := by decide +kernel

/-- Entry `p` of the tile point `t` leaves is the score of padded edge `8192 t + p`. -/
theorem tile_score (hH : Hyps m) (c : Dev nD)
    (h1 : ∀ e : S1250000.Idx, (m ((c : Thread nD τ).loc main_arg1) e).toNat < 100000)
    (h2 : ∀ e : S1250000.Idx, (m ((c : Thread nD τ).loc main_arg2) e).toNat < 100000)
    (t : Fin cfg0.N) (p : Fin 8192) :
    outsAt0 m hH c t (ix1 p) = paddedScore m c (ix1 ⟨8192 * t.val + p.val, tile_lt t p⟩) := by
  have hs : ∀ q : S8192.Idx, (srcBlk m c t q).toNat < 100000 := fun q => by
    obtain ⟨r, rfl⟩ : ∃ r, q = ix1 r := ⟨q 0, eq_ix1 q⟩
    rw [srcBlk_apply m c t r]
    exact padded_lt _ h1 _
  have hd : ∀ q : S8192.Idx, (dstBlk m c t q).toNat < 100000 := fun q => by
    obtain ⟨r, rfl⟩ : ∃ r, q = ix1 r := ⟨q 0, eq_ix1 q⟩
    rw [dstBlk_apply m c t r]
    exact padded_lt _ h2 _
  refine (outsAt0_apply m hH c t hs hd (ix1 p)).trans ?_
  rw [tblBlk_eq m c t, srcBlk_apply m c t p, dstBlk_apply m c t p]
  rfl

/-- What point `t` writes back is tile `t` of the padded score. -/
theorem flushed_eq (hH : Hyps m) (c : Dev nD)
    (h1 : ∀ e : S1250000.Idx, (m ((c : Thread nD τ).loc main_arg1) e).toNat < 100000)
    (h2 : ∀ e : S1250000.Idx, (m ((c : Thread nD τ).loc main_arg2) e).toNat < 100000)
    (t : Fin cfg0.N) :
    (dats m hH 0 c).flushed 3 t = ((cfg0.win 3).blk t).view.read (Elt Ideal) (paddedScore m c) := by
  show (cfg0.win 3).cut (grid0.coords t) ((dats m hH 0 c).after 3 t) = _
  rw [after0_3]
  refine funext fun (y : S8192.Idx) => ?_
  obtain ⟨p, rfl⟩ : ∃ p, y = ix1 p := ⟨y 0, eq_ix1 y⟩
  show outsAt0 m hH c t (ix1 p) = paddedScore m c (((cfg0.win 3).blk t).view.emb (ix1 p))
  rw [tile_score m hH c h1 h2 t p]
  congr 1
  funext a
  apply Fin.ext
  fin_cases a
  show 8192 * t.val + p.val = win0_3.index t 0 * 8192 + 1 * p.val
  rw [index3 t]; omega

/-- An index of the result array is in point `t`'s tile iff it lies in the tile's range. -/
theorem mem_tile (t : Fin cfg0.N) (i : S1253376.Idx) :
    i ∈ ((cfg0.win 3).blk t).view.set ↔ ∀ a : Fin 1, win0_3.index t a * S8192.size a ≤ (i a).val ∧ (i a).val < win0_3.index t a * S8192.size a + S8192.size a := by
  show i ∈ ((View.whole main_v2).slice (win0_3.rect t)).set ↔ _
  rw [View.set_slice_whole, Rect.mem_set_unit]
  exact Iff.rfl

/-- Every word of the result array is in the tile of the point `word / 8192`, which writes it back. -/
theorem covered (i : S1253376.Idx) :
    ∃ t : Fin cfg0.N, (cfg0.win 3).flush t = true ∧ i ∈ ((cfg0.win 3).blk t).view.set := by
  have hi : (i 0).val < 1253376 := (i 0).isLt
  have hN : cfg0.N = 153 := N_0
  have hq : (i 0).val / 8192 < cfg0.N := by rw [hN]; omega
  refine ⟨⟨(i 0).val / 8192, hq⟩, flush0_3 _, ?_⟩
  rw [mem_tile]
  intro a
  fin_cases a
  show win0_3.index ⟨(i 0).val / 8192, hq⟩ 0 * 8192 ≤ (i 0).val ∧ (i 0).val < win0_3.index ⟨(i 0).val / 8192, hq⟩ 0 * 8192 + 8192
  rw [index3 ⟨(i 0).val / 8192, hq⟩]
  show (i 0).val / 8192 * 8192 ≤ (i 0).val ∧ (i 0).val < (i 0).val / 8192 * 8192 + 8192
  omega

/-- After the region the result array holds the score of every padded edge. -/
theorem region_array (hH : Hyps m) (c : Dev nD)
    (h1 : ∀ e : S1250000.Idx, (m ((c : Thread nD τ).loc main_arg1) e).toNat < 100000)
    (h2 : ∀ e : S1250000.Idx, (m ((c : Thread nD τ).loc main_arg2) e).toNat < 100000) :
    ((dats m hH 0 c).arrAt 3 cfg0.N : S1253376.Idx → EReal) = paddedScore m c := by
  exact (dats m hH 0 c).arrAt_eq_of_cover 3 (paddedScore m c) (fun t _ => flushed_eq m hH c h1 h2 t) covered

end Cert.KernelIdeal.ArrayValue

end
-- ==== Proof.KernelRun.lean ====
/-
  The idealized kernel's run with its result named: after the region the host slices the first 1250000 entries of the
  padded score array, and below 1250000 a padded endpoint array is the argument itself; so the program ends with the
  score of every edge, its arguments unchanged.
-/
import proofs.«407063_j24352464569641_2_alg».proof.Proof.KernelArray
import Idealize.ShloMosaic.Lib.StableHlo.Run

set_option maxRecDepth 16384

noncomputable section

namespace Cert.KernelIdeal.RunValue

open Cert.KernelIdeal Cert.KernelIdeal.Gen Cert.KernelIdeal.Blocks Cert.KernelIdeal.ArrayValue
open Idealize.ShloMosaic Idealize.ShloMosaic.TcCoe Idealize.ShloMosaic.ValueIdx Idealize.SL.Sem

variable (m : (ℓ : Loc nD τ sig) → Buf (Elt Ideal) ℓ) (ρ : Dev nD → PrngReg)

/-- Below 1250000 a padded endpoint array is the argument itself. -/
theorem padded_below (x : S1250000.Idx → BitVec 32) (i : Fin 1250000) (h : i.val < 1253376) :
    padded x (ix1 (⟨i.val, h⟩ : Fin 1253376)) = x (ix1 i) := by
  unfold padded
  rw [dif_pos (show ((ix1 (⟨i.val, h⟩ : Fin 1253376) : S1253376.Idx) 0).val < 1250000 from i.isLt)]

/-- The program's result as the host's last line leaves it: the first 1250000 entries of the region's result array,
    which below 1250000 is the score of every edge. -/
theorem tail_main_v3 (hH : Hyps m) (c : Dev nD)
    (h1 : ∀ e : S1250000.Idx, (m ((c : Thread nD τ).loc main_arg1) e).toNat < 100000)
    (h2 : ∀ e : S1250000.Idx, (m ((c : Thread nD τ).loc main_arg2) e).toNat < 100000) :
    Pipeline.afterTail₀ cfgs (dats m hH) 0 (V0 m) [hostOps1] c main_v3
      = Cert.DotSpec.score (m ((c.tc : Thread nD τ).loc main_arg0)) (m ((c.tc : Thread nD τ).loc main_arg1))
          (m ((c.tc : Thread nD τ).loc main_arg2)) := by
  unfold Pipeline.afterTail₀
  show StableHlo.after hostOps1 _ (Proc.devRef .tc main_v3) = _
  open StableHlo in after_results
  -- read the slice at edge `i`: entry `i` of the region's result array
  funext e
  obtain ⟨i, rfl⟩ : ∃ i, e = ix1 i := ⟨e 0, eq_ix1 e⟩
  have hlt : i.val < 1253376 := by have := i.isLt; omega
  refine (extractStridedSlice_apply _ _ _ (ix1 i) (ix1 (⟨i.val, hlt⟩ : Fin 1253376)) (fun a => ?_)).trans ?_
  · match a with
    | ⟨0, _⟩ => show i.val = 0 + i.val; omega
  -- the region's result array is the score of every padded edge
  refine (congrFun ((Pipeline.withArrays_arr spec0 launch0.win.arr_inj c _ _ 3).trans
    (region_array m hH c h1 h2)) _).trans ?_
  -- and below 1250000 the padded endpoints are the arguments
  unfold paddedScore Cert.DotSpec.score
  rw [padded_below, padded_below]

/-- Every weakly fair execution of the idealized kernel program terminates with the score of every edge in its result
    and its arguments unchanged, when the body's side conditions hold and every endpoint word is below 100000. -/
theorem kernel_run (hH : Hyps m)
    (h1 : ∀ (c : Dev nD) (e : S1250000.Idx), (m ((c : Thread nD τ).loc main_arg1) e).toNat < 100000)
    (h2 : ∀ (c : Dev nD) (e : S1250000.Idx), (m ((c : Thread nD τ).loc main_arg2) e).toNat < 100000) :
    θ_run defs (onTc (τ := τ) (main (F := Ideal))) ⟨m, fun _ => 0, ρ⟩ (fun r => ∀ c : Dev nD,
      r.2.mem ((c.tc : Thread nD τ).loc main_v3)
          = Cert.DotSpec.score (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_⟩) (run_main m ρ hH)
  · -- the result: no window's array, so the frame run states it as the host's last line leaves it
    exact ((h c).2 main_v3 (Pipeline.mem_restRefs_of main_v3 (by decide) (by decide))).trans
      (tail_main_v3 m hH c (h1 c) (h2 c))
  · -- the table: an input window's array, at its contents when the region is entered
    exact ((h c).1 0).trans (((dats m hH 0 c).arrAt_in 0 rfl _).trans ((A_eq m hH c 0).trans (V_main_arg0 m c)))
  · -- the endpoint arrays: no window's array (the region reads their padded copies), never written
    exact ((h c).2 main_arg1 (Pipeline.mem_restRefs_of main_arg1 (by decide) (by decide))).trans
      (W_main_arg1 m (dats m hH) c)
  · exact ((h c).2 main_arg2 (Pipeline.mem_restRefs_of main_arg2 (by decide) (by decide))).trans
      (W_main_arg2 m (dats m hH) c)

end Cert.KernelIdeal.RunValue

end
-- ==== Proof.lean ====
/-
  The certificate of the edge-score kernel against its reference.

  Both programs compute, for every edge `e`, the inner product over the 64 features of two rows of the node table:
  the row named by `src e` and the row named by `dst e` (`Cert.DotSpec.score`). The precondition says the table is
  finite and every endpoint word is at least 0 and below 100000, so each word names a row of the table.

  The kernel pads the two endpoint arrays with zeros to 153 tiles of 8192 words; at each grid point it loads, for
  every word of the source and destination tiles, the table row the word names (the load lies inside the table because the
  word is below 100000: the side conditions of the frames), multiplies the two rows entry by entry and sums over the
  features; the host then keeps the first 1250000 results. The reference normalises a negative index by adding 100000,
  gathers the rows with the start index clamped into the table, multiplies and sums from 0. On words in [0, 100000)
  neither the normalisation nor the clamp changes the word, and a sum from 0 is the sum: the two results are one
  function of the arguments. Nothing here uses finiteness: the two sides are the same sum of the same products, term by
  term.
-/
import proofs.«407063_j24352464569641_2_alg».proof.Defs
import proofs.«407063_j24352464569641_2_alg».proof.Proof.Gen.Kernel
import proofs.«407063_j24352464569641_2_alg».proof.Proof.Gen.Kernel.Skeleton
import proofs.«407063_j24352464569641_2_alg».proof.Proof.Gen.Kernel.Loops
import proofs.«407063_j24352464569641_2_alg».proof.Proof.Gen.Kernel.Launch
import proofs.«407063_j24352464569641_2_alg».proof.Proof.Gen.Kernel.Points
import proofs.«407063_j24352464569641_2_alg».proof.Proof.Gen.Kernel.Frame
import proofs.«407063_j24352464569641_2_alg».proof.Proof.Gen.KernelIdeal
import proofs.«407063_j24352464569641_2_alg».proof.Proof.Gen.KernelIdeal.Skeleton
import proofs.«407063_j24352464569641_2_alg».proof.Proof.Gen.KernelIdeal.Loops
import proofs.«407063_j24352464569641_2_alg».proof.Proof.Gen.KernelIdeal.Launch
import proofs.«407063_j24352464569641_2_alg».proof.Proof.Gen.KernelIdeal.Points
import proofs.«407063_j24352464569641_2_alg».proof.Proof.Gen.KernelIdeal.Frame
import proofs.«407063_j24352464569641_2_alg».proof.Proof.Gen.ReferenceIdeal
import proofs.«407063_j24352464569641_2_alg».proof.Proof.Gen.ReferenceIdeal.Run
import proofs.«407063_j24352464569641_2_alg».proof.Proof.Gen.ReferenceIdeal.Read
import proofs.«407063_j24352464569641_2_alg».proof.Proof.Gen.Pre_finite_inputs
import proofs.«407063_j24352464569641_2_alg».proof.Proof.PreRange
import proofs.«407063_j24352464569641_2_alg».proof.Proof.RefSide
import proofs.«407063_j24352464569641_2_alg».proof.Proof.HypsIdeal
import proofs.«407063_j24352464569641_2_alg».proof.Proof.HypsBits
import proofs.«407063_j24352464569641_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs: its row loads lie inside the table because the precondition bounds every endpoint word. -/
theorem frame_k : Cert.frame_Kernel := fun m ρ h =>
  Cert.Kernel.Gen.frame m ρ (Cert.Kernel.HypsOfRange.hyps_of_range m
    (fun c e => Cert.PreRange.src_lt _ _ _ (h c) e) (fun c e => Cert.PreRange.dst_lt _ _ _ (h c) e))

/-- The idealized kernel runs, for the same reason. -/
theorem frame_ki : Cert.frame_KernelIdeal := fun m ρ h =>
  Cert.KernelIdeal.Gen.frame m ρ (Cert.KernelIdeal.HypsOfRange.hyps_of_range m
    (fun c e => Cert.PreRange.src_lt _ _ _ (h c) e) (fun c e => Cert.PreRange.dst_lt _ _ _ (h c) e))

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the score of every edge: the kernel by its run read tile by tile, the reference by its
    stages read index by index, on arguments whose endpoint words the precondition puts in [0, 100000). -/
theorem algebraic : Cert.algebraic_KernelIdeal_ReferenceIdeal := by
  intro m ρ m' ρ' hpre hagree
  have h1 : ∀ (c : Dev Cert.KernelIdeal.nD) (e : Cert.KernelIdeal.S1250000.Idx),
      (m ((c : Thread Cert.KernelIdeal.nD Cert.KernelIdeal.τ).loc Cert.KernelIdeal.main_arg1) e).toNat < 100000 :=
    fun c e => Cert.PreRange.src_lt _ _ _ (hpre c) e
  have h2 : ∀ (c : Dev Cert.KernelIdeal.nD) (e : Cert.KernelIdeal.S1250000.Idx),
      (m ((c : Thread Cert.KernelIdeal.nD Cert.KernelIdeal.τ).loc Cert.KernelIdeal.main_arg2) e).toNat < 100000 :=
    fun c e => Cert.PreRange.dst_lt _ _ _ (hpre c) e
  refine ⟨fun c => Cert.DotSpec.score
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RunValue.kernel_run m ρ (Cert.KernelIdeal.HypsOfRange.hyps_of_range m h1 h2) h1 h2, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v15_eq]
  exact Cert.RefSide.ref_score _ _ _ (h1 c) (h2 c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
